-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x64 : Shape := ⟨2, ![50000, 64]⟩
abbrev S9x32 : Shape := ⟨2, ![9, 32]⟩
abbrev S3x32 : Shape := ⟨2, ![3, 32]⟩
abbrev S64x128 : Shape := ⟨2, ![64, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S200000x2 : Shape := ⟨2, ![200000, 2]⟩
abbrev S1000000 : Shape := ⟨1, ![1000000]⟩
abbrev S100000 : Shape := ⟨1, ![100000]⟩
abbrev S_ : Shape := ⟨0, ![]⟩
abbrev S200000x1 : Shape := ⟨2, ![200000, 1]⟩
abbrev S200000 : Shape := ⟨1, ![200000]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S9x32 : S_.BroadcastsInDim S9x32 (![] : Fin 0 → Fin S9x32.rank)
  reducesTo_S9x32_S_d0_1 : S9x32.ReducesTo [0, 1] S_
  bcast_S_S3x32 : S_.BroadcastsInDim S3x32 (![] : Fin 0 → Fin S3x32.rank)
  reducesTo_S3x32_S_d0_1 : S3x32.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  reducesTo_S200000_S_d0 : S200000.ReducesTo [0] S_
  slices_S200000x2_S200000x1_0_1 : S200000x2.Slices ![0, 1] S200000x1

variable [Facts]

def fn_part6 {F : FTy → Type} [FloatOps F] (main_arg18 : IVec S200000x2 32) (main_v99 : IVec S_ 1) (main_v103 : IVec S200000 1) : IVec S_ 1 :=
  let main_v104 : IVec S200000x1 32 := (extractStridedSlice S200000x1 ![0, 1] · slices_S200000x2_S200000x1_0_1) main_arg18
  let main_v105 : IVec S200000 32 := shapeCast S200000 main_v104 shapeCasts_S200000x1_S200000
  let main_c_38 : IVec S_ 32 := constantI S_ 32 3#32
  let main_v106 : IVec S200000 32 := broadcastInDim S200000 ![] bcast_S_S200000 main_c_38
  let main_v107 : IVec S200000 1 := cmpi .slt main_v105 main_v106
  let main_v108 : IVec S200000 1 := andi main_v103 main_v107
  let main_c_39 : IVec S_ 1 := constantI S_ 1 1#1
  let main_v109 : IVec S_ 1 := (fun x v => Host.reduce IntOp.andi x v reducesTo_S200000_S_d0 h_S_) main_v108 main_c_39
  let main_v110 : IVec S_ 1 := andi main_v99 main_v109
  main_v110

def fn_part5 {F : FTy → Type} [FloatOps F] (main_arg18 : IVec S200000x2 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : IVec S200000x1 32 := (extractStridedSlice S200000x1 ![0, 0] · slices_S200000x2_S200000x1_0_0) main_arg18
  let main_v90 : IVec S200000 32 := shapeCast S200000 main_v89 shapeCasts_S200000x1_S200000
  let main_c_34 : IVec S_ 32 := constantI S_ 32 0#32
  let main_v91 : IVec S200000 32 := broadcastInDim S200000 ![] bcast_S_S200000 main_c_34
  let main_v92 : IVec S200000 1 := cmpi .sge main_v90 main_v91
  let main_v93 : IVec S200000x1 32 := (extractStridedSlice S200000x1 ![0, 0] · slices_S200000x2_S200000x1_0_0) main_arg18
  let main_v94 : IVec S200000 32 := shapeCast S200000 main_v93 shapeCasts_S200000x1_S200000
  let main_c_35 : IVec S_ 32 := constantI S_ 32 9#32
  let main_v95 : IVec S200000 32 := broadcastInDim S200000 ![] bcast_S_S200000 main_c_35
  let main_v96 : IVec S200000 1 := cmpi .slt main_v94 main_v95
  let main_v97 : IVec S200000 1 := andi main_v92 main_v96
  let main_c_36 : IVec S_ 1 := constantI S_ 1 1#1
  let main_v98 : IVec S_ 1 := (fun x v => Host.reduce IntOp.andi x v reducesTo_S200000_S_d0 h_S_) main_v97 main_c_36
  let main_v99 : IVec S_ 1 := andi main_v88 main_v98
  let main_v100 : IVec S200000x1 32 := (extractStridedSlice S200000x1 ![0, 1] · slices_S200000x2_S200000x1_0_1) main_arg18
  let main_v101 : IVec S200000 32 := shapeCast S200000 main_v100 shapeCasts_S200000x1_S200000
  let main_c_37 : IVec S_ 32 := constantI S_ 32 0#32
  let main_v102 : IVec S200000 32 := broadcastInDim S200000 ![] bcast_S_S200000 main_c_37
  let main_v103 : IVec S200000 1 := cmpi .sge main_v101 main_v102
  fn_part6 (F := F) main_arg18 main_v99 main_v103

def fn_part4 {F : FTy → Type} [FloatOps F] (main_arg14 : FVec F S128x128 .f32) (main_arg15 : FVec F S128 .f32) (main_arg16 : FVec F S256x1 .f32) (main_arg17 : FVec F S1 .f32) (main_arg18 : IVec S200000x2 32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x128 .f32) (main_arg12 : FVec F S128 .f32) (main_arg13 : FVec F S128x128 .f32) (main_arg14 : FVec F S128x128 .f32) (main_arg15 : FVec F S128 .f32) (main_arg16 : FVec F S256x1 .f32) (main_arg17 : FVec F S1 .f32) (main_arg18 : IVec S200000x2 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S128x128 .f32) (main_arg8 : FVec F S64x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S256x1 .f32) (main_arg17 : FVec F S1 .f32) (main_arg18 : IVec S200000x2 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_v48 main_v49 main_v50

def fn_part1 {F : FTy → Type} [FloatOps F] (main_arg4 : FVec F S64x128 .f32) (main_arg5 : FVec F S128x128 .f32) (main_arg6 : FVec F S128 .f32) (main_arg7 : FVec F S128x128 .f32) (main_arg8 : FVec F S64x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S256x1 .f32) (main_arg17 : FVec F S1 .f32) (main_arg18 : IVec S200000x2 32) (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S200000x64 .f32) (main_arg1 : FVec F S50000x64 .f32) (main_arg2 : FVec F S9x32 .f32) (main_arg3 : FVec F S3x32 .f32) (main_arg4 : FVec F S64x128 .f32) (main_arg5 : FVec F S128x128 .f32) (main_arg6 : FVec F S128 .f32) (main_arg7 : FVec F S128x128 .f32) (main_arg8 : FVec F S64x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S256x1 .f32) (main_arg17 : FVec F S1 .f32) (main_arg18 : IVec S200000x2 32) (main_arg19 : IVec S1000000 32) (main_arg20 : IVec S1000000 32) (main_arg21 : IVec S1000000 32) (main_arg22 : IVec S1000000 32) (main_arg23 : IVec S100000 32) (main_arg24 : IVec S100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S9x32 .f32 := Host.absf main_arg2
  let main_cst_2 : FVec F S_ .f32 := constant S_ .f32 0x7F800000#32
  let main_v10 : FVec F S9x32 .f32 := broadcastInDim S9x32 ![] bcast_S_S9x32 main_cst_2
  let main_v11 : IVec S9x32 1 := cmpf .olt main_v9 main_v10
  let main_c_3 : IVec S_ 1 := constantI S_ 1 1#1
  let main_v12 : IVec S_ 1 := (fun x v => Host.reduce IntOp.andi x v reducesTo_S9x32_S_d0_1 h_S_) main_v11 main_c_3
  let main_v13 : IVec S_ 1 := andi main_v8 main_v12
  let main_v14 : FVec F S3x32 .f32 := Host.absf main_arg3
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S200000x64 : Shape := ⟨2, ![200000, 64]⟩
abbrev S50000x64 : Shape := ⟨2, ![50000, 64]⟩
abbrev S9x32 : Shape := ⟨2, ![9, 32]⟩
abbrev S3x32 : Shape := ⟨2, ![3, 32]⟩
abbrev S64x128 : Shape := ⟨2, ![64, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S200000x2 : Shape := ⟨2, ![200000, 2]⟩
abbrev S1000000 : Shape := ⟨1, ![1000000]⟩
abbrev S100000 : Shape := ⟨1, ![100000]⟩
abbrev S200000x128 : Shape := ⟨2, ![200000, 128]⟩
abbrev S8000x2 : Shape := ⟨2, ![8000, 2]⟩
abbrev S8000x64 : Shape := ⟨2, ![8000, 64]⟩
abbrev S8000x128 : Shape := ⟨2, ![8000, 128]⟩
abbrev S8000x1 : Shape := ⟨2, ![8000, 1]⟩
abbrev S8000x9 : Shape := ⟨2, ![8000, 9]⟩
abbrev S8000x3 : Shape := ⟨2, ![8000, 3]⟩
abbrev S8000x32 : Shape := ⟨2, ![8000, 32]⟩
abbrev S_ : Shape := ⟨0, ![]⟩
abbrev S1000000x1 : Shape := ⟨2, ![1000000, 1]⟩
abbrev S1000000x64 : Shape := ⟨2, ![1000000, 64]⟩
abbrev S200000 : Shape := ⟨1, ![200000]⟩
abbrev S200000x1 : Shape := ⟨2, ![200000, 1]⟩
abbrev S4000x64 : Shape := ⟨2, ![4000, 64]⟩
abbrev S4000x128 : Shape := ⟨2, ![4000, 128]⟩
abbrev S1x128 : Shape := ⟨2, ![1, 128]⟩
abbrev S1000000x128 : Shape := ⟨2, ![1000000, 128]⟩
abbrev S50000x128 : Shape := ⟨2, ![50000, 128]⟩
abbrev S50000 : Shape := ⟨1, ![50000]⟩
abbrev S50000x1 : Shape := ⟨2, ![50000, 1]⟩
abbrev S5000x128 : Shape := ⟨2, ![5000, 128]⟩
abbrev S5000x64 : Shape := ⟨2, ![5000, 64]⟩
abbrev S100000x1 : Shape := ⟨2, ![100000, 1]⟩
abbrev S100000x128 : Shape := ⟨2, ![100000, 128]⟩
abbrev S100000x256 : Shape := ⟨2, ![100000, 256]⟩
abbrev S5000x256 : Shape := ⟨2, ![5000, 256]⟩
abbrev S5000x1 : Shape := ⟨2, ![5000, 1]⟩
abbrev S1x1 : Shape := ⟨2, ![1, 1]⟩

abbrev nBuf : Space → Nat
  | .hbm => 151
  | .vmem => 50
  | .smem => 0
  | _ => 0

abbrev hbmTy0_0 (i : Nat) : BufTy := match i % 128 with
  | 0 => ⟨S200000x64, .f32⟩
  | 1 => ⟨S50000x64, .f32⟩
  | 2 => ⟨S9x32, .f32⟩
  | 3 => ⟨S3x32, .f32⟩
  | 4 => ⟨S64x128, .f32⟩
  | 5 => ⟨S128x128, .f32⟩
  | 6 => ⟨S128, .f32⟩
  | 7 => ⟨S128x128, .f32⟩
  | 8 => ⟨S64x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S256x1, .f32⟩
  | 17 => ⟨S1, .f32⟩
  | 18 => ⟨S200000x2, .i32⟩
  | 19 => ⟨S1000000, .i32⟩
  | 20 => ⟨S1000000, .i32⟩
  | 21 => ⟨S1000000, .i32⟩
  | 22 => ⟨S1000000, .i32⟩
  | 23 => ⟨S100000, .i32⟩
  | 24 => ⟨S100000, .i32⟩
  | 25 => ⟨S200000x128, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S_, .f32⟩
  | 36 => ⟨S200000x64, .f32⟩
  | 37 => ⟨S1000000x1, .i32⟩
  | 38 => ⟨S200000x64, .f32⟩
  | 39 => ⟨S_, .f32⟩
  | 40 => ⟨S1000000, .f32⟩
  | 41 => ⟨S_, .f32⟩
  | 42 => ⟨S200000, .f32⟩
  | 43 => ⟨S1000000x1, .i32⟩
  | 44 => ⟨S200000, .f32⟩
  | 45 => ⟨S_, .f32⟩
  | 46 => ⟨S200000, .f32⟩
  | 47 => ⟨S200000, .f32⟩
  | 48 => ⟨S200000x1, .f32⟩
  | 49 => ⟨S200000x64, .f32⟩
  | 50 => ⟨S200000x64, .f32⟩
  | 51 => ⟨S200000x128, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x128, .f32⟩
  | 61 => ⟨S_, .f32⟩
  | 62 => ⟨S50000x128, .f32⟩
  | 63 => ⟨S1000000x1, .i32⟩
  | 64 => ⟨S50000x128, .f32⟩
  | 65 => ⟨S_, .f32⟩
  | 66 => ⟨S1000000, .f32⟩
  | 67 => ⟨S_, .f32⟩
  | 68 => ⟨S50000, .f32⟩
  | 69 => ⟨S1000000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x128, .f32⟩
  | 87 => ⟨S_, .f32⟩
  | 88 => ⟨S200000x128, .f32⟩
  | 89 => ⟨S1000000x1, .i32⟩
  | 90 => ⟨S200000x128, .f32⟩
  | 91 => ⟨S_, .f32⟩
  | 92 => ⟨S1000000, .f32⟩
  | 93 => ⟨S_, .f32⟩
  | 94 => ⟨S200000, .f32⟩
  | 95 => ⟨S1000000x1, .i32⟩
  | 96 => ⟨S200000, .f32⟩
  | 97 => ⟨S_, .f32⟩
  | 98 => ⟨S200000, .f32⟩
  | 99 => ⟨S200000, .f32⟩
  | 100 => ⟨S200000x1, .f32⟩
  | 101 => ⟨S200000x128, .f32⟩
  | 102 => ⟨S200000x128, .f32⟩
  | 103 => ⟨S200000x128, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .f32⟩
  | 113 => ⟨S_, .f32⟩
  | 114 => ⟨S50000x128, .f32⟩
  | 115 => ⟨S1000000x1, .i32⟩
  | 116 => ⟨S50000x128, .f32⟩
  | 117 => ⟨S_, .f32⟩
  | 118 => ⟨S1000000, .f32⟩
  | 119 => ⟨S_, .f32⟩
  | 120 => ⟨S50000, .f32⟩
  | 121 => ⟨S1000000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x128, .f32⟩
  | _ => ⟨S200000x64, .f32⟩

abbrev hbmTy0_1 (i : Nat) : BufTy := match i % 128 with
  | 0 => ⟨S50000x128, .f32⟩
  | 1 => ⟨S50000x128, .f32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x128, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S100000x256, .f32⟩
  | 21 => ⟨S100000x1, .f32⟩
  | 22 => ⟨S100000, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S8000x2, .i32⟩
  | .local _ .vmem, ⟨1, _⟩ => ⟨S8000x2, .i32⟩
  | .local _ .vmem, ⟨2, _⟩ => ⟨S9x32, .f32⟩
  | .local _ .vmem, ⟨3, _⟩ => ⟨S3x32, .f32⟩
  | .local _ .vmem, ⟨4, _⟩ => ⟨S8000x64, .f32⟩
  | .local _ .vmem, ⟨5, _⟩ => ⟨S8000x64, .f32⟩
  | .local _ .vmem, ⟨6, _⟩ => ⟨S8000x128, .f32⟩
  | .local _ .vmem, ⟨7, _⟩ => ⟨S8000x128, .f32⟩
  | .local _ .vmem, ⟨8, _⟩ => ⟨S4000x64, .f32⟩
  | .local _ .vmem, ⟨9, _⟩ => ⟨S4000x64, .f32⟩
  | .local _ .vmem, ⟨10, _⟩ => ⟨S4000x128, .f32⟩
  | .local _ .vmem, ⟨11, _⟩ => ⟨S4000x128, .f32⟩
  | .local _ .vmem, ⟨12, _⟩ => ⟨S64x128, .f32⟩
  | .local _ .vmem, ⟨13, _⟩ => ⟨S128x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | .local _ .vmem, ⟨17, _⟩ => ⟨S5000x128, .f32⟩
  | .local _ .vmem, ⟨18, _⟩ => ⟨S5000x128, .f32⟩
  | .local _ .vmem, ⟨19, _⟩ => ⟨S5000x64, .f32⟩
  | .local _ .vmem, ⟨20, _⟩ => ⟨S5000x64, .f32⟩
  | .local _ .vmem, ⟨21, _⟩ => ⟨S128x128, .f32⟩
  | .local _ .vmem, ⟨22, _⟩ => ⟨S64x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S128x128, .f32⟩
  | .local _ .vmem, ⟨32, _⟩ => ⟨S128, .f32⟩
  | .local _ .vmem, ⟨33, _⟩ => ⟨S4000x128, .f32⟩
  | .local _ .vmem, ⟨34, _⟩ => ⟨S4000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128x128, .f32⟩
  | .local _ .vmem, ⟨41, _⟩ => ⟨S128, .f32⟩
  | .local _ .vmem, ⟨42, _⟩ => ⟨S5000x128, .f32⟩
  | .local _ .vmem, ⟨43, _⟩ => ⟨S5000x128, .f32⟩
  | .local _ .vmem, ⟨44, _⟩ => ⟨S5000x256, .f32⟩
  | .local _ .vmem, ⟨45, _⟩ => ⟨S5000x256, .f32⟩
  | .local _ .vmem, ⟨46, _⟩ => ⟨S256x1, .f32⟩
  | .local _ .vmem, ⟨47, _⟩ => ⟨S1, .f32⟩
  | .local _ .vmem, ⟨48, _⟩ => ⟨S5000x1, .f32⟩
  | .local _ .vmem, ⟨49, _⟩ => ⟨S5000x1, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_c : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_7 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_9 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_10 : Ref sig .tc := ⟨.hbm, 78, rfl⟩
abbrev main_v41 : Ref sig .tc := ⟨.hbm, 79, rfl⟩
abbrev main_v42 : Ref sig .tc := ⟨.hbm, 80, rfl⟩
abbrev main_c_11 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_cst_14 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_15 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_16 : Ref sig .tc := ⟨.hbm, 104, rfl⟩
abbrev main_v61 : Ref sig .tc := ⟨.hbm, 105, rfl⟩
abbrev main_v62 : Ref sig .tc := ⟨.hbm, 106, rfl⟩
abbrev main_c_17 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_18 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_19 : Ref sig .tc := ⟨.hbm, 117, rfl⟩
abbrev main_v71 : Ref sig .tc := ⟨.hbm, 118, rfl⟩
abbrev main_cst_20 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_21 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_22 : Ref sig .tc := ⟨.hbm, 130, rfl⟩
abbrev main_v81 : Ref sig .tc := ⟨.hbm, 131, rfl⟩
abbrev main_v82 : Ref sig .tc := ⟨.hbm, 132, rfl⟩
abbrev main_c_23 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_c_24 : Ref sig .tc := ⟨.hbm, 139, rfl⟩
abbrev main_v88 : Ref sig .tc := ⟨.hbm, 140, rfl⟩
abbrev main_v89 : Ref sig .tc := ⟨.hbm, 141, rfl⟩
abbrev main_c_25 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S8000x2_S8000x2_0_0 : ∀ a, (![0, 0] : Fin 2 → Nat) a + S8000x2.size a ≤ S8000x2.size a
  h_S8000x2 : 0 < S8000x2.numel
  slices_S8000x2_o0_0_S8000x1 : S8000x2.Slices ![0, 0] S8000x1
  slices_S8000x2_o0_1_S8000x1 : S8000x2.Slices ![0, 1] S8000x1
  iota_S8000x9_d1_w32 : S8000x9.Iotas .tc 32 [1]
  iota_S8000x3_d1_w32 : S8000x3.Iotas .tc 32 [1]
  broadcasts_S8000x1_S8000x9 : S8000x1.Broadcasts S8000x9
  natLt_1_32 : 1 < 32
  bitsLt_bf16_f32 : FTy.bits .bf16 < FTy.bits .f32
  broadcasts_S8000x1_S8000x3 : S8000x1.Broadcasts S8000x3
  inb_S9x32_S9x32_0_0 : ∀ a, (![0, 0] : Fin 2 → Nat) a + S9x32.size a ≤ S9x32.size a
  h_S9x32 : 0 < S9x32.numel
  inb_S3x32_S3x32_0_0 : ∀ a, (![0, 0] : Fin 2 → Nat) a + S3x32.size a ≤ S3x32.size a
  h_S3x32 : 0 < S3x32.numel
  inb_S8000x128_S8000x32_0_0 : ∀ a, (![0, 0] : Fin 2 → Nat) a + S8000x32.size a ≤ S8000x128.size a
  h_S8000x32 : 0 < S8000x32.numel
  inb_S8000x128_S8000x32_0_32 : ∀ a, (![0, 32] : Fin 2 → Nat) a + S8000x32.size a ≤ S8000x128.size a
  inb_S8000x64_S8000x64_0_0 : ∀ a, (![0, 0] : Fin 2 → Nat) a + S8000x64.size a ≤ S8000x64.size a
  h_S8000x64 : 0 < S8000x64.numel
  inb_S8000x128_S8000x64_0_64 : ∀ a, (![0, 64] : Fin 2 → Nat) a + S8000x64.size a ≤ S8000x128.size a
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  broadcasts_S1x128_S5000x128 : S1x128.Broadcasts S5000x128
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  dot_S8000x9_S9x32_S8000x32_1_0_0_1_n_n_wf : DotDims.WF S8000x9 S9x32 S8000x32 [1] [0] [0] [1] [] []
  dot_S8000x3_S3x32_S8000x32_1_0_0_1_n_n_wf : DotDims.WF S8000x3 S3x32 S8000x32 [1] [0] [0] [1] [] []
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x128_S100000x1_S100000x128_1_0_n_n_0_1_1128_wf : GatherDims.WF S200000x128 S100000x1 S100000x128 [1] [0] [] [0] [] 1 ![1, 128]
  gather_S50000x128_S100000x1_S100000x128_1_0_n_n_0_1_1128_wf : GatherDims.WF S50000x128 S100000x1 S100000x128 [1] [0] [] [0] [] 1 ![1, 128]
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S200000x2.size a
  hwx0_0 : ∀ i : grid0.Coords, EltTy.bits .i32 = 32 ∨ (Rect.block (s := S200000x2) S8000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .f32 = 32 ∨ (Rect.block (s := S9x32) S9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S200000x64.size a
  hwx0_3 : ∀ i : grid0.Coords, EltTy.bits .f32 = 32 ∨ (Rect.block (s := S200000x64) S8000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S200000x128.size a
  hwx0_4 : ∀ i : grid0.Coords, EltTy.bits .f32 = 32 ∨ (Rect.block (s := S200000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S200000x128.size a
  hwx1_5 : ∀ i : grid1.Coords, EltTy.bits .f32 = 32 ∨ (Rect.block (s := S200000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S200000x128.size a
  hwx3_5 : ∀ i : grid3.Coords, EltTy.bits .f32 = 32 ∨ (Rect.block (s := S200000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S100000x256.size a
  hwx5_0 : ∀ i : grid5.Coords, EltTy.bits .f32 = 32 ∨ (Rect.block (s := S100000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x1.size a ≤ S256x1.size a
  hwx5_1 : ∀ i : grid5.Coords, EltTy.bits .f32 = 32 ∨ (Rect.block (s := S256x1) S256x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1.size a ≤ S1.size a
  hwx5_2 : ∀ i : grid5.Coords, EltTy.bits .f32 = 32 ∨ (Rect.block (s := S1) S1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)

variable [Facts₀]

def dot_S8000x9_S9x32_S8000x32_1_0_0_1_n_n : DotDims S8000x9 S9x32 S8000x32 where
  lhsContracting := [1]
  rhsContracting := [0]
  lhsNonContracting := [0]
  rhsNonContracting := [1]
  lhsBatch := []
  rhsBatch := []
  wf := dot_S8000x9_S9x32_S8000x32_1_0_0_1_n_n_wf
def dot_S8000x3_S3x32_S8000x32_1_0_0_1_n_n : DotDims S8000x3 S3x32 S8000x32 where
  lhsContracting := [1]
  rhsContracting := [0]
  lhsNonContracting := [0]
  rhsNonContracting := [1]
  lhsBatch := []
  rhsBatch := []
  wf := dot_S8000x3_S3x32_S8000x32_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg18) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v95) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S256x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S200000x64 : Shape := ⟨2, ![200000, 64]⟩
abbrev S50000x64 : Shape := ⟨2, ![50000, 64]⟩
abbrev S9x32 : Shape := ⟨2, ![9, 32]⟩
abbrev S3x32 : Shape := ⟨2, ![3, 32]⟩
abbrev S64x128 : Shape := ⟨2, ![64, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S200000x2 : Shape := ⟨2, ![200000, 2]⟩
abbrev S1000000 : Shape := ⟨1, ![1000000]⟩
abbrev S100000 : Shape := ⟨1, ![100000]⟩
abbrev S200000x1 : Shape := ⟨2, ![200000, 1]⟩
abbrev S200000 : Shape := ⟨1, ![200000]⟩
abbrev S_ : Shape := ⟨0, ![]⟩
abbrev S200000x32 : Shape := ⟨2, ![200000, 32]⟩
abbrev S200000x128 : Shape := ⟨2, ![200000, 128]⟩
abbrev S1000000x1 : Shape := ⟨2, ![1000000, 1]⟩
abbrev S1000000x64 : Shape := ⟨2, ![1000000, 64]⟩
abbrev S1x128 : Shape := ⟨2, ![1, 128]⟩
abbrev S1000000x128 : Shape := ⟨2, ![1000000, 128]⟩
abbrev S50000x128 : Shape := ⟨2, ![50000, 128]⟩
abbrev S50000 : Shape := ⟨1, ![50000]⟩
abbrev S50000x1 : Shape := ⟨2, ![50000, 1]⟩
abbrev S100000x1 : Shape := ⟨2, ![100000, 1]⟩
abbrev S100000x128 : Shape := ⟨2, ![100000, 128]⟩
abbrev S100000x256 : Shape := ⟨2, ![100000, 256]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S200000x64, .f32⟩
  | 1 => ⟨S50000x64, .f32⟩
  | 2 => ⟨S9x32, .f32⟩
  | 3 => ⟨S3x32, .f32⟩
  | 4 => ⟨S64x128, .f32⟩
  | 5 => ⟨S128x128, .f32⟩
  | 6 => ⟨S128, .f32⟩
  | 7 => ⟨S128x128, .f32⟩
  | 8 => ⟨S64x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S256x1, .f32⟩
  | 17 => ⟨S1, .f32⟩
  | 18 => ⟨S200000x2, .i32⟩
  | 19 => ⟨S1000000, .i32⟩
  | 20 => ⟨S1000000, .i32⟩
  | 21 => ⟨S1000000, .i32⟩
  | 22 => ⟨S1000000, .i32⟩
  | 23 => ⟨S100000, .i32⟩
  | 24 => ⟨S100000, .i32⟩
  | 25 => ⟨S200000x1, .i32⟩
  | 26 => ⟨S200000, .i32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x32, .f32⟩
  | 36 => ⟨S200000x1, .i32⟩
  | 37 => ⟨S200000, .i32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000x32, .f32⟩
  | 47 => ⟨S200000x128, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S_, .f32⟩
  | 58 => ⟨S200000x64, .f32⟩
  | 59 => ⟨S1000000x1, .i32⟩
  | 60 => ⟨S200000x64, .f32⟩
  | 61 => ⟨S_, .f32⟩
  | 62 => ⟨S1000000, .f32⟩
  | 63 => ⟨S_, .f32⟩
  | 64 => ⟨S200000, .f32⟩
  | 65 => ⟨S1000000x1, .i32⟩
  | 66 => ⟨S200000, .f32⟩
  | 67 => ⟨S_, .f32⟩
  | 68 => ⟨S200000, .f32⟩
  | 69 => ⟨S200000, .f32⟩
  | 70 => ⟨S200000x1, .f32⟩
  | 71 => ⟨S200000x64, .f32⟩
  | 72 => ⟨S200000x64, .f32⟩
  | 73 => ⟨S200000x128, .f32⟩
  | 74 => ⟨S200000x128, .f32⟩
  | 75 => ⟨S200000x128, .f32⟩
  | 76 => ⟨S1x128, .f32⟩
  | 77 => ⟨S200000x128, .f32⟩
  | 78 => ⟨S200000x128, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x128, .f32⟩
  | 88 => ⟨S_, .f32⟩
  | 89 => ⟨S50000x128, .f32⟩
  | 90 => ⟨S1000000x1, .i32⟩
  | 91 => ⟨S50000x128, .f32⟩
  | 92 => ⟨S_, .f32⟩
  | 93 => ⟨S1000000, .f32⟩
  | 94 => ⟨S_, .f32⟩
  | 95 => ⟨S50000, .f32⟩
  | 96 => ⟨S1000000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x128, .f32⟩
  | 103 => ⟨S50000x128, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S200000x128, .f32⟩
  | 112 => ⟨S200000x128, .f32⟩
  | 113 => ⟨S_, .f32⟩
  | 114 => ⟨S50000x128, .f32⟩
  | 115 => ⟨S50000x128, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x128, .f32⟩
  | 125 => ⟨S_, .f32⟩
  | 126 => ⟨S200000x128, .f32⟩
  | 127 => ⟨S1000000x1, .i32⟩
  | _ => ⟨S200000x64, .f32⟩

abbrev hbmTy0_1 (i : Nat) : BufTy := match i % 128 with
  | 0 => ⟨S200000x128, .f32⟩
  | 1 => ⟨S_, .f32⟩
  | 2 => ⟨S1000000, .f32⟩
  | 3 => ⟨S_, .f32⟩
  | 4 => ⟨S200000, .f32⟩
  | 5 => ⟨S1000000x1, .i32⟩
  | 6 => ⟨S200000, .f32⟩
  | 7 => ⟨S_, .f32⟩
  | 8 => ⟨S200000, .f32⟩
  | 9 => ⟨S200000, .f32⟩
  | 10 => ⟨S200000x1, .f32⟩
  | 11 => ⟨S200000x128, .f32⟩
  | 12 => ⟨S200000x128, .f32⟩
  | 13 => ⟨S200000x128, .f32⟩
  | 14 => ⟨S200000x128, .f32⟩
  | 15 => ⟨S200000x128, .f32⟩
  | 16 => ⟨S1x128, .f32⟩
  | 17 => ⟨S200000x128, .f32⟩
  | 18 => ⟨S200000x128, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S_, .f32⟩
  | 29 => ⟨S50000x128, .f32⟩
  | 30 => ⟨S1000000x1, .i32⟩
  | 31 => ⟨S50000x128, .f32⟩
  | 32 => ⟨S_, .f32⟩
  | 33 => ⟨S1000000, .f32⟩
  | 34 => ⟨S_, .f32⟩
  | 35 => ⟨S50000, .f32⟩
  | 36 => ⟨S1000000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S200000x128, .f32⟩
  | 52 => ⟨S200000x128, .f32⟩
  | 53 => ⟨S_, .f32⟩
  | 54 => ⟨S50000x128, .f32⟩
  | 55 => ⟨S50000x128, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x128, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x128, .f32⟩
  | 74 => ⟨S100000x256, .f32⟩
  | 75 => ⟨S100000x1, .f32⟩
  | 76 => ⟨S1x1, .f32⟩
  | 77 => ⟨S100000x1, .f32⟩
  | 78 => ⟨S100000x1, .f32⟩
  | 79 => ⟨S100000x1, .f32⟩
  | 80 => ⟨S100000x1, .f32⟩
  | 81 => ⟨S_, .f32⟩
  | 82 => ⟨S100000x1, .f32⟩
  | 83 => ⟨S100000x1, .f32⟩
  | 84 => ⟨S_, .f32⟩
  | 85 => ⟨S100000x1, .f32⟩
  | 86 => ⟨S100000x1, .f32⟩
  | 87 => ⟨S100000, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_1 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_cst_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_8 : Ref sig .tc := ⟨.hbm, 79, rfl⟩
abbrev main_v44 : Ref sig .tc := ⟨.hbm, 80, rfl⟩
abbrev main_v45 : Ref sig .tc := ⟨.hbm, 81, rfl⟩
abbrev main_c_9 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_10 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_13 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call0_cst : Ref sig .tc := ⟨.hbm, 110, rfl⟩
abbrev main_call0_v0 : Ref sig .tc := ⟨.hbm, 111, rfl⟩
abbrev main_v69 : Ref sig .tc := ⟨.hbm, 112, rfl⟩
abbrev main_call1_cst : Ref sig .tc := ⟨.hbm, 113, rfl⟩
abbrev main_call1_v0 : Ref sig .tc := ⟨.hbm, 114, rfl⟩
abbrev main_v70 : Ref sig .tc := ⟨.hbm, 115, rfl⟩
abbrev main_c_14 : Ref sig .tc := ⟨.hbm, 116, rfl⟩
abbrev main_v71 : Ref sig .tc := ⟨.hbm, 117, rfl⟩
abbrev main_v72 : Ref sig .tc := ⟨.hbm, 118, rfl⟩
abbrev main_c_15 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_16 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_17 : Ref sig .tc := ⟨.hbm, 129, rfl⟩
abbrev main_v81 : Ref sig .tc := ⟨.hbm, 130, rfl⟩
abbrev main_cst_18 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_19 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_c_20 : Ref sig .tc := ⟨.hbm, 147, rfl⟩
abbrev main_v96 : Ref sig .tc := ⟨.hbm, 148, rfl⟩
abbrev main_v97 : Ref sig .tc := ⟨.hbm, 149, rfl⟩
abbrev main_c_21 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_22 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_23 : Ref sig .tc := ⟨.hbm, 160, rfl⟩
abbrev main_v106 : Ref sig .tc := ⟨.hbm, 161, rfl⟩
abbrev main_cst_24 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_25 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_call2_cst : Ref sig .tc := ⟨.hbm, 178, rfl⟩
abbrev main_call2_v0 : Ref sig .tc := ⟨.hbm, 179, rfl⟩
abbrev main_v121 : Ref sig .tc := ⟨.hbm, 180, rfl⟩
abbrev main_call3_cst : Ref sig .tc := ⟨.hbm, 181, rfl⟩
abbrev main_call3_v0 : Ref sig .tc := ⟨.hbm, 182, rfl⟩
abbrev main_v122 : Ref sig .tc := ⟨.hbm, 183, rfl⟩
abbrev main_c_26 : Ref sig .tc := ⟨.hbm, 184, rfl⟩
abbrev main_v123 : Ref sig .tc := ⟨.hbm, 185, rfl⟩
abbrev main_v124 : Ref sig .tc := ⟨.hbm, 186, rfl⟩
abbrev main_c_27 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_c_28 : Ref sig .tc := ⟨.hbm, 193, rfl⟩
abbrev main_v130 : Ref sig .tc := ⟨.hbm, 194, rfl⟩
abbrev main_v131 : Ref sig .tc := ⟨.hbm, 195, rfl⟩
abbrev main_c_29 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_30 : Ref sig .tc := ⟨.hbm, 209, rfl⟩
abbrev main_v144 : Ref sig .tc := ⟨.hbm, 210, rfl⟩
abbrev main_v145 : Ref sig .tc := ⟨.hbm, 211, rfl⟩
abbrev main_cst_31 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x32_S200000x32_S200000x64_S200000x128_d1 : Shape.Concatenates [S200000x32, S200000x32, S200000x64] S200000x128 1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  gather_S9x32_S200000x1_S200000x32_1_0_n_n_0_1_132_wf : GatherDims.WF S9x32 S200000x1 S200000x32 [1] [0] [] [0] [] 1 ![1, 32]
  gather_S3x32_S200000x1_S200000x32_1_0_n_n_0_1_132_wf : GatherDims.WF S3x32 S200000x1 S200000x32 [1] [0] [] [0] [] 1 ![1, 32]
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  dot_S200000x64_S64x128_S200000x128_1_0_0_1_n_n_wf : DotDims.WF S200000x64 S64x128 S200000x128 [1] [0] [0] [1] [] []
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  dot_S50000x64_S64x128_S50000x128_1_0_0_1_n_n_wf : DotDims.WF S50000x64 S64x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x128_S100000x1_S100000x128_1_0_n_n_0_1_1128_wf : GatherDims.WF S200000x128 S100000x1 S100000x128 [1] [0] [] [0] [] 1 ![1, 128]
  gather_S50000x128_S100000x1_S100000x128_1_0_n_n_0_1_1128_wf : GatherDims.WF S50000x128 S100000x1 S100000x128 [1] [0] [] [0] [] 1 ![1, 128]
  dot_S100000x256_S256x1_S100000x1_1_0_0_1_n_n_wf : DotDims.WF S100000x256 S256x1 S100000x1 [1] [0] [0] [1] [] []

variable [Facts₀]

def gather_S9x32_S200000x1_S200000x32_1_0_n_n_0_1_132 : GatherDims S9x32 S200000x1 S200000x32 where
  offsetDims := [1]
  collapsedSliceDims := [0]
  operandBatchingDims := []
  startIndicesBatchingDims := []
  startIndexMap := [0]
  indexVectorDim := 1
  sliceSizes := ![1, 32]
  wf := gather_S9x32_S200000x1_S200000x32_1_0_n_n_0_1_132_wf
def gather_S3x32_S200000x1_S200000x32_1_0_n_n_0_1_132 : GatherDims S3x32 S200000x1 S200000x32 where
  offsetDims := [1]
  collapsedSliceDims := [0]
  operandBatchingDims := []
  startIndicesBatchingDims := []
  startIndexMap := [0]
  indexVectorDim := 1
  sliceSizes := ![1, 32]
  wf := gather_S3x32_S200000x1_S200000x32_1_0_n_n_0_1_132_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Spec.lean ====
/-
  What each of the program's dense stages computes, entry by entry, over the extended reals.

  * `sage`: a graph-convolution update of one node type. Row `i` of the result is
    `max (mean_i · Wl + x_i · Wr + b, 0)`: the neighbourhood mean of row `i` through the left weights, the node's own
    features through the right weights, the bias, then the positive part. The two products are added first and the
    bias after, which is the order both programs use, so no rearrangement of a sum of three terms is ever needed.
  * `embed`: the user input row `i` is the age table's row `a i`, then the gender table's row `g i`, then the
    user's own 64 features, side by side (32 + 32 + 64 columns). The two row choices `a` and `g` are functions into
    the tables' row ranges: they exist exactly when every entry of the two index columns is in range.
  * `final`: the logistic function of a row's product with the one weight column, plus the bias.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- `max (mean · Wl + x · Wr + b, 0)` at entry `(i, q)`: the sums run over the two inner widths `k1` and `k2`. -/
def sage {n k1 k2 h : ℕ}
    (mean : (⟨2, ![n, k1]⟩ : Shape).Idx → EReal) (x : (⟨2, ![n, k2]⟩ : Shape).Idx → EReal)
    (Wl : (⟨2, ![k1, h]⟩ : Shape).Idx → EReal) (Wr : (⟨2, ![k2, h]⟩ : Shape).Idx → EReal)
    (b : (⟨1, ![h]⟩ : Shape).Idx → EReal) : (⟨2, ![n, h]⟩ : Shape).Idx → EReal :=
  fun j => max (((∑ k : Fin k1, mean (ix2 (j 0) k) * Wl (ix2 k (j 1)))
      + (∑ k : Fin k2, x (ix2 (j 0) k) * Wr (ix2 k (j 1)))) + b (ix1 (j 1))) 0

/-- `sage` at explicit coordinates. -/
theorem sage_apply {n k1 k2 h : ℕ}
    (mean : (⟨2, ![n, k1]⟩ : Shape).Idx → EReal) (x : (⟨2, ![n, k2]⟩ : Shape).Idx → EReal)
    (Wl : (⟨2, ![k1, h]⟩ : Shape).Idx → EReal) (Wr : (⟨2, ![k2, h]⟩ : Shape).Idx → EReal)
    (b : (⟨1, ![h]⟩ : Shape).Idx → EReal) (i : Fin n) (q : Fin h) :
    sage mean x Wl Wr b (ix2 i q)
      = max (((∑ k : Fin k1, mean (ix2 i k) * Wl (ix2 k q)) + (∑ k : Fin k2, x (ix2 i k) * Wr (ix2 k q))) + b (ix1 q)) 0 :=
  rfl

/-- Row `i`: columns 0–31 the age table's row `a i`, columns 32–63 the gender table's row `g i`, columns 64–127 the
    user's own features. -/
def embed (a : Fin 200000 → Fin 9) (g : Fin 200000 → Fin 3)
    (age : (⟨2, ![9, 32]⟩ : Shape).Idx → EReal) (gen : (⟨2, ![3, 32]⟩ : Shape).Idx → EReal)
    (feat : (⟨2, ![200000, 64]⟩ : Shape).Idx → EReal) : (⟨2, ![200000, 128]⟩ : Shape).Idx → EReal :=
  fun j =>
    have hq : (j 1).val < 128 := (j 1).isLt
    if h1 : (j 1).val < 32 then age (ix2 (a (j 0)) ⟨(j 1).val, h1⟩)
    else if h2 : (j 1).val < 64 then gen (ix2 (g (j 0)) ⟨(j 1).val - 32, by omega⟩)
    else feat (ix2 (j 0) ⟨(j 1).val - 64, by omega⟩)

/-- `embed` at explicit coordinates. -/
theorem embed_apply (a : Fin 200000 → Fin 9) (g : Fin 200000 → Fin 3)
    (age : (⟨2, ![9, 32]⟩ : Shape).Idx → EReal) (gen : (⟨2, ![3, 32]⟩ : Shape).Idx → EReal)
    (feat : (⟨2, ![200000, 64]⟩ : Shape).Idx → EReal) (i : Fin 200000) (q : Fin 128) :
    embed a g age gen feat (ix2 i q)
      = if h1 : q.val < 32 then age (ix2 (a i) ⟨q.val, h1⟩)
        else if h2 : q.val < 64 then gen (ix2 (g i) ⟨q.val - 32, by omega⟩)
        else feat (ix2 i ⟨q.val - 64, by omega⟩) :=
  rfl

/-- The logistic function of `xm_i · w + b` at row `i` (the result has one column). -/
def final (xm : (⟨2, ![100000, 256]⟩ : Shape).Idx → EReal) (w : (⟨2, ![256, 1]⟩ : Shape).Idx → EReal)
    (b : (⟨1, ![1]⟩ : Shape).Idx → EReal) : (⟨2, ![100000, 1]⟩ : Shape).Idx → EReal :=
  fun j => Ideal.logistic ((∑ k : Fin 256, xm (ix2 (j 0) k) * w (ix2 k (j 1))) + b (ix1 (j 1)))

/-- `final` at explicit coordinates. -/
theorem final_apply (xm : (⟨2, ![100000, 256]⟩ : Shape).Idx → EReal) (w : (⟨2, ![256, 1]⟩ : Shape).Idx → EReal)
    (b : (⟨1, ![1]⟩ : Shape).Idx → EReal) (i : Fin 100000) (q : Fin 1) :
    final xm w b (ix2 i q) = Ideal.logistic ((∑ k : Fin 256, xm (ix2 i k) * w (ix2 k q)) + b (ix1 q)) :=
  rfl

end Cert.Spec

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.Region0.lean ====
/-
  Region 0: the user input rows, 200000 rows in 25 blocks of 8000.

  At a block the kernel compares each row's age index with 0 … 8 and its gender index with 0 … 2, turns the two
  comparison tables into 0/1 matrices, multiplies them with the age table and the gender table (so a row whose index is
  `k` picks up exactly row `k` of the table: a sum with one non-zero term), and stores the two products and the
  row's own 64 features side by side. When every index is in its table's range (`a`, `g` name the rows) the result is
  `Spec.embed`.
-/
import proofs.«401422_j10771777979113_2_alg».proof.Proof.Gen.KernelIdeal.Frame
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat Cfg Window)
open scoped BigOperators

/-- The 0/1 word of an equality test, widened and converted: one where the two words agree, zero elsewhere. -/
theorem onehot_scalar (u v : BitVec 32) :
    (FloatOps.sitofp (F := Ideal) .f32 ((IntOp.cmpi .eq u v).setWidth 32) : EReal) = if u = v then 1 else 0 := by
  show ((((IntOp.cmpi .eq u v).setWidth 32).toInt : ℝ) : EReal) = _
  by_cases h : u = v
  · subst h
    have e : IntOp.cmpi .eq u u = 1#1 := by simp [IntOp.cmpi]
    rw [if_pos rfl, e]
    have e2 : ((1#1 : BitVec 1).setWidth 32).toInt = 1 := by decide
    rw [e2]; simp
  · have e : IntOp.cmpi .eq u v = 0#1 := by
      unfold IntOp.cmpi
      rw [show (u == v) = false from beq_eq_false_iff_ne.mpr h]; rfl
    rw [if_neg h, e]
    have e2 : ((0#1 : BitVec 1).setWidth 32).toInt = 0 := by decide
    rw [e2]; simp

/-- Two numbers below 2^32 with the same 32-bit word are equal. -/
theorem ofNat32_inj {j k : ℕ} (hj : j < 4294967296) (hk : k < 4294967296) (h : BitVec.ofNat 32 j = BitVec.ofNat 32 k) :
    j = k := by
  have e := congrArg BitVec.toNat h
  rw [BitVec.toNat_ofNat, BitVec.toNat_ofNat, Nat.mod_eq_of_lt (by omega), Nat.mod_eq_of_lt (by omega)] at e
  exact e

/-- THE AGE PRODUCT at row `y`, column `q`: the table's row that the row's age index names. The 0/1 matrix has its
    one in column `a' y`, so the sum over the nine table rows has one non-zero term. -/
theorem pay1_apply (x0 : Vec Ideal S8000x2 .i32) (x1 : Vec Ideal S9x32 .f32) (a' : Fin 8000 → Fin 9)
    (ha' : ∀ y : Fin 8000, (x0 : S8000x2.Idx → BitVec 32) (ix2 y (0 : Fin 2)) = BitVec.ofNat 32 (a' y).val) (y : Fin 8000) (q : Fin 32) :
    k0_pay1 (F := Ideal) x0 x1 (ix2 y q) = (x1 : S9x32.Idx → EReal) (ix2 (a' y) q) := by
  unfold k0_pay1
  refine (Cert.Lib.PlainMatmul.matmul_zero_apply dot_S8000x9_S9x32_S8000x32_1_0_0_1_n_n rfl rfl rfl rfl rfl rfl none _ _ y q).trans ?_
  have hcol : ∀ j : Fin 9, (truncf .bf16 (sitofp (F := Ideal) .f32 (extui 32 (cmpi .eq (iota .tc S8000x9 32 [1] iota_S8000x9_d1_w32)
      (broadcastTo S8000x9 (extractStridedSlice S8000x1 ![0, 0] x0 slices_S8000x2_o0_0_S8000x1) broadcasts_S8000x1_S8000x9)) natLt_1_32))
      bitsLt_bf16_f32 : FVec Ideal S8000x9 .bf16) (ix2 y j) = if j = a' y then 1 else 0 := by
    intro j
    have e1 : iota .tc S8000x9 32 [1] iota_S8000x9_d1_w32 (ix2 y j) = BitVec.ofNat 32 j.val :=
      iota_single_apply .tc S8000x9 32 1 iota_S8000x9_d1_w32 (ix2 y j)
    have e2 : broadcastTo S8000x9 (extractStridedSlice S8000x1 ![0, 0] x0 slices_S8000x2_o0_0_S8000x1) broadcasts_S8000x1_S8000x9 (ix2 y j)
        = BitVec.ofNat 32 (a' y).val :=
      (broadcastTo_apply (extractStridedSlice S8000x1 ![0, 0] x0 slices_S8000x2_o0_0_S8000x1) broadcasts_S8000x1_S8000x9 (ix2 y j)
        (ix2 y (0 : Fin 1)) (fun a => match a with | ⟨0, _⟩ => rfl | ⟨1, _⟩ => rfl)).trans
      ((extractStridedSlice_apply ![0, 0] x0 slices_S8000x2_o0_0_S8000x1 (ix2 y (0 : Fin 1)) (ix2 y (0 : Fin 2))
        (fun a => match a with | ⟨0, _⟩ => (Nat.zero_add _).symm | ⟨1, _⟩ => rfl)).trans (ha' y))
    show FloatOps.sitofp (F := Ideal) .f32 ((IntOp.cmpi .eq (iota .tc S8000x9 32 [1] iota_S8000x9_d1_w32 (ix2 y j))
      (broadcastTo S8000x9 (extractStridedSlice S8000x1 ![0, 0] x0 slices_S8000x2_o0_0_S8000x1) broadcasts_S8000x1_S8000x9 (ix2 y j))).setWidth 32) = _
    rw [e1, e2, onehot_scalar]
    by_cases hj : j = a' y
    · rw [if_pos hj, if_pos (by rw [hj])]
    · rw [if_neg hj, if_neg (fun h => hj (Fin.ext (ofNat32_inj (by have := j.isLt; omega) (by have := (a' y).isLt; omega) h)))]
  rw [Finset.sum_eq_single (a' y) (fun b _ hb => by rw [hcol b, if_neg hb, zero_mul]) (fun h => absurd (Finset.mem_univ _) h),
    hcol, if_pos rfl, one_mul]
  rfl

/-- THE GENDER PRODUCT at row `y`, column `q`: the table's row that the row's gender index names. -/
theorem pay2_apply (x0 : Vec Ideal S8000x2 .i32) (x2 : Vec Ideal S3x32 .f32) (g' : Fin 8000 → Fin 3)
    (hg' : ∀ y : Fin 8000, (x0 : S8000x2.Idx → BitVec 32) (ix2 y (1 : Fin 2)) = BitVec.ofNat 32 (g' y).val) (y : Fin 8000) (q : Fin 32) :
    k0_pay2 (F := Ideal) x0 x2 (ix2 y q) = (x2 : S3x32.Idx → EReal) (ix2 (g' y) q) := by
  unfold k0_pay2
  refine (Cert.Lib.PlainMatmul.matmul_zero_apply dot_S8000x3_S3x32_S8000x32_1_0_0_1_n_n rfl rfl rfl rfl rfl rfl none _ _ y q).trans ?_
  have hcol : ∀ j : Fin 3, (truncf .bf16 (sitofp (F := Ideal) .f32 (extui 32 (cmpi .eq (iota .tc S8000x3 32 [1] iota_S8000x3_d1_w32)
      (broadcastTo S8000x3 (extractStridedSlice S8000x1 ![0, 1] x0 slices_S8000x2_o0_1_S8000x1) broadcasts_S8000x1_S8000x3)) natLt_1_32))
      bitsLt_bf16_f32 : FVec Ideal S8000x3 .bf16) (ix2 y j) = if j = g' y then 1 else 0 := by
    intro j
    have e1 : iota .tc S8000x3 32 [1] iota_S8000x3_d1_w32 (ix2 y j) = BitVec.ofNat 32 j.val :=
      iota_single_apply .tc S8000x3 32 1 iota_S8000x3_d1_w32 (ix2 y j)
    have e2 : broadcastTo S8000x3 (extractStridedSlice S8000x1 ![0, 1] x0 slices_S8000x2_o0_1_S8000x1) broadcasts_S8000x1_S8000x3 (ix2 y j)
        = BitVec.ofNat 32 (g' y).val :=
      (broadcastTo_apply (extractStridedSlice S8000x1 ![0, 1] x0 slices_S8000x2_o0_1_S8000x1) broadcasts_S8000x1_S8000x3 (ix2 y j)
        (ix2 y (0 : Fin 1)) (fun a => match a with | ⟨0, _⟩ => rfl | ⟨1, _⟩ => rfl)).trans
      ((extractStridedSlice_apply ![0, 1] x0 slices_S8000x2_o0_1_S8000x1 (ix2 y (0 : Fin 1)) (ix2 y (1 : Fin 2))
        (fun a => match a with | ⟨0, _⟩ => (Nat.zero_add _).symm | ⟨1, _⟩ => rfl)).trans (hg' y))
    show FloatOps.sitofp (F := Ideal) .f32 ((IntOp.cmpi .eq (iota .tc S8000x3 32 [1] iota_S8000x3_d1_w32 (ix2 y j))
      (broadcastTo S8000x3 (extractStridedSlice S8000x1 ![0, 1] x0 slices_S8000x2_o0_1_S8000x1) broadcasts_S8000x1_S8000x3 (ix2 y j))).setWidth 32) = _
    rw [e1, e2, onehot_scalar]
    by_cases hj : j = g' y
    · rw [if_pos hj, if_pos (by rw [hj])]
    · rw [if_neg hj, if_neg (fun h => hj (Fin.ext (ofNat32_inj (by have := j.isLt; omega) (by have := (g' y).isLt; omega) h)))]
  rw [Finset.sum_eq_single (g' y) (fun b _ hb => by rw [hcol b, if_neg hb, zero_mul]) (fun h => absurd (Finset.mem_univ _) h),
    hcol, if_pos rfl, one_mul]
  rfl

theorem hz2 : (![0, 0] : Fin 2 → Nat) = fun _ => 0 := funext fun a => by fin_cases a <;> rfl

/-- One block of the result as ONE function of the block's index: columns 0–31 the age table's row `a' y`, columns
    32–63 the gender table's row `g' y`, columns 64–127 the block's own features. -/
def blockFn (a' : Fin 8000 → Fin 9) (g' : Fin 8000 → Fin 3) (x1 : S9x32.Idx → EReal) (x2 : S3x32.Idx → EReal)
    (x3 : S8000x64.Idx → EReal) : S8000x128.Idx → EReal :=
  fun j =>
    have hq : (j 1).val < 128 := (j 1).isLt
    if h1 : (j 1).val < 32 then x1 (ix2 (a' (j 0)) ⟨(j 1).val, h1⟩)
    else if h2 : (j 1).val < 64 then x2 (ix2 (g' (j 0)) ⟨(j 1).val - 32, by omega⟩)
    else x3 (ix2 (j 0) ⟨(j 1).val - 64, by omega⟩)

/-- `blockFn` at explicit coordinates. -/
theorem blockFn_apply (a' : Fin 8000 → Fin 9) (g' : Fin 8000 → Fin 3) (x1 : S9x32.Idx → EReal) (x2 : S3x32.Idx → EReal)
    (x3 : S8000x64.Idx → EReal) (y : Fin 8000) (q : Fin 128) :
    blockFn a' g' x1 x2 x3 (ix2 y q)
      = if h1 : q.val < 32 then x1 (ix2 (a' y) ⟨q.val, h1⟩)
        else if h2 : q.val < 64 then x2 (ix2 (g' y) ⟨q.val - 32, by omega⟩)
        else x3 (ix2 y ⟨q.val - 64, by omega⟩) :=
  rfl

/-- Where an element of a column band of the block sits in the block: same row, the band's first column further on. -/
theorem band_emb (o w : ℕ) (inb : ∀ a, (![0, o] : Fin 2 → ℕ) a + (![8000, w] : Fin 2 → ℕ) a ≤ S8000x128.size a)
    (y : Fin 8000) (q : Fin w) (hq : o + q.val < 128) :
    (Rect.unit (s := S8000x128) ![0, o] ![8000, w] inb).emb (ix2 y q) = ix2 y (⟨o + q.val, hq⟩ : Fin 128) := by
  funext a; apply Fin.ext
  match a with
  | ⟨0, _⟩ => show 0 + 1 * y.val = y.val; omega
  | ⟨1, _⟩ => show o + 1 * q.val = o + q.val; omega

/-- WHAT THE BODY LEAVES in the result's block, when the index block's two columns hold the row numbers `a'`, `g'`:
    the three stored bands read back as the one function `blockFn`. -/
theorem block_eq (c : Dev nD) (i : grid0.Coords) (a1 : Memref sig .tc .vmem S8000x2 .i32) (h1 : a1.IsWhole)
    (a2 : Memref sig .tc .vmem S9x32 .f32) (h2 : a2.IsWhole) (a3 : Memref sig .tc .vmem S3x32 .f32) (h3 : a3.IsWhole)
    (a4 : Memref sig .tc .vmem S8000x64 .f32) (h4 : a4.IsWhole) (a5 : Memref sig .tc .vmem S8000x128 .f32) (h5 : a5.IsWhole)
    (x0 : Vec Ideal S8000x2 .i32) (x1 : Vec Ideal S9x32 .f32) (x2 : Vec Ideal S3x32 .f32) (x3 : Vec Ideal S8000x64 .f32)
    (a' : Fin 8000 → Fin 9) (g' : Fin 8000 → Fin 3)
    (ha' : ∀ y : Fin 8000, (x0 : S8000x2.Idx → BitVec 32) (ix2 y (0 : Fin 2)) = BitVec.ofNat 32 (a' y).val)
    (hg' : ∀ y : Fin 8000, (x0 : S8000x2.Idx → BitVec 32) (ix2 y (1 : Fin 2)) = BitVec.ofNat 32 (g' y).val) :
    out0_A_4 (F := Ideal) c i a1 h1 a2 h2 a3 h3 a4 h4 a5 h5 x0 x1 x2 x3 = blockFn a' g' x1 x2 x3 := by
  unfold out0_A_4
  rw [View.read_writes_eq_canon _ _ _ (cover0_A_4 c i a1 h1 a2 h2 a3 h3 a4 h4 a5 h5 x0 x1 x2 x3)]
  funext j
  refine View.canon_apply_of_pieces (blockFn a' g' x1 x2 x3) _ ?_ j (cover0_A_4 c i a1 h1 a2 h2 a3 h3 a4 h4 a5 h5 x0 x1 x2 x3 j)
  unfold kernelRun0_A
  dsimp only
  sl_unfold_words
  simp only [View.readAt_eq_ld, h1.read_unread, h2.read_unread, h3.read_unread, h4.read_unread,
    View.ld_unit_zero (S := S8000x2) hz2, View.ld_unit_zero (S := S9x32) hz2, View.ld_unit_zero (S := S3x32) hz2,
    View.ld_unit_zero (S := S8000x64) hz2]
  intro p hp
  simp only [List.mem_cons, List.not_mem_nil, or_false] at hp
  rcases hp with rfl | rfl | rfl
  · intro x
    obtain ⟨y, q, rfl⟩ : ∃ (y : Fin 8000) (q : Fin 64), x = ix2 y q := ⟨x 0, x 1, eq_ix2 x⟩
    show x3 (ix2 y q) = blockFn a' g' x1 x2 x3 ((Rect.unit (s := S8000x128) ![0, 64] ![8000, 64] inb_S8000x128_S8000x64_0_64).emb (ix2 y q))
    rw [band_emb 64 64 inb_S8000x128_S8000x64_0_64 y q (by have := q.isLt; omega), blockFn_apply,
      dif_neg (by show ¬64 + q.val < 32; omega), dif_neg (by show ¬64 + q.val < 64; omega)]
    exact congrArg (fun z => x3 (ix2 y z)) (Fin.ext (by show q.val = 64 + q.val - 64; omega))
  · intro x
    obtain ⟨y, q, rfl⟩ : ∃ (y : Fin 8000) (q : Fin 32), x = ix2 y q := ⟨x 0, x 1, eq_ix2 x⟩
    show k0_pay2 (F := Ideal) x0 x2 (ix2 y q) = blockFn a' g' x1 x2 x3 ((Rect.unit (s := S8000x128) ![0, 32] ![8000, 32] inb_S8000x128_S8000x32_0_32).emb (ix2 y q))
    rw [pay2_apply x0 x2 g' hg' y q, band_emb 32 32 inb_S8000x128_S8000x32_0_32 y q (by have := q.isLt; omega), blockFn_apply,
      dif_neg (by show ¬32 + q.val < 32; omega), dif_pos (by show 32 + q.val < 64; have := q.isLt; omega)]
    exact congrArg (fun z => x2 (ix2 (g' y) z)) (Fin.ext (by show q.val = 32 + q.val - 32; omega))
  · intro x
    obtain ⟨y, q, rfl⟩ : ∃ (y : Fin 8000) (q : Fin 32), x = ix2 y q := ⟨x 0, x 1, eq_ix2 x⟩
    show k0_pay1 (F := Ideal) x0 x1 (ix2 y q) = blockFn a' g' x1 x2 x3 ((Rect.unit (s := S8000x128) ![0, 0] ![8000, 32] inb_S8000x128_S8000x32_0_0).emb (ix2 y q))
    rw [pay1_apply x0 x1 a' ha' y q, band_emb 0 32 inb_S8000x128_S8000x32_0_0 y q (by have := q.isLt; omega), blockFn_apply,
      dif_pos (by show 0 + q.val < 32; have := q.isLt; omega)]
    exact congrArg (fun z => x1 (ix2 (a' y) z)) (Fin.ext (by show q.val = 0 + q.val; omega))

-- The TensorCore's buffer contents when the region is entered: a parameter, as in the generated frame.
variable (V : (c : Dev nD) → (b : Ref sig .tc) → Buf (Elt Ideal) ((c : Thread nD τ).loc b))

/-- The printed index maps over the grid's 25 points: the index block, the feature block and the result block move
    together along the rows; no block index moves along the columns; the two tables stay whole. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) ≤ 24 ∧ win0_4.index t (1 : Fin 2) = 0 :=
  (by decide +kernel : ∀ t : Fin grid0.N, _)

/-- Every one of the 25 row blocks is some point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-- The array row under row `y` of point `t`'s block: the block's number times 8000, plus `y`. -/
def rowOf (t : Fin cfg0.N) (y : Fin 8000) : Fin 200000 :=
  ⟨win0_4.index t (0 : Fin 2) * 8000 + y.val, by
    have h := (idx_facts t).2.2.2.2.2.2.2.2.1; have hy := y.isLt; omega⟩

/-- Point `t`'s index block, read at row `y`, column `k`: the index array at row `rowOf t y`. -/
theorem read_idx (c : Dev nD) (t : Fin cfg0.N) (y : Fin 8000) (k : Fin 2) :
    (iblk0 V c 0 t : Vec Ideal S8000x2 .i32) (ix2 y k)
      = (V c main_arg18 : (⟨2, ![200000, 2]⟩ : Shape).Idx → BitVec 32) (ix2 (rowOf t y) k) := by
  obtain ⟨e0, e1, -⟩ := idx_facts t
  show (V c main_arg18 : (⟨2, ![200000, 2]⟩ : Shape).Idx → BitVec 32) (((cfg0.win 0).blk t).view.emb (ix2 y k)) = _
  have h : ((cfg0.win 0).blk t).view.emb (ix2 y k) = (ix2 (rowOf t y) k : (⟨2, ![200000, 2]⟩ : Shape).Idx) := by
    funext a; apply Fin.ext
    match a with
    | ⟨0, _⟩ => show win0_0.index t (0 : Fin 2) * 8000 + 1 * y.val = win0_4.index t (0 : Fin 2) * 8000 + y.val; omega
    | ⟨1, _⟩ => show win0_0.index t (1 : Fin 2) * 2 + 1 * k.val = k.val; omega
  rw [h]

/-- Point `t`'s age table block is the whole table. -/
theorem read_age (c : Dev nD) (t : Fin cfg0.N) (p : Fin 9) (q : Fin 32) :
    (iblk0 V c 1 t : Vec Ideal S9x32 .f32) (ix2 p q) = (V c main_arg2 : (⟨2, ![9, 32]⟩ : Shape).Idx → EReal) (ix2 p q) := by
  obtain ⟨-, -, e2, e3, -⟩ := idx_facts t
  show (V c main_arg2 : (⟨2, ![9, 32]⟩ : Shape).Idx → EReal) (((cfg0.win 1).blk t).view.emb (ix2 p q)) = _
  have h : ((cfg0.win 1).blk t).view.emb (ix2 p q) = (ix2 p q : (⟨2, ![9, 32]⟩ : Shape).Idx) := by
    funext a; apply Fin.ext
    match a with
    | ⟨0, _⟩ => show win0_1.index t (0 : Fin 2) * 9 + 1 * p.val = p.val; omega
    | ⟨1, _⟩ => show win0_1.index t (1 : Fin 2) * 32 + 1 * q.val = q.val; omega
  rw [h]

/-- Point `t`'s gender table block is the whole table. -/
theorem read_gen (c : Dev nD) (t : Fin cfg0.N) (p : Fin 3) (q : Fin 32) :
    (iblk0 V c 2 t : Vec Ideal S3x32 .f32) (ix2 p q) = (V c main_arg3 : (⟨2, ![3, 32]⟩ : Shape).Idx → EReal) (ix2 p q) := by
  obtain ⟨-, -, -, -, e4, e5, -⟩ := idx_facts t
  show (V c main_arg3 : (⟨2, ![3, 32]⟩ : Shape).Idx → EReal) (((cfg0.win 2).blk t).view.emb (ix2 p q)) = _
  have h : ((cfg0.win 2).blk t).view.emb (ix2 p q) = (ix2 p q : (⟨2, ![3, 32]⟩ : Shape).Idx) := by
    funext a; apply Fin.ext
    match a with
    | ⟨0, _⟩ => show win0_2.index t (0 : Fin 2) * 3 + 1 * p.val = p.val; omega
    | ⟨1, _⟩ => show win0_2.index t (1 : Fin 2) * 32 + 1 * q.val = q.val; omega
  rw [h]

/-- Point `t`'s feature block, read at row `y`, column `k`: the feature array at row `rowOf t y`. -/
theorem read_feat (c : Dev nD) (t : Fin cfg0.N) (y : Fin 8000) (k : Fin 64) :
    (iblk0 V c 3 t : Vec Ideal S8000x64 .f32) (ix2 y k)
      = (V c main_arg0 : (⟨2, ![200000, 64]⟩ : Shape).Idx → EReal) (ix2 (rowOf t y) k) := by
  obtain ⟨-, -, -, -, -, -, e6, e7, -⟩ := idx_facts t
  show (V c main_arg0 : (⟨2, ![200000, 64]⟩ : Shape).Idx → EReal) (((cfg0.win 3).blk t).view.emb (ix2 y k)) = _
  have h : ((cfg0.win 3).blk t).view.emb (ix2 y k) = (ix2 (rowOf t y) k : (⟨2, ![200000, 64]⟩ : Shape).Idx) := by
    funext a; apply Fin.ext
    match a with
    | ⟨0, _⟩ => show win0_3.index t (0 : Fin 2) * 8000 + 1 * y.val = win0_4.index t (0 : Fin 2) * 8000 + y.val; omega
    | ⟨1, _⟩ => show win0_3.index t (1 : Fin 2) * 64 + 1 * k.val = k.val; omega
  rw [h]

/-- WHAT POINT `t` WRITES BACK is block `t` of `Spec.embed` of the two tables and the users' features. -/
theorem flushed_eq (c : Dev nD) (a : Fin 200000 → Fin 9) (g : Fin 200000 → Fin 3)
    (ha : ∀ i : Fin 200000, (V c main_arg18 : (⟨2, ![200000, 2]⟩ : Shape).Idx → BitVec 32) (ix2 i (0 : Fin 2)) = BitVec.ofNat 32 (a i).val)
    (hg : ∀ i : Fin 200000, (V c main_arg18 : (⟨2, ![200000, 2]⟩ : Shape).Idx → BitVec 32) (ix2 i (1 : Fin 2)) = BitVec.ofNat 32 (g i).val)
    (t : Fin cfg0.N) :
    (dat0 (F := Ideal) V c).flushed 4 t
      = ((cfg0.win 4).blk t).view.read (Elt Ideal) (Spec.embed a g (V c main_arg2) (V c main_arg3) (V c main_arg0)) := by
  show (cfg0.win 4).cut (grid0.coords t) ((dat0 (F := Ideal) V c).after 4 t) = _
  rw [after0_4]
  unfold outsAt0
  rw [block_eq c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t) (fun y => a (rowOf t y)) (fun y => g (rowOf t y))
    (fun y => (read_idx V c t y 0).trans (ha (rowOf t y))) (fun y => (read_idx V c t y 1).trans (hg (rowOf t y)))]
  obtain ⟨-, -, -, -, -, -, -, -, e8, e9⟩ := idx_facts t
  funext j
  obtain ⟨y, q, rfl⟩ : ∃ (y : Fin 8000) (q : Fin 128), j = ix2 y q := ⟨j 0, j 1, eq_ix2 j⟩
  show blockFn (fun y => a (rowOf t y)) (fun y => g (rowOf t y)) (iblk0 V c 1 t) (iblk0 V c 2 t) (iblk0 V c 3 t) (ix2 y q)
    = Spec.embed a g (V c main_arg2) (V c main_arg3) (V c main_arg0) (((cfg0.win 4).blk t).view.emb (ix2 y q))
  have h : ((cfg0.win 4).blk t).view.emb (ix2 y q) = (ix2 (rowOf t y) q : (⟨2, ![200000, 128]⟩ : Shape).Idx) := by
    funext b; apply Fin.ext
    match b with
    | ⟨0, _⟩ => show win0_4.index t (0 : Fin 2) * 8000 + 1 * y.val = win0_4.index t (0 : Fin 2) * 8000 + y.val; omega
    | ⟨1, _⟩ => show win0_4.index t (1 : Fin 2) * 128 + 1 * q.val = q.val; omega
  rw [h, Spec.embed_apply, blockFn_apply]
  by_cases h1 : q.val < 32
  · rw [dif_pos h1, dif_pos h1]; exact read_age V c t _ _
  · rw [dif_neg h1, dif_neg h1]
    by_cases h2 : q.val < 64
    · rw [dif_pos h2, dif_pos h2]; exact read_gen V c t _ _
    · rw [dif_neg h2, dif_neg h2]; exact read_feat V c t y _

/-- A place of the result array is in point `t`'s block iff each coordinate is in the block's range on its axis. -/
theorem mem_blk (t : Fin cfg0.N) (i : (⟨2, ![200000, 128]⟩ : Shape).Idx) :
    i ∈ ((cfg0.win 4).blk t).view.set ↔ ∀ b : Fin 2, win0_4.index t b * S8000x128.size b ≤ (i b).val
      ∧ (i b).val < win0_4.index t b * S8000x128.size b + S8000x128.size b := by
  show i ∈ ((View.whole main_v0).slice (win0_4.rect t)).set ↔ _
  rw [View.set_slice_whole, Rect.mem_set_unit]
  exact Iff.rfl

/-- The 25 blocks cover the result array: row `r` is in the block of point `r / 8000`. -/
theorem cover (i : (⟨2, ![200000, 128]⟩ : Shape).Idx) :
    ∃ t : Fin cfg0.N, (cfg0.win 4).flush t = true ∧ i ∈ ((cfg0.win 4).blk t).view.set := by
  have hi0 : (i 0).val < 200000 := (i 0).isLt
  have hi1 : (i 1).val < 128 := (i 1).isLt
  obtain ⟨t, ht⟩ := idx_onto ⟨(i 0).val / 8000, by omega⟩
  have q0 : win0_4.index t (0 : Fin 2) = (i 0).val / 8000 := congrFun ht 0
  have q1 : win0_4.index t (1 : Fin 2) = 0 := congrFun ht 1
  refine ⟨t, flush0_4 t, ?_⟩
  rw [mem_blk]
  intro b
  match b with
  | ⟨0, _⟩ => show win0_4.index t (0 : Fin 2) * 8000 ≤ (i 0).val ∧ (i 0).val < win0_4.index t (0 : Fin 2) * 8000 + 8000; omega
  | ⟨1, _⟩ => show win0_4.index t (1 : Fin 2) * 128 ≤ (i 1).val ∧ (i 1).val < win0_4.index t (1 : Fin 2) * 128 + 128; omega

/-- After the region's run the result array is `Spec.embed` of the two tables and the users' features, given that the
    two index columns hold the row numbers `a` and `g`. -/
theorem arr_eq (c : Dev nD) (a : Fin 200000 → Fin 9) (g : Fin 200000 → Fin 3)
    (ha : ∀ i : Fin 200000, (V c main_arg18 : (⟨2, ![200000, 2]⟩ : Shape).Idx → BitVec 32) (ix2 i (0 : Fin 2)) = BitVec.ofNat 32 (a i).val)
    (hg : ∀ i : Fin 200000, (V c main_arg18 : (⟨2, ![200000, 2]⟩ : Shape).Idx → BitVec 32) (ix2 i (1 : Fin 2)) = BitVec.ofNat 32 (g i).val) :
    (dat0 (F := Ideal) V c).arrAt 4 cfg0.N
      = Spec.embed a g (V c main_arg2) (V c main_arg3) (V c main_arg0) :=
  (dat0 (F := Ideal) V c).arrAt_eq_of_cover 4 (Spec.embed a g (V c main_arg2) (V c main_arg3) (V c main_arg0))
    (fun t _ => flushed_eq V c a g ha hg t) cover

end Cert.KernelIdeal.Region0

end
-- ==== Proof.Region1.lean ====
/-
  Region 1: layer 1's user update, 200000 rows in 50 blocks of 4000.

  The kernel walks the 200000 rows in blocks; at a block it multiplies the block of neighbourhood means by the left
  weights and the block of the nodes' own rows by the right weights (both products into a zero accumulator), adds the
  two, adds the bias along the rows, and takes the positive part. Row `r` of the result therefore depends only on row
  `r` of the two inputs: block `t` of the result is the restriction to its rows of ONE function of the whole arrays,
  `Spec.sage`, and the blocks cover every row.
-/
import proofs.«401422_j10771777979113_2_alg».proof.Proof.Gen.KernelIdeal.Frame
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The body's arithmetic at one entry of a block: entry `(y, q)` of the stored block is the positive part of
    row `y` of the first block through column `q` of the left weights, plus row `y` of the second block through column
    `q` of the right weights, plus entry `q` of the bias. The two changes of float format are the identity on extended
    reals, each product into a zero accumulator is the plain sum of products, and the bias row is repeated along the
    rows. -/
theorem pay_apply (x0 : Vec Ideal S4000x64 .f32) (x1 : Vec Ideal S4000x128 .f32) (x2 : Vec Ideal S64x128 .f32)
    (x3 : Vec Ideal S128x128 .f32) (x4 : Vec Ideal S128 .f32) (y : Fin 4000) (q : Fin 128) :
    k1_pay1 (F := Ideal) x0 x1 x2 x3 x4 (ix2 y q)
      = max (((∑ k : Fin 64, x0 (ix2 y k) * x2 (ix2 k q)) + (∑ k : Fin 128, x1 (ix2 y k) * x3 (ix2 k q)))
          + x4 (ix1 q)) 0 := by
  unfold k1_pay1
  have e0 : shapeCast S4000x64 x0 shapeCasts_S4000x64_S4000x64 = x0 := shapeCast_self _ _
  have e1 : shapeCast S4000x128 x1 shapeCasts_S4000x128_S4000x128 = x1 := shapeCast_self _ _
  rw [e0, e1]
  have m1 : matmul dot_S4000x64_S64x128_S4000x128_1_0_0_1_n_n none (truncf (F := Ideal) .bf16 x0 bitsLt_bf16_f32)
        (truncf (F := Ideal) .bf16 x2 bitsLt_bf16_f32) (constant (F := Ideal) S4000x128 .f32 0x00000000#32) (ix2 y q)
      = ∑ k : Fin 64, x0 (ix2 y k) * x2 (ix2 k q) :=
    Cert.Lib.PlainMatmul.matmul_zero_apply dot_S4000x64_S64x128_S4000x128_1_0_0_1_n_n rfl rfl rfl rfl rfl rfl none _ _ y q
  have m2 : matmul dot_S4000x128_S128x128_S4000x128_1_0_0_1_n_n none (truncf (F := Ideal) .bf16 x1 bitsLt_bf16_f32)
        (truncf (F := Ideal) .bf16 x3 bitsLt_bf16_f32) (constant (F := Ideal) S4000x128 .f32 0x00000000#32) (ix2 y q)
      = ∑ k : Fin 128, x1 (ix2 y k) * x3 (ix2 k q) :=
    Cert.Lib.PlainMatmul.matmul_zero_apply dot_S4000x128_S128x128_S4000x128_1_0_0_1_n_n rfl rfl rfl rfl rfl rfl none _ _ y q
  have hb : broadcastTo S4000x128 (shapeCast S1x128 x4 shapeCasts_S128_S1x128) broadcasts_S1x128_S4000x128 (ix2 y q)
      = x4 (ix1 q) :=
    (broadcastTo_1b_ab_apply _ _ y q).trans (shapeCast_a_1a_apply x4 _ 0 q)
  show max ((_ + _) + _) (Ideal.ofBits .f32 0x00000000#32) = _
  rw [m1, m2, hb, Ideal.ofBits_zero_f32]

-- The TensorCore's buffer contents when the region is entered: a parameter, as in the generated frame.
variable (V : (c : Dev nD) → (b : Ref sig .tc) → Buf (Elt Ideal) ((c : Thread nD τ).loc b))

/-- A rank-2 offset of zeros is the zero function. -/
theorem offset2_zero : (![0, 0] : Fin 2 → Nat) = fun _ => 0 := funext fun a => by fin_cases a <;> rfl
/-- A rank-1 offset of zero is the zero function. -/
theorem offset1_zero : (![0] : Fin 1 → Nat) = fun _ => 0 := funext fun a => by fin_cases a; rfl

/-- The block index maps over the 50 points: the two row-blocked inputs sit at the output's row block, in their one
    column block; the two weight matrices and the bias stay at their one block; the output's row-block index is below
    50 and it has one column block. -/
theorem row_blocks_move_together : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) < 50 ∧ win1_5.index t (1 : Fin 2) = 0 :=
  (by decide +kernel : ∀ t : Fin grid1.N, _)

/-- Every one of the 50 row blocks is some point's. -/
theorem every_row_block_has_a_point : ∀ b : Fin 50, ∃ t : Fin cfg1.N, win1_5.index t = ![b.val, 0] :=
  (by decide +kernel : ∀ b : Fin 50, ∃ t : Fin grid1.N, win1_5.index t = ![b.val, 0])

/-- Row `y` of the block of neighbourhood means at point `t` is row `4000·b + y` of the array, `b` the point's row block. -/
theorem mean_block_apply (c : Dev nD) (t : Fin cfg1.N) (y : Fin 4000)
    (hr : win1_5.index t (0 : Fin 2) * 4000 + y.val < 200000) (k : Fin 64) :
    iblk1 (F := Ideal) V c 0 t (ix2 y k) = V c main_v19 (ix2 ⟨win1_5.index t (0 : Fin 2) * 4000 + y.val, hr⟩ k) := by
  obtain ⟨e0, e1, -⟩ := row_blocks_move_together t
  show V c main_v19 (((cfg1.win 0).blk t).view.emb (ix2 y k)) = _
  refine congrArg (V c main_v19) (funext fun a => Fin.ext ?_)
  match a with
  | ⟨0, _⟩ => show win1_0.index t (0 : Fin 2) * 4000 + 1 * y.val = win1_5.index t (0 : Fin 2) * 4000 + y.val; omega
  | ⟨1, _⟩ => show win1_0.index t (1 : Fin 2) * 64 + 1 * k.val = k.val; omega

/-- Row `y` of the block of the nodes' own rows at point `t` is row `4000·b + y` of the array. -/
theorem self_block_apply (c : Dev nD) (t : Fin cfg1.N) (y : Fin 4000)
    (hr : win1_5.index t (0 : Fin 2) * 4000 + y.val < 200000) (k : Fin 128) :
    iblk1 (F := Ideal) V c 1 t (ix2 y k) = V c main_v0 (ix2 ⟨win1_5.index t (0 : Fin 2) * 4000 + y.val, hr⟩ k) := by
  obtain ⟨-, -, e2, e3, -⟩ := row_blocks_move_together t
  show V c main_v0 (((cfg1.win 1).blk t).view.emb (ix2 y k)) = _
  refine congrArg (V c main_v0) (funext fun a => Fin.ext ?_)
  match a with
  | ⟨0, _⟩ => show win1_1.index t (0 : Fin 2) * 4000 + 1 * y.val = win1_5.index t (0 : Fin 2) * 4000 + y.val; omega
  | ⟨1, _⟩ => show win1_1.index t (1 : Fin 2) * 128 + 1 * k.val = k.val; omega

/-- The left weights' block at every point is the whole matrix. -/
theorem left_weights_block_apply (c : Dev nD) (t : Fin cfg1.N) (k : Fin 64) (q : Fin 128) :
    iblk1 (F := Ideal) V c 2 t (ix2 k q) = V c main_arg4 (ix2 k q) := by
  obtain ⟨-, -, -, -, e4, e5, -⟩ := row_blocks_move_together t
  show V c main_arg4 (((cfg1.win 2).blk t).view.emb (ix2 k q)) = _
  refine congrArg (V c main_arg4) (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

/-- The right weights' block at every point is the whole matrix. -/
theorem right_weights_block_apply (c : Dev nD) (t : Fin cfg1.N) (k : Fin 128) (q : Fin 128) :
    iblk1 (F := Ideal) V c 3 t (ix2 k q) = V c main_arg5 (ix2 k q) := by
  obtain ⟨-, -, -, -, -, -, e6, e7, -⟩ := row_blocks_move_together t
  show V c main_arg5 (((cfg1.win 3).blk t).view.emb (ix2 k q)) = _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias's block at every point is the whole vector. -/
theorem bias_block_apply (c : Dev nD) (t : Fin cfg1.N) (q : Fin 128) :
    iblk1 (F := Ideal) V c 4 t (ix1 q) = V c main_arg6 (ix1 q) := by
  obtain ⟨-, -, -, -, -, -, -, -, e8, -⟩ := row_blocks_move_together t
  show V c main_arg6 (((cfg1.win 4).blk t).view.emb (ix1 q)) = _
  refine congrArg (V c main_arg6) (funext fun a => Fin.ext ?_)
  match a with
  | ⟨0, _⟩ => show win1_4.index t (0 : Fin 1) * 128 + 1 * q.val = q.val; omega

/-- WHAT POINT `t` WRITES BACK is its row block of `Spec.sage` of the five arrays as the region finds them: entry
    `(y, q)` of the stored block is the body's arithmetic on row `y` of the two input blocks, which are rows
    `4000·b + y` of the arrays, and that is entry `(4000·b + y, q)` of `Spec.sage`. -/
theorem point_writes_sage_rows (c : Dev nD) (t : Fin cfg1.N) :
    (dat1 (F := Ideal) V c).flushed 5 t = ((cfg1.win 5).blk t).view.read (Elt Ideal)
      (Spec.sage (n := 200000) (k1 := 64) (k2 := 128) (h := 128)
        (V c main_v19) (V c main_v0) (V c main_arg4) (V c main_arg5) (V c main_arg6)) := by
  show (cfg1.win 5).cut (grid1.coords t) ((dat1 V c).after 5 t) = _
  rw [after1_5]
  unfold out1_5
  rw [View.canon_unit_zero offset2_zero]
  simp only [View.ld_unit_zero (S := S4000x64) offset2_zero, View.ld_unit_zero (S := S4000x128) offset2_zero,
    View.ld_unit_zero (S := S64x128) offset2_zero, View.ld_unit_zero (S := S128x128) offset2_zero,
    View.ld_unit_zero (S := S128) offset1_zero]
  obtain ⟨-, -, -, -, -, -, -, -, -, e9, e10⟩ := row_blocks_move_together t
  funext j
  obtain ⟨y, q, rfl⟩ : ∃ (y : Fin 4000) (q : Fin 128), j = ix2 y q := ⟨j 0, j 1, eq_ix2 j⟩
  have hr : win1_5.index t (0 : Fin 2) * 4000 + y.val < 200000 := by have := y.isLt; omega
  have hi : ((cfg1.win 5).blk t).view.emb (ix2 y q) = ix2 (⟨win1_5.index t (0 : Fin 2) * 4000 + y.val, hr⟩ : Fin 200000) q :=
    funext fun a => Fin.ext (by
      match a with
      | ⟨0, _⟩ => show win1_5.index t (0 : Fin 2) * 4000 + 1 * y.val = win1_5.index t (0 : Fin 2) * 4000 + y.val; omega
      | ⟨1, _⟩ => show win1_5.index t (1 : Fin 2) * 128 + 1 * q.val = q.val; omega)
  show k1_pay1 (F := Ideal) (iblk1 V c 0 t) (iblk1 V c 1 t) (iblk1 V c 2 t) (iblk1 V c 3 t) (iblk1 V c 4 t) (ix2 y q)
    = Spec.sage (n := 200000) (k1 := 64) (k2 := 128) (h := 128)
        (V c main_v19) (V c main_v0) (V c main_arg4) (V c main_arg5) (V c main_arg6) (((cfg1.win 5).blk t).view.emb (ix2 y q))
  rw [hi, Spec.sage_apply, pay_apply]
  simp only [mean_block_apply V c t y hr, self_block_apply V c t y hr, left_weights_block_apply V c t,
    right_weights_block_apply V c t, bias_block_apply V c t]

/-- An index of the result array is in point `t`'s block iff each coordinate is in the block's range on its axis. -/
theorem mem_row_block (t : Fin cfg1.N) (i : S200000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v20).slice (win1_5.rect t)).set ↔ _
  rw [View.set_slice_whole, Rect.mem_set_unit]
  exact Iff.rfl

/-- THE BLOCKS COVER THE ARRAY: row `r` is in the block of the point whose row block is `r / 4000`, and every point
    writes its block back. -/
theorem every_row_is_written (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  obtain ⟨t, ht⟩ := every_row_block_has_a_point ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_row_block]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-- After the region's run the result array is `Spec.sage` of the five arrays the region read, as it found them. -/
theorem arr_eq (c : Dev nD) :
    (dat1 (F := Ideal) V c).arrAt 5 cfg1.N
      = Spec.sage (n := 200000) (k1 := 64) (k2 := 128) (h := 128)
          (V c main_v19) (V c main_v0) (V c main_arg4) (V c main_arg5) (V c main_arg6) :=
  (dat1 (F := Ideal) V c).arrAt_eq_of_cover 5
    (Spec.sage (n := 200000) (k1 := 64) (k2 := 128) (h := 128)
      (V c main_v19) (V c main_v0) (V c main_arg4) (V c main_arg5) (V c main_arg6))
    (fun t _ => point_writes_sage_rows V c t) every_row_is_written

end Cert.KernelIdeal.Region1

end
-- ==== Proof.Region2.lean ====
/-
  Region 2: layer 1's seller update, 50000 rows in 10 blocks of 5000.

  The kernel walks the 50000 rows in blocks; at a block it multiplies the block of neighbourhood means by the left
  weights and the block of the nodes' own rows by the right weights (both products into a zero accumulator), adds the
  two, adds the bias along the rows, and takes the positive part. Row `r` of the result therefore depends only on row
  `r` of the two inputs: block `t` of the result is the restriction to its rows of ONE function of the whole arrays,
  `Spec.sage`, and the blocks cover every row.
-/
import proofs.«401422_j10771777979113_2_alg».proof.Proof.Gen.KernelIdeal.Frame
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

-- The TensorCore's buffer contents when the region is entered: a parameter, as in the generated frame.
variable (V : (c : Dev nD) → (b : Ref sig .tc) → Buf (Elt Ideal) ((c : Thread nD τ).loc b))

/-! ## The block's arithmetic at one entry -/

/-- The bias, viewed as one row and repeated along the rows, reads at `(y, q)` its entry `q`. -/
theorem bias_rows_apply (x4 : Vec Ideal S128 .f32) (y : Fin 5000) (q : Fin 128) :
    broadcastTo S5000x128 (shapeCast S1x128 x4 shapeCasts_S128_S1x128) broadcasts_S1x128_S5000x128 (ix2 y q) = x4 (ix1 q) := by
  refine (broadcastTo_apply _ _ (ix2 y q) (ix2 (0 : Fin 1) q) ?_).trans ?_
  · intro a
    match a with
    | ⟨0, _⟩ => rfl
    | ⟨1, _⟩ => rfl
  · refine (shapeCast_addUnit_apply ![128] x4 shapeCasts_S128_S1x128 (ix2 (0 : Fin 1) q)).trans ?_
    refine congrArg x4 (funext fun a => ?_)
    match a with
    | ⟨0, _⟩ => rfl

/-- THE BLOCK'S ARITHMETIC AT `(y, q)`: row `y` of the means against column `q` of the left weights, plus row `y` of the
    nodes' own features against column `q` of the right weights, plus the bias at `q`, then the positive part. -/
theorem pay_apply (x0 : Vec Ideal S5000x128 .f32) (x1 : Vec Ideal S5000x64 .f32) (x2 : Vec Ideal S128x128 .f32)
    (x3 : Vec Ideal S64x128 .f32) (x4 : Vec Ideal S128 .f32) (y : Fin 5000) (q : Fin 128) :
    k2_pay1 (F := Ideal) x0 x1 x2 x3 x4 (ix2 y q)
      = max (((∑ k : Fin 128, x0 (ix2 y k) * x2 (ix2 k q)) + (∑ k : Fin 64, x1 (ix2 y k) * x3 (ix2 k q))) + x4 (ix1 q)) 0 := by
  unfold k2_pay1
  refine (maximumf_apply _ _ _).trans ?_
  refine congrArg₂ max ?_ Ideal.ofBits_zero_f32
  refine (addf_apply _ _ _).trans ?_
  refine congrArg₂ (· + ·) ?_ (bias_rows_apply x4 y q)
  refine (addf_apply _ _ _).trans ?_
  refine congrArg₂ (· + ·) ?_ ?_
  · refine (Cert.Lib.PlainMatmul.matmul_zero_apply dot_S5000x128_S128x128_S5000x128_1_0_0_1_n_n rfl rfl rfl rfl rfl rfl none
      (truncf (F := Ideal) .bf16 (shapeCast S5000x128 x0 shapeCasts_S5000x128_S5000x128) bitsLt_bf16_f32)
      (truncf (F := Ideal) .bf16 x2 bitsLt_bf16_f32) y q).trans ?_
    refine Finset.sum_congr rfl fun k _ => ?_
    show shapeCast S5000x128 x0 shapeCasts_S5000x128_S5000x128 (ix2 y k) * x2 (ix2 k q) = _
    rw [shapeCast_self]
  · exact Cert.Lib.PlainMatmul.matmul_zero_apply dot_S5000x64_S64x128_S5000x128_1_0_0_1_n_n rfl rfl rfl rfl rfl rfl none
      (truncf (F := Ideal) .bf16 x1 bitsLt_bf16_f32) (truncf (F := Ideal) .bf16 x3 bitsLt_bf16_f32) y q

/-! ## What each point writes back -/

/-- Zero offsets on two axes, and on one, however the zeros are spelt. -/
theorem zero_offsets2 : (![0, 0] : Fin 2 → Nat) = fun _ => 0 := funext fun a => by fin_cases a <;> rfl
theorem zero_offsets1 : (![0] : Fin 1 → Nat) = fun _ => 0 := funext fun a => by fin_cases a <;> rfl

/-- The index maps, decided over the ten points: the two row-blocked inputs move with the result's row block and stay at
    column block 0; the two weight matrices and the bias are always at block 0; the result's row block is below 10 and
    its column block is 0. -/
theorem block_indices : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) < 10 ∧ win2_5.index t (1 : Fin 2) = 0 :=
  (by decide +kernel : ∀ t : Fin grid2.N, _)

/-- Every row block of the result is some point's. -/
theorem row_block_onto : ∀ b : Fin 10, ∃ t : Fin cfg2.N, win2_5.index t = ![b.val, 0] :=
  (by decide +kernel : ∀ b : Fin 10, ∃ t : Fin grid2.N, win2_5.index t = ![b.val, 0])

/-- Row `y` of the block of means at point `t` is row `r` of the array of means, `r` the block's first row plus `y`. -/
theorem mean_block (c : Dev nD) (t : Fin cfg2.N) (y : Fin 5000) (k : Fin 128) (r : Fin 50000)
    (hr : r.val = win2_5.index t (0 : Fin 2) * 5000 + y.val) :
    (iblk2 (F := Ideal) V c 0 t : Vec Ideal S5000x128 .f32) (ix2 y k) = (V c main_v39 : S50000x128.Idx → EReal) (ix2 r k) := by
  obtain ⟨e00, e01, -⟩ := block_indices t
  show (V c main_v39 : S50000x128.Idx → EReal) (((cfg2.win 0).blk t).view.emb (ix2 y k)) = _
  refine congrArg (V c main_v39 : S50000x128.Idx → EReal) (funext fun a => Fin.ext ?_)
  match a with
  | ⟨0, _⟩ => show win2_0.index t (0 : Fin 2) * 5000 + 1 * y.val = r.val; omega
  | ⟨1, _⟩ => show win2_0.index t (1 : Fin 2) * 128 + 1 * k.val = k.val; omega

/-- Row `y` of the block of the nodes' own features at point `t` is row `r` of their array. -/
theorem self_block (c : Dev nD) (t : Fin cfg2.N) (y : Fin 5000) (k : Fin 64) (r : Fin 50000)
    (hr : r.val = win2_5.index t (0 : Fin 2) * 5000 + y.val) :
    (iblk2 (F := Ideal) V c 1 t : Vec Ideal S5000x64 .f32) (ix2 y k) = (V c main_arg1 : S50000x64.Idx → EReal) (ix2 r k) := by
  obtain ⟨-, -, e10, e11, -⟩ := block_indices t
  show (V c main_arg1 : S50000x64.Idx → EReal) (((cfg2.win 1).blk t).view.emb (ix2 y k)) = _
  refine congrArg (V c main_arg1 : S50000x64.Idx → EReal) (funext fun a => Fin.ext ?_)
  match a with
  | ⟨0, _⟩ => show win2_1.index t (0 : Fin 2) * 5000 + 1 * y.val = r.val; omega
  | ⟨1, _⟩ => show win2_1.index t (1 : Fin 2) * 64 + 1 * k.val = k.val; omega

/-- The block of left weights at any point is the whole matrix. -/
theorem left_block (c : Dev nD) (t : Fin cfg2.N) (k : Fin 128) (q : Fin 128) :
    (iblk2 (F := Ideal) V c 2 t : Vec Ideal S128x128 .f32) (ix2 k q) = (V c main_arg7 : S128x128.Idx → EReal) (ix2 k q) := by
  obtain ⟨-, -, -, -, e20, e21, -⟩ := block_indices t
  show (V c main_arg7 : S128x128.Idx → EReal) (((cfg2.win 2).blk t).view.emb (ix2 k q)) = _
  refine congrArg (V c main_arg7 : S128x128.Idx → EReal) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The block of right weights at any point is the whole matrix. -/
theorem right_block (c : Dev nD) (t : Fin cfg2.N) (k : Fin 64) (q : Fin 128) :
    (iblk2 (F := Ideal) V c 3 t : Vec Ideal S64x128 .f32) (ix2 k q) = (V c main_arg8 : S64x128.Idx → EReal) (ix2 k q) := by
  obtain ⟨-, -, -, -, -, -, e30, e31, -⟩ := block_indices t
  show (V c main_arg8 : S64x128.Idx → EReal) (((cfg2.win 3).blk t).view.emb (ix2 k q)) = _
  refine congrArg (V c main_arg8 : S64x128.Idx → EReal) (funext fun a => Fin.ext ?_)
  match a with
  | ⟨0, _⟩ => show win2_3.index t (0 : Fin 2) * 64 + 1 * k.val = k.val; omega
  | ⟨1, _⟩ => show win2_3.index t (1 : Fin 2) * 128 + 1 * q.val = q.val; omega

/-- The block of the bias at any point is the whole bias. -/
theorem bias_block (c : Dev nD) (t : Fin cfg2.N) (q : Fin 128) :
    (iblk2 (F := Ideal) V c 4 t : Vec Ideal S128 .f32) (ix1 q) = (V c main_arg9 : S128.Idx → EReal) (ix1 q) := by
  obtain ⟨-, -, -, -, -, -, -, -, e40, -⟩ := block_indices t
  show (V c main_arg9 : S128.Idx → EReal) (((cfg2.win 4).blk t).view.emb (ix1 q)) = _
  refine congrArg (V c main_arg9 : S128.Idx → EReal) (funext fun a => Fin.ext ?_)
  match a with
  | ⟨0, _⟩ => show win2_4.index t (0 : Fin 1) * 128 + 1 * q.val = q.val; omega

/-- WHAT POINT `t` WRITES BACK is block `t` of `Spec.sage` of the five arrays as the region finds them. -/
theorem flushed_eq (c : Dev nD) (t : Fin cfg2.N) :
    (dat2 (F := Ideal) V c).flushed 5 t
      = ((cfg2.win 5).blk t).view.read (Elt Ideal)
          (Spec.sage (n := 50000) (k1 := 128) (k2 := 64) (h := 128)
            (V c main_v39) (V c main_arg1) (V c main_arg7) (V c main_arg8) (V c main_arg9)) := by
  show (cfg2.win 5).cut (grid2.coords t) ((dat2 V c).after 5 t) = _
  rw [after2_5]
  unfold out2_5
  rw [View.canon_unit_zero zero_offsets2]
  simp only [View.ld_unit_zero (S := S5000x128) zero_offsets2, View.ld_unit_zero (S := S5000x64) zero_offsets2,
    View.ld_unit_zero (S := S128x128) zero_offsets2, View.ld_unit_zero (S := S64x128) zero_offsets2,
    View.ld_unit_zero (S := S128) zero_offsets1]
  obtain ⟨-, -, -, -, -, -, -, -, -, e5lt, e51⟩ := block_indices t
  funext j
  obtain ⟨y, q, rfl⟩ : ∃ (y : Fin 5000) (q : Fin 128), j = ix2 y q := ⟨j 0, j 1, eq_ix2 j⟩
  have hr : win2_5.index t (0 : Fin 2) * 5000 + y.val < 50000 := by have := y.isLt; omega
  have hR : (((cfg2.win 5).blk t).view.emb (ix2 y q) : S50000x128.Idx)
      = ix2 (⟨win2_5.index t (0 : Fin 2) * 5000 + y.val, hr⟩ : Fin 50000) q := by
    funext a; apply Fin.ext
    match a with
    | ⟨0, _⟩ => show win2_5.index t (0 : Fin 2) * 5000 + 1 * y.val = win2_5.index t (0 : Fin 2) * 5000 + y.val; omega
    | ⟨1, _⟩ => show win2_5.index t (1 : Fin 2) * 128 + 1 * q.val = q.val; omega
  show k2_pay1 (F := Ideal) (iblk2 V c 0 t) (iblk2 V c 1 t) (iblk2 V c 2 t) (iblk2 V c 3 t) (iblk2 V c 4 t) (ix2 y q)
    = Spec.sage (n := 50000) (k1 := 128) (k2 := 64) (h := 128)
        (V c main_v39) (V c main_arg1) (V c main_arg7) (V c main_arg8) (V c main_arg9)
        (((cfg2.win 5).blk t).view.emb (ix2 y q))
  rw [hR, Spec.sage_apply]
  refine (pay_apply _ _ _ _ _ y q).trans ?_
  rw [bias_block V c t q]
  refine congrArg₂ max (congrArg₂ (· + ·) (congrArg₂ (· + ·) ?_ ?_) rfl) rfl
  · exact Finset.sum_congr rfl fun k _ => by rw [mean_block V c t y k ⟨win2_5.index t (0 : Fin 2) * 5000 + y.val, hr⟩ rfl, left_block V c t k q]
  · exact Finset.sum_congr rfl fun k _ => by rw [self_block V c t y k ⟨win2_5.index t (0 : Fin 2) * 5000 + y.val, hr⟩ rfl, right_block V c t k q]

/-! ## The blocks cover the array -/

/-- An index of the result array is in point `t`'s block iff each coordinate is in the block's range on its axis. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v40).slice (win2_5.rect t)).set ↔ _
  rw [View.set_slice_whole, Rect.mem_set_unit]
  exact Iff.rfl

/-- THE BLOCKS COVER THE ARRAY: row `r` is in the block of the point whose row block is `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := row_block_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the region's run the result array is `Spec.sage` of the five arrays the region read, as it found them. -/
theorem arr_eq (c : Dev nD) :
    (dat2 (F := Ideal) V c).arrAt 5 cfg2.N
      = Spec.sage (n := 50000) (k1 := 128) (k2 := 64) (h := 128)
          (V c main_v39) (V c main_arg1) (V c main_arg7) (V c main_arg8) (V c main_arg9) :=
  (dat2 (F := Ideal) V c).arrAt_eq_of_cover 5 _ (fun t _ => flushed_eq V c t) cover

end Cert.KernelIdeal.Region2

end
-- ==== Proof.Region3.lean ====
/-
  Region 3: layer 2's user update, 200000 rows in 50 blocks of 4000.

  The kernel walks the 200000 rows in blocks; at a block it multiplies the block of neighbourhood means by the left
  weights and the block of the nodes' own rows by the right weights (both products into a zero accumulator), adds the
  two, adds the bias along the rows, and takes the positive part. Row `r` of the result therefore depends only on row
  `r` of the two inputs: block `t` of the result is the restriction to its rows of ONE function of the whole arrays,
  `Spec.sage`, and the blocks cover every row.
-/
import proofs.«401422_j10771777979113_2_alg».proof.Proof.Gen.KernelIdeal.Frame
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The body's arithmetic at row `y`, column `q` of a block: the block of means against the left weights plus the
    block of own rows against the right weights, plus the bias at `q`, then the positive part. -/
theorem pay_apply (x0 x1 : Vec Ideal S4000x128 .f32) (x2 x3 : Vec Ideal S128x128 .f32) (x4 : Vec Ideal S128 .f32)
    (y : Fin 4000) (q : Fin 128) :
    k3_pay1 (F := Ideal) x0 x1 x2 x3 x4 (ix2 y q)
      = max (((∑ k : Fin 128, x0 (ix2 y k) * x2 (ix2 k q)) + (∑ k : Fin 128, x1 (ix2 y k) * x3 (ix2 k q)))
          + x4 (ix1 q)) 0 := by
  unfold k3_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · exact Cert.Lib.PlainMatmul.matmul_zero_apply dot_S4000x128_S128x128_S4000x128_1_0_0_1_n_n rfl rfl rfl rfl rfl rfl
        none _ _ y q
    · exact Cert.Lib.PlainMatmul.matmul_zero_apply dot_S4000x128_S128x128_S4000x128_1_0_0_1_n_n rfl rfl rfl rfl rfl rfl
        none _ _ y q
  · exact (broadcastTo_1b_ab_apply _ _ y q).trans (shapeCast_a_1a_apply x4 _ 0 q)

-- The TensorCore's buffer contents when the region is entered: a parameter, as in the generated frame.
variable (V : (c : Dev nD) → (b : Ref sig .tc) → Buf (Elt Ideal) ((c : Thread nD τ).loc b))

/-- The zero offsets of a rank-2 rectangle, as the constant function. -/
theorem zero_off2 : (![0, 0] : Fin 2 → Nat) = fun _ => 0 := funext fun a => by fin_cases a <;> rfl

/-- The zero offset of a rank-1 rectangle, as the constant function. -/
theorem zero_off1 : (![0] : Fin 1 → Nat) = fun _ => 0 := funext fun a => by fin_cases a <;> rfl

/-- Where each window's block sits at grid point `t`: the two row-blocked inputs and the result are at block row `t`,
    column block 0; the two weight matrices and the bias are whole, at block 0 on every axis. -/
theorem block_indices : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 :=
  (by decide +kernel : ∀ t : Fin grid3.N, _)

/-- The grid has 50 points. -/
theorem point_lt (t : Fin cfg3.N) : t.val < 50 :=
  Nat.lt_of_lt_of_eq t.isLt (N_3 : cfg3.N = 50)

/-- Row `y` of block `t` is row `4000 t + y` of the array. -/
def blockRow (t : Fin cfg3.N) (y : Fin 4000) : Fin 200000 :=
  ⟨t.val * 4000 + y.val, by have := point_lt t; have := y.isLt; omega⟩

/-- The block of neighbourhood means at point `t` is rows `4000 t …` of the means. -/
theorem mean_blk (c : Dev nD) (t : Fin cfg3.N) (y : Fin 4000) (k : Fin 128) :
    iblk3 (F := Ideal) V c 0 t (ix2 y k) = V c main_v59 (ix2 (blockRow t y) k) := by
  obtain ⟨-, -, e0, e1, -⟩ := block_indices t
  show V c main_v59 (((cfg3.win 0).blk t).view.emb (ix2 y k)) = _
  refine congrArg (V c main_v59) (funext fun a => Fin.ext ?_)
  match a with
  | ⟨0, _⟩ => show win3_0.index t (0 : Fin 2) * 4000 + 1 * y.val = t.val * 4000 + y.val; omega
  | ⟨1, _⟩ => show win3_0.index t (1 : Fin 2) * 128 + 1 * k.val = k.val; omega

/-- The block of the nodes' own rows at point `t` is rows `4000 t …` of that array. -/
theorem own_blk (c : Dev nD) (t : Fin cfg3.N) (y : Fin 4000) (k : Fin 128) :
    iblk3 (F := Ideal) V c 1 t (ix2 y k) = V c main_v20 (ix2 (blockRow t y) k) := by
  obtain ⟨-, -, -, -, e0, e1, -⟩ := block_indices t
  show V c main_v20 (((cfg3.win 1).blk t).view.emb (ix2 y k)) = _
  refine congrArg (V c main_v20) (funext fun a => Fin.ext ?_)
  match a with
  | ⟨0, _⟩ => show win3_1.index t (0 : Fin 2) * 4000 + 1 * y.val = t.val * 4000 + y.val; omega
  | ⟨1, _⟩ => show win3_1.index t (1 : Fin 2) * 128 + 1 * k.val = k.val; omega

/-- The left weights' block at any point is the whole matrix. -/
theorem wl_blk (c : Dev nD) (t : Fin cfg3.N) (k q : Fin 128) :
    iblk3 (F := Ideal) V c 2 t (ix2 k q) = V c main_arg10 (ix2 k q) := by
  obtain ⟨-, -, -, -, -, -, e0, e1, -⟩ := block_indices t
  show V c main_arg10 (((cfg3.win 2).blk t).view.emb (ix2 k q)) = _
  refine congrArg (V c main_arg10) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The right weights' block at any point is the whole matrix. -/
theorem wr_blk (c : Dev nD) (t : Fin cfg3.N) (k q : Fin 128) :
    iblk3 (F := Ideal) V c 3 t (ix2 k q) = V c main_arg11 (ix2 k q) := by
  obtain ⟨-, -, -, -, -, -, -, -, e0, e1, -⟩ := block_indices t
  show V c main_arg11 (((cfg3.win 3).blk t).view.emb (ix2 k q)) = _
  refine congrArg (V c main_arg11) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias's block at any point is the whole vector. -/
theorem bias_blk (c : Dev nD) (t : Fin cfg3.N) (q : Fin 128) :
    iblk3 (F := Ideal) V c 4 t (ix1 q) = V c main_arg12 (ix1 q) := by
  obtain ⟨-, -, -, -, -, -, -, -, -, -, e0⟩ := block_indices t
  show V c main_arg12 (((cfg3.win 4).blk t).view.emb (ix1 q)) = _
  refine congrArg (V c main_arg12) (funext fun a => Fin.ext ?_)
  match a with
  | ⟨0, _⟩ => show win3_4.index t (0 : Fin 1) * 128 + 1 * q.val = q.val; omega

/-- WHAT POINT `t` WRITES BACK is block `t` of `Spec.sage` of the five arrays as the region finds them. -/
theorem flushed_eq (c : Dev nD) (t : Fin cfg3.N) :
    (dat3 (F := Ideal) V c).flushed 5 t
      = ((cfg3.win 5).blk t).view.read (Elt Ideal)
          (Spec.sage (n := 200000) (k1 := 128) (k2 := 128) (h := 128)
            (V c main_v59) (V c main_v20) (V c main_arg10) (V c main_arg11) (V c main_arg12)) := by
  show (cfg3.win 5).cut (grid3.coords t) ((dat3 (F := Ideal) V c).after 5 t) = _
  rw [after3_5]
  unfold out3_5
  rw [View.canon_unit_zero zero_off2]
  simp only [View.ld_unit_zero (S := S4000x128) zero_off2, View.ld_unit_zero (S := S128x128) zero_off2,
    View.ld_unit_zero (S := S128) zero_off1]
  funext j
  obtain ⟨y, q, rfl⟩ : ∃ (y : Fin 4000) (q : Fin 128), j = ix2 y q := ⟨j 0, j 1, eq_ix2 j⟩
  obtain ⟨e0, e1, -⟩ := block_indices t
  have hrow : ((cfg3.win 5).blk t).view.emb (ix2 y q) = ix2 (blockRow t y) q := by
    funext a; apply Fin.ext
    match a with
    | ⟨0, _⟩ => show win3_5.index t (0 : Fin 2) * 4000 + 1 * y.val = t.val * 4000 + y.val; omega
    | ⟨1, _⟩ => show win3_5.index t (1 : Fin 2) * 128 + 1 * q.val = q.val; omega
  show k3_pay1 (F := Ideal) (iblk3 V c 0 t) (iblk3 V c 1 t) (iblk3 V c 2 t) (iblk3 V c 3 t) (iblk3 V c 4 t) (ix2 y q)
      = Spec.sage (n := 200000) (k1 := 128) (k2 := 128) (h := 128)
          (V c main_v59) (V c main_v20) (V c main_arg10) (V c main_arg11) (V c main_arg12)
          (((cfg3.win 5).blk t).view.emb (ix2 y q))
  rw [hrow, Spec.sage_apply, pay_apply]
  simp only [mean_blk, own_blk, wl_blk, wr_blk, bias_blk]

/-- An index of the result array is in point `t`'s block iff each coordinate is in the block's range on its axis. -/
theorem mem_blk (t : Fin cfg3.N) (i : S200000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v60).slice (win3_5.rect t)).set ↔ _
  rw [View.set_slice_whole, Rect.mem_set_unit]
  exact Iff.rfl

/-- Every row of the result is in the block of the point `row / 4000`. -/
theorem cover (i : S200000x128.Idx) :
    ∃ t : Fin cfg3.N, (cfg3.win 5).flush t = true ∧ i ∈ ((cfg3.win 5).blk t).view.set := by
  have hi0 : (i 0).val < 200000 := (i 0).isLt
  have hi1 : (i 1).val < 128 := (i 1).isLt
  have hN : (i 0).val / 4000 < cfg3.N := by rw [show cfg3.N = 50 from N_3]; omega
  refine ⟨⟨(i 0).val / 4000, hN⟩, flush3_5 _, ?_⟩
  obtain ⟨e0, e1, -⟩ := block_indices ⟨(i 0).val / 4000, hN⟩
  rw [mem_blk]
  intro a
  match a with
  | ⟨0, _⟩ =>
    show win3_5.index ⟨(i 0).val / 4000, hN⟩ (0 : Fin 2) * 4000 ≤ (i 0).val
      ∧ (i 0).val < win3_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, hN⟩ (1 : Fin 2) * 128 ≤ (i 1).val
      ∧ (i 1).val < win3_5.index ⟨(i 0).val / 4000, hN⟩ (1 : Fin 2) * 128 + 128
    rw [e1]; omega

/-- After the region's run the result array is `Spec.sage` of the five arrays the region read, as it found them. -/
theorem arr_eq (c : Dev nD) :
    (dat3 (F := Ideal) V c).arrAt 5 cfg3.N
      = Spec.sage (n := 200000) (k1 := 128) (k2 := 128) (h := 128)
          (V c main_v59) (V c main_v20) (V c main_arg10) (V c main_arg11) (V c main_arg12) :=
  (dat3 (F := Ideal) V c).arrAt_eq_of_cover 5 _ (fun t _ => flushed_eq V c t) cover

end Cert.KernelIdeal.Region3

end
-- ==== Proof.Region4.lean ====
/-
  Region 4: layer 2's seller update, 50000 rows in 10 blocks of 5000.

  The kernel walks the 50000 rows in blocks; at a block it multiplies the block of neighbourhood means by the left
  weights and the block of the nodes' own rows by the right weights (both products into a zero accumulator), adds the
  two, adds the bias along the rows, and takes the positive part. Row `r` of the result therefore depends only on row
  `r` of the two inputs: block `t` of the result is the restriction to its rows of ONE function of the whole arrays,
  `Spec.sage`, and the blocks cover every row.
-/
import proofs.«401422_j10771777979113_2_alg».proof.Proof.Gen.KernelIdeal.Frame
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The bias, given one leading unit axis and then repeated along the rows, reads at `(y, q)` its entry `q`. -/
theorem bias_rows_apply (x4 : Vec Ideal S128 .f32) (y : Fin 5000) (q : Fin 128) :
    broadcastTo S5000x128 (shapeCast S1x128 x4 shapeCasts_S128_S1x128) broadcasts_S1x128_S5000x128 (ix2 y q) = x4 (ix1 q) := by
  refine (broadcastTo_apply _ broadcasts_S1x128_S5000x128 (ix2 y q) (ix2 (0 : Fin 1) q) ?_).trans ?_
  · intro a
    match a with
    | ⟨0, _⟩ => rfl
    | ⟨1, _⟩ => rfl
  · refine (shapeCast_addUnit_apply ![128] x4 shapeCasts_S128_S1x128 (ix2 (0 : Fin 1) q)).trans ?_
    refine congrArg x4 (funext fun a => ?_)
    match a with
    | ⟨0, _⟩ => rfl

/-- THE BODY'S ARITHMETIC AT ONE ENTRY of the block: row `y` of the two row blocks against column `q` of the two weight
    matrices, the two sums added, then the bias's entry `q`, then the positive part. -/
theorem pay_apply (x0 x1 : Vec Ideal S5000x128 .f32) (x2 x3 : Vec Ideal S128x128 .f32) (x4 : Vec Ideal S128 .f32)
    (y : Fin 5000) (q : Fin 128) :
    k4_pay1 (F := Ideal) x0 x1 x2 x3 x4 (ix2 y q)
      = max (((∑ k : Fin 128, x0 (ix2 y k) * x2 (ix2 k q)) + (∑ k : Fin 128, x1 (ix2 y k) * x3 (ix2 k q))) + x4 (ix1 q)) 0 := by
  unfold k4_pay1
  rw [shapeCast_self, shapeCast_self, maximumf_apply, addf_apply, addf_apply, broadcast_apply, bias_rows_apply]
  have hl := Cert.Lib.PlainMatmul.matmul_zero_apply dot_S5000x128_S128x128_S5000x128_1_0_0_1_n_n rfl rfl rfl rfl rfl rfl none
    (truncf (F := Ideal) .bf16 x0 bitsLt_bf16_f32) (truncf (F := Ideal) .bf16 x2 bitsLt_bf16_f32) y q
  have hr := Cert.Lib.PlainMatmul.matmul_zero_apply dot_S5000x128_S128x128_S5000x128_1_0_0_1_n_n rfl rfl rfl rfl rfl rfl none
    (truncf (F := Ideal) .bf16 x1 bitsLt_bf16_f32) (truncf (F := Ideal) .bf16 x3 bitsLt_bf16_f32) y q
  refine congrArg₂ max (congrArg₂ (· + ·) (congrArg₂ (· + ·) hl hr) rfl) ?_
  exact Ideal.ofBits_zero_f32

-- The TensorCore's buffer contents when the region is entered: a parameter, as in the generated frame.
variable (V : (c : Dev nD) → (b : Ref sig .tc) → Buf (Elt Ideal) ((c : Thread nD τ).loc b))

/-- Zero offsets on two axes, however they are spelt. -/
theorem zero_offsets2 : (![0, 0] : Fin 2 → Nat) = fun _ => 0 := funext fun a => by fin_cases a <;> rfl
/-- Zero offsets on one axis. -/
theorem zero_offsets1 : (![0] : Fin 1 → Nat) = fun _ => 0 := funext fun a => by fin_cases a <;> rfl

/-- The block index maps over the grid: the two row-blocked inputs move with the result's row block and stay on column
    block 0; the weights and the bias stay on block 0 on every axis; the result's row block is one of the ten and its
    column block is 0. -/
theorem block_index_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) < 10 ∧ win4_5.index t (1 : Fin 2) = 0 :=
  (by decide +kernel : ∀ t : Fin grid4.N, _)

/-- Every one of the ten row blocks of the result is some point's. -/
theorem row_block_onto : ∀ b : Fin 10, ∃ t : Fin cfg4.N, win4_5.index t = ![b.val, 0] :=
  (by decide +kernel : ∀ b : Fin 10, ∃ t : Fin grid4.N, win4_5.index t = ![b.val, 0])

/-- Row `y` of the block of neighbourhood means at point `t` is row `r` of the whole array, `r` the block's first row plus `y`. -/
theorem mean_block_apply (c : Dev nD) (t : Fin cfg4.N) (y : Fin 5000) (k : Fin 128) (r : Fin 50000)
    (hr : r.val = win4_5.index t (0 : Fin 2) * 5000 + y.val) :
    (iblk4 V c 0 t : Vec Ideal S5000x128 .f32) (ix2 y k) = V c main_v79 (ix2 r k) := by
  obtain ⟨e0, e1, -⟩ := block_index_facts t
  unfold iblk4
  show V c main_v79 (((cfg4.win 0).blk t).view.emb (ix2 y k)) = V c main_v79 (ix2 r k)
  refine congrArg (V c main_v79) (funext fun a => Fin.ext ?_)
  match a with
  | ⟨0, _⟩ => show win4_0.index t (0 : Fin 2) * 5000 + 1 * y.val = r.val; omega
  | ⟨1, _⟩ => show win4_0.index t (1 : Fin 2) * 128 + 1 * k.val = k.val; omega

/-- The same for the block of the nodes' own rows. -/
theorem own_block_apply (c : Dev nD) (t : Fin cfg4.N) (y : Fin 5000) (k : Fin 128) (r : Fin 50000)
    (hr : r.val = win4_5.index t (0 : Fin 2) * 5000 + y.val) :
    (iblk4 V c 1 t : Vec Ideal S5000x128 .f32) (ix2 y k) = V c main_v40 (ix2 r k) := by
  obtain ⟨-, -, e2, e3, -⟩ := block_index_facts t
  unfold iblk4
  show V c main_v40 (((cfg4.win 1).blk t).view.emb (ix2 y k)) = V c main_v40 (ix2 r k)
  refine congrArg (V c main_v40) (funext fun a => Fin.ext ?_)
  match a with
  | ⟨0, _⟩ => show win4_1.index t (0 : Fin 2) * 5000 + 1 * y.val = r.val; omega
  | ⟨1, _⟩ => show win4_1.index t (1 : Fin 2) * 128 + 1 * k.val = k.val; omega

/-- The left weights' block is the whole matrix at every point. -/
theorem left_weights_block_apply (c : Dev nD) (t : Fin cfg4.N) (k q : Fin 128) :
    (iblk4 V c 2 t : Vec Ideal S128x128 .f32) (ix2 k q) = V c main_arg13 (ix2 k q) := by
  obtain ⟨-, -, -, -, e4, e5, -⟩ := block_index_facts t
  unfold iblk4
  show V c main_arg13 (((cfg4.win 2).blk t).view.emb (ix2 k q)) = V c main_arg13 (ix2 k q)
  refine congrArg (V c main_arg13) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- The right weights' block is the whole matrix at every point. -/
theorem right_weights_block_apply (c : Dev nD) (t : Fin cfg4.N) (k q : Fin 128) :
    (iblk4 V c 3 t : Vec Ideal S128x128 .f32) (ix2 k q) = V c main_arg14 (ix2 k q) := by
  obtain ⟨-, -, -, -, -, -, e6, e7, -⟩ := block_index_facts t
  unfold iblk4
  show V c main_arg14 (((cfg4.win 3).blk t).view.emb (ix2 k q)) = V c main_arg14 (ix2 k q)
  refine congrArg (V c main_arg14) (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-- The bias's block is the whole vector at every point. -/
theorem bias_block_apply (c : Dev nD) (t : Fin cfg4.N) (q : Fin 128) :
    (iblk4 V c 4 t : Vec Ideal S128 .f32) (ix1 q) = V c main_arg15 (ix1 q) := by
  obtain ⟨-, -, -, -, -, -, -, -, e8, -⟩ := block_index_facts t
  unfold iblk4
  show V c main_arg15 (((cfg4.win 4).blk t).view.emb (ix1 q)) = V c main_arg15 (ix1 q)
  refine congrArg (V c main_arg15) (funext fun a => Fin.ext ?_)
  match a with
  | ⟨0, _⟩ => show win4_4.index t (0 : Fin 1) * 128 + 1 * q.val = q.val; omega

/-- WHAT POINT `t` WRITES BACK is block `t` of `Spec.sage` of the five arrays as the region finds them. -/
theorem flushed_eq (c : Dev nD) (t : Fin cfg4.N) :
    (dat4 (F := Ideal) V c).flushed 5 t
      = ((cfg4.win 5).blk t).view.read (Elt Ideal) (Spec.sage (n := 50000) (k1 := 128) (k2 := 128) (h := 128) (V c main_v79) (V c main_v40) (V c main_arg13) (V c main_arg14) (V c main_arg15)) := by
  show (cfg4.win 5).cut (grid4.coords t) ((dat4 V c).after 5 t) = _
  rw [after4_5]
  unfold out4_5
  rw [View.canon_unit_zero zero_offsets2]
  simp only [View.ld_unit_zero (S := S5000x128) zero_offsets2, View.ld_unit_zero (S := S128x128) zero_offsets2,
    View.ld_unit_zero (S := S128) zero_offsets1]
  obtain ⟨-, -, -, -, -, -, -, -, -, e9, e10⟩ := block_index_facts t
  funext j
  obtain ⟨y, q, rfl⟩ : ∃ (y : Fin 5000) (q : Fin 128), j = ix2 y q := ⟨j 0, j 1, eq_ix2 j⟩
  have hr : (⟨win4_5.index t (0 : Fin 2) * 5000 + y.val, by omega⟩ : Fin 50000).val = win4_5.index t (0 : Fin 2) * 5000 + y.val := rfl
  have hemb : ((cfg4.win 5).blk t).view.emb (ix2 y q) = ix2 (⟨win4_5.index t (0 : Fin 2) * 5000 + y.val, by omega⟩ : Fin 50000) q := by
    funext a; apply Fin.ext
    match a with
    | ⟨0, _⟩ => show win4_5.index t (0 : Fin 2) * 5000 + 1 * y.val = win4_5.index t (0 : Fin 2) * 5000 + y.val; omega
    | ⟨1, _⟩ => show win4_5.index t (1 : Fin 2) * 128 + 1 * q.val = q.val; omega
  show k4_pay1 (F := Ideal) (iblk4 V c 0 t) (iblk4 V c 1 t) (iblk4 V c 2 t) (iblk4 V c 3 t) (iblk4 V c 4 t) (ix2 y q)
    = Spec.sage (n := 50000) (k1 := 128) (k2 := 128) (h := 128) (V c main_v79) (V c main_v40) (V c main_arg13) (V c main_arg14) (V c main_arg15) (((cfg4.win 5).blk t).view.emb (ix2 y q))
  rw [hemb]
  refine (pay_apply (iblk4 V c 0 t) (iblk4 V c 1 t) (iblk4 V c 2 t) (iblk4 V c 3 t) (iblk4 V c 4 t) y q).trans ?_
  exact congrArg₂ max (congrArg₂ (· + ·) (congrArg₂ (· + ·)
      (Finset.sum_congr rfl fun k _ => congrArg₂ (· * ·) (mean_block_apply V c t y k _ hr) (left_weights_block_apply V c t k q))
      (Finset.sum_congr rfl fun k _ => congrArg₂ (· * ·) (own_block_apply V c t y k _ hr) (right_weights_block_apply V c t k q)))
    (bias_block_apply V c t q)) rfl

/-- An entry of the array is in point `t`'s block iff each coordinate is in the block's range on its axis. -/
theorem mem_block (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v80).slice (win4_5.rect t)).set ↔ _
  rw [View.set_slice_whole, Rect.mem_set_unit]
  exact Iff.rfl

/-- THE BLOCKS COVER THE ARRAY: row `r` is in the block of the point whose row block is `r / 5000`. -/
theorem blocks_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := row_block_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After the region's run the result array is `Spec.sage` of the five arrays the region read, as it found them. -/
theorem arr_eq (c : Dev nD) :
    (dat4 (F := Ideal) V c).arrAt 5 cfg4.N
      = Spec.sage (n := 50000) (k1 := 128) (k2 := 128) (h := 128)
          (V c main_v79) (V c main_v40) (V c main_arg13) (V c main_arg14) (V c main_arg15) :=
  (dat4 (F := Ideal) V c).arrAt_eq_of_cover 5
    (Spec.sage (n := 50000) (k1 := 128) (k2 := 128) (h := 128)
      (V c main_v79) (V c main_v40) (V c main_arg13) (V c main_arg14) (V c main_arg15))
    (fun t _ => flushed_eq V c t) blocks_cover

end Cert.KernelIdeal.Region4

end
-- ==== Proof.Region5.lean ====
/-
  Region 5: the logistic unit over the 100000 sampled pairs, in 20 blocks of 5000 rows.

  At a block the kernel multiplies the block of paired rows (256 wide) with the one weight column into a zero
  accumulator, adds the bias, and applies the logistic function. Row `r` of the result depends only on row `r` of the
  input, so block `t` is the restriction of `Spec.final` of the whole arrays, and the blocks cover every row.
-/
import proofs.«401422_j10771777979113_2_alg».proof.Proof.Gen.KernelIdeal.Frame
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets of a rank-2 rectangle, however spelt. -/
theorem zero_off2 : (![0, 0] : Fin 2 → Nat) = fun _ => 0 := funext fun a => by fin_cases a <;> rfl
/-- The zero offset of a rank-1 rectangle. -/
theorem zero_off1 : (![0] : Fin 1 → Nat) = fun _ => 0 := funext fun a => by fin_cases a <;> rfl

/-- The bias, viewed as a 1×1 matrix and repeated down the 5000 rows, reads the bias at every row. -/
theorem bias_column_apply (x2 : Vec Ideal S1 .f32) (y : Fin 5000) (q : Fin 1) :
    broadcastTo S5000x1 (shapeCast S1x1 x2 shapeCasts_S1_S1x1) broadcasts_S1x1_S5000x1 (ix2 y q) = x2 (ix1 q) := by
  refine (broadcastTo_apply _ broadcasts_S1x1_S5000x1 (ix2 y q) (ix2 (0 : Fin 1) (0 : Fin 1)) fun a => ?_).trans ?_
  · match a with
    | ⟨0, _⟩ => rfl
    | ⟨1, _⟩ => rfl
  · refine (shapeCast_addUnit_apply (![1] : Fin 1 → Nat) x2 shapeCasts_S1_S1x1 (ix2 (0 : Fin 1) (0 : Fin 1))).trans ?_
    refine congrArg x2 (funext fun a => Fin.ext ?_)
    match a with
    | ⟨0, _⟩ => show (0 : ℕ) = (q : ℕ); have hq : (q : ℕ) < 1 := q.isLt; omega

/-- THE BLOCK'S RESULT AT ROW `y`: the logistic function of the row's product with the weight column, plus the bias. -/
theorem payload_apply (x0 : Vec Ideal S5000x256 .f32) (x1 : Vec Ideal S256x1 .f32) (x2 : Vec Ideal S1 .f32)
    (y : Fin 5000) (q : Fin 1) :
    k5_pay1 (F := Ideal) x0 x1 x2 (ix2 y q)
      = Ideal.logistic ((∑ k : Fin 256, x0 (ix2 y k) * x1 (ix2 k q)) + x2 (ix1 q)) := by
  unfold k5_pay1
  show Ideal.logistic (FloatOps.matmul dot_S5000x256_S256x1_S5000x1_1_0_0_1_n_n none
        (truncf .bf16 (shapeCast S5000x256 x0 shapeCasts_S5000x256_S5000x256) bitsLt_bf16_f32)
        (truncf .bf16 x1 bitsLt_bf16_f32) (constant (F := Ideal) S5000x1 .f32 0x00000000#32) (ix2 y q)
      + broadcastTo S5000x1 (shapeCast S1x1 x2 shapeCasts_S1_S1x1) broadcasts_S1x1_S5000x1 (ix2 y q)) = _
  rw [bias_column_apply, shapeCast_self]
  refine congrArg (fun z => Ideal.logistic (z + x2 (ix1 q))) ?_
  exact Cert.Lib.PlainMatmul.matmul_zero_apply dot_S5000x256_S256x1_S5000x1_1_0_0_1_n_n rfl rfl rfl rfl rfl rfl none _ _ y q

-- The TensorCore's buffer contents when the region is entered: a parameter, as in the generated frame.
variable (V : (c : Dev nD) → (b : Ref sig .tc) → Buf (Elt Ideal) ((c : Thread nD τ).loc b))

/-- The block index maps, decided once over the 20 grid points: the paired rows' block moves with the result's block down
    the rows and sits at column block 0; the weight column and the bias are read whole at every point; the result's row
    block stays below 20 and its column block is 0. -/
theorem block_index_facts : ∀ t : Fin cfg5.N,
    win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) < 20
    ∧ win5_3.index t (1 : Fin 2) = 0 :=
  (by decide +kernel : ∀ t : Fin grid5.N, _)

/-- Every one of the 20 row blocks of the result is some grid point's. -/
theorem block_index_onto : ∀ (b : Fin 20), ∃ t : Fin cfg5.N, win5_3.index t = ![b.val, 0] :=
  (by decide +kernel : ∀ (b : Fin 20), ∃ t : Fin grid5.N, win5_3.index t = ![b.val, 0])

/-- Row `y` of point `t`'s block of the paired rows is row `r` of the array, `r` the row the result's block puts `y` at. -/
theorem rows_block_apply (c : Dev nD) (t : Fin cfg5.N) (y : Fin 5000) (k : Fin 256) (r : Fin 100000)
    (hr : r.val = win5_3.index t (0 : Fin 2) * 5000 + y.val) :
    (iblk5 (F := Ideal) V c 0 t : Vec Ideal S5000x256 .f32) (ix2 y k)
      = (V c main_v95 : S100000x256.Idx → EReal) (ix2 r k) := by
  obtain ⟨e0, e1, -⟩ := block_index_facts t
  show V c main_v95 (((cfg5.win 0).blk t).view.emb (ix2 y k)) = V c main_v95 (ix2 r k)
  refine congrArg (V c main_v95) (funext fun a => Fin.ext ?_)
  match a with
  | ⟨0, _⟩ => show win5_0.index t (0 : Fin 2) * 5000 + 1 * y.val = r.val; omega
  | ⟨1, _⟩ => show win5_0.index t (1 : Fin 2) * 256 + 1 * k.val = k.val; omega

/-- The weight column's block at every point is the whole column. -/
theorem weight_block_apply (c : Dev nD) (t : Fin cfg5.N) (k : Fin 256) (q : Fin 1) :
    (iblk5 (F := Ideal) V c 1 t : Vec Ideal S256x1 .f32) (ix2 k q)
      = (V c main_arg16 : S256x1.Idx → EReal) (ix2 k q) := by
  obtain ⟨-, -, e2, e3, -⟩ := block_index_facts t
  show V c main_arg16 (((cfg5.win 1).blk t).view.emb (ix2 k q)) = V c main_arg16 (ix2 k q)
  refine congrArg (V c main_arg16) (funext fun a => Fin.ext ?_)
  match a with
  | ⟨0, _⟩ => show win5_1.index t (0 : Fin 2) * 256 + 1 * k.val = k.val; omega
  | ⟨1, _⟩ => show win5_1.index t (1 : Fin 2) * 1 + 1 * q.val = q.val; omega

/-- The bias's block at every point is the bias. -/
theorem bias_block_apply (c : Dev nD) (t : Fin cfg5.N) (q : Fin 1) :
    (iblk5 (F := Ideal) V c 2 t : Vec Ideal S1 .f32) (ix1 q) = (V c main_arg17 : S1.Idx → EReal) (ix1 q) := by
  obtain ⟨-, -, -, -, e4, -⟩ := block_index_facts t
  show V c main_arg17 (((cfg5.win 2).blk t).view.emb (ix1 q)) = V c main_arg17 (ix1 q)
  refine congrArg (V c main_arg17) (funext fun a => Fin.ext ?_)
  match a with
  | ⟨0, _⟩ => show win5_2.index t (0 : Fin 1) * 1 + 1 * q.val = q.val; omega

/-- WHAT POINT `t` WRITES BACK is block `t` of `Spec.final` of the three arrays as the region finds them. -/
theorem flushed_eq (c : Dev nD) (t : Fin cfg5.N) :
    (dat5 (F := Ideal) V c).flushed 3 t
      = ((cfg5.win 3).blk t).view.read (Elt Ideal) (Spec.final (V c main_v95) (V c main_arg16) (V c main_arg17)) := by
  show (cfg5.win 3).cut (grid5.coords t) ((dat5 (F := Ideal) V c).after 3 t) = _
  rw [after5_3]
  unfold out5_3
  rw [View.canon_unit_zero zero_off2]
  simp only [View.ld_unit_zero (S := S5000x256) zero_off2, View.ld_unit_zero (S := S256x1) zero_off2,
    View.ld_unit_zero (S := S1) zero_off1]
  obtain ⟨-, -, -, -, -, e5, e6⟩ := block_index_facts t
  funext j
  obtain ⟨y, q, rfl⟩ : ∃ (y : Fin 5000) (q : Fin 1), j = ix2 y q := ⟨j 0, j 1, eq_ix2 j⟩
  show k5_pay1 (F := Ideal) (iblk5 V c 0 t) (iblk5 V c 1 t) (iblk5 V c 2 t) (ix2 y q)
    = Spec.final (V c main_v95) (V c main_arg16) (V c main_arg17) (((cfg5.win 3).blk t).view.emb (ix2 y q))
  obtain ⟨r, hr⟩ : ∃ r : Fin 100000, r.val = win5_3.index t (0 : Fin 2) * 5000 + y.val :=
    ⟨⟨win5_3.index t (0 : Fin 2) * 5000 + y.val, by have := y.isLt; omega⟩, rfl⟩
  have hi : (((cfg5.win 3).blk t).view.emb (ix2 y q) : S100000x1.Idx) = ix2 r q := by
    funext a; apply Fin.ext
    match a with
    | ⟨0, _⟩ => show win5_3.index t (0 : Fin 2) * 5000 + 1 * y.val = r.val; omega
    | ⟨1, _⟩ => show win5_3.index t (1 : Fin 2) * 1 + 1 * q.val = q.val; omega
  rw [hi, Spec.final_apply, payload_apply, bias_block_apply V c t q]
  refine congrArg (fun z => Ideal.logistic (z + V c main_arg17 (ix1 q))) ?_
  refine Finset.sum_congr rfl fun k _ => ?_
  rw [rows_block_apply V c t y k r hr, weight_block_apply V c t k q]

/-- An index of the result array is in point `t`'s block iff each coordinate is in the block's range on its axis. -/
theorem mem_block (t : Fin cfg5.N) (i : S100000x1.Idx) :
    i ∈ ((cfg5.win 3).blk t).view.set ↔ ∀ a : Fin 2, win5_3.index t a * S5000x1.size a ≤ (i a).val
      ∧ (i a).val < win5_3.index t a * S5000x1.size a + S5000x1.size a := by
  show i ∈ ((View.whole main_v96).slice (win5_3.rect t)).set ↔ _
  rw [View.set_slice_whole, Rect.mem_set_unit]
  exact Iff.rfl

/-- The blocks cover the result: row `r` is in the block of the point whose row block is `r / 5000`. -/
theorem blocks_cover (i : S100000x1.Idx) :
    ∃ t : Fin cfg5.N, (cfg5.win 3).flush t = true ∧ i ∈ ((cfg5.win 3).blk t).view.set := by
  have hi0 : (i 0).val < 100000 := (i 0).isLt
  have hi1 : (i 1).val < 1 := (i 1).isLt
  obtain ⟨t, ht⟩ := block_index_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 1 ≤ (i 1).val ∧ (i 1).val < win5_3.index t (1 : Fin 2) * 1 + 1; omega

/-- After the region's run the result array is `Spec.final` of the three arrays the region read, as it found them. -/
theorem arr_eq (c : Dev nD) :
    (dat5 (F := Ideal) V c).arrAt 3 cfg5.N = Spec.final (V c main_v95) (V c main_arg16) (V c main_arg17) :=
  (dat5 (F := Ideal) V c).arrAt_eq_of_cover 3 (Spec.final (V c main_v95) (V c main_arg16) (V c main_arg17))
    (fun t _ => flushed_eq V c t) blocks_cover

end Cert.KernelIdeal.Region5

end
-- ==== Proof.KArgs.lean ====
/-
  The argument arrays a later stage reads are still as launched when that stage begins.

  No host operation and no region writes an argument array (a region reads it through an input window, which the
  pipeline leaves as it found it, or does not touch it), so the buffer contents at a segment boundary, a fold through
  @main from the launch memory, walk back to the launch memory at every argument. Stated here for exactly the
  (boundary, argument) pairs the value of the result needs.

  Every walk below has one line per boundary. Across a host stretch the argument is none of the buffers the stretch's
  operations write; across a region the argument is none of the region's window arrays (each pair here is an argument
  that only a LATER region reads, or that no region reads), so the region leaves it as entered.
-/
import proofs.«401422_j10771777979113_2_alg».proof.Proof.Gen.KernelIdeal.Frame

set_option maxRecDepth 16384

noncomputable section

namespace Cert.KernelIdeal.ArgsKept

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations changes only the buffers its operations write. The goal is
    `after ops V b = V b`: the list of operations is spelled out, each operation writes exactly one buffer (its
    result), and the buffer `b` in question differs from every one of those results. -/
macro "host_kept " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes,
      StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## Boundary 1 (after region 0) -/

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

theorem W1_main_arg21 (c : Dev nD) : W1 m ρ c (Proc.devRef .tc main_arg21) = m ((c : Thread nD τ).loc main_arg21) :=
  calc W1 m ρ c (Proc.devRef .tc main_arg21)
    _ = W0 m ρ c (Proc.devRef .tc main_arg21) := W1_of_ne m ρ c main_arg21 (by decide)
    _ = m ((c : Thread nD τ).loc main_arg21) := rfl

theorem W1_main_arg22 (c : Dev nD) : W1 m ρ c (Proc.devRef .tc main_arg22) = m ((c : Thread nD τ).loc main_arg22) :=
  calc W1 m ρ c (Proc.devRef .tc main_arg22)
    _ = W0 m ρ c (Proc.devRef .tc main_arg22) := W1_of_ne m ρ c main_arg22 (by decide)
    _ = m ((c : Thread nD τ).loc main_arg22) := rfl

/-! ## Boundary 2 (region 1's entry): the three weight arrays region 1 reads -/

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by host_kept hostOps1
    _ = W0 m ρ c (Proc.devRef .tc main_arg4) := W1_of_ne m ρ c main_arg4 (by decide)
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by host_kept hostOps1
    _ = W0 m ρ c (Proc.devRef .tc main_arg5) := W1_of_ne m ρ c main_arg5 (by decide)
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by host_kept hostOps1
    _ = W0 m ρ c (Proc.devRef .tc main_arg6) := W1_of_ne m ρ c main_arg6 (by decide)
    _ = m ((c : Thread nD τ).loc main_arg6) := rfl

/-! ## Boundary 3 (after region 1) -/

theorem W3_main_arg19 (c : Dev nD) : W3 m ρ c (Proc.devRef .tc main_arg19) = m ((c : Thread nD τ).loc main_arg19) :=
  calc W3 m ρ c (Proc.devRef .tc main_arg19)
    _ = W2 m ρ c (Proc.devRef .tc main_arg19) := W3_of_ne m ρ c main_arg19 (by decide)
    _ = W1 m ρ c (Proc.devRef .tc main_arg19) := by host_kept hostOps1
    _ = W0 m ρ c (Proc.devRef .tc main_arg19) := W1_of_ne m ρ c main_arg19 (by decide)
    _ = m ((c : Thread nD τ).loc main_arg19) := rfl

theorem W3_main_arg20 (c : Dev nD) : W3 m ρ c (Proc.devRef .tc main_arg20) = m ((c : Thread nD τ).loc main_arg20) :=
  calc W3 m ρ c (Proc.devRef .tc main_arg20)
    _ = W2 m ρ c (Proc.devRef .tc main_arg20) := W3_of_ne m ρ c main_arg20 (by decide)
    _ = W1 m ρ c (Proc.devRef .tc main_arg20) := by host_kept hostOps1
    _ = W0 m ρ c (Proc.devRef .tc main_arg20) := W1_of_ne m ρ c main_arg20 (by decide)
    _ = m ((c : Thread nD τ).loc main_arg20) := rfl

/-! ## Boundary 4 (region 2's entry): the four arrays region 2 reads -/

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by host_kept hostOps2
    _ = W2 m ρ c (Proc.devRef .tc main_arg1) := W3_of_ne m ρ c main_arg1 (by decide)
    _ = W1 m ρ c (Proc.devRef .tc main_arg1) := by host_kept hostOps1
    _ = m ((c : Thread nD τ).loc main_arg1) := W1_main_arg1 m ρ c

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by host_kept hostOps2
    _ = W2 m ρ c (Proc.devRef .tc main_arg7) := W3_of_ne m ρ c main_arg7 (by decide)
    _ = W1 m ρ c (Proc.devRef .tc main_arg7) := by host_kept hostOps1
    _ = W0 m ρ c (Proc.devRef .tc main_arg7) := W1_of_ne m ρ c main_arg7 (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := by host_kept hostOps2
    _ = W2 m ρ c (Proc.devRef .tc main_arg8) := W3_of_ne m ρ c main_arg8 (by decide)
    _ = W1 m ρ c (Proc.devRef .tc main_arg8) := by host_kept hostOps1
    _ = W0 m ρ c (Proc.devRef .tc main_arg8) := W1_of_ne m ρ c main_arg8 (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := by host_kept hostOps2
    _ = W2 m ρ c (Proc.devRef .tc main_arg9) := W3_of_ne m ρ c main_arg9 (by decide)
    _ = W1 m ρ c (Proc.devRef .tc main_arg9) := by host_kept hostOps1
    _ = W0 m ρ c (Proc.devRef .tc main_arg9) := W1_of_ne m ρ c main_arg9 (by decide)
    _ = m ((c : Thread nD τ).loc main_arg9) := rfl

/-! ## Boundary 5 (after region 2) -/

theorem W5_main_arg21 (c : Dev nD) : W5 m ρ c (Proc.devRef .tc main_arg21) = m ((c : Thread nD τ).loc main_arg21) :=
  calc W5 m ρ c (Proc.devRef .tc main_arg21)
    _ = W4 m ρ c (Proc.devRef .tc main_arg21) := W5_of_ne m ρ c main_arg21 (by decide)
    _ = W3 m ρ c (Proc.devRef .tc main_arg21) := by host_kept hostOps2
    _ = W2 m ρ c (Proc.devRef .tc main_arg21) := W3_of_ne m ρ c main_arg21 (by decide)
    _ = W1 m ρ c (Proc.devRef .tc main_arg21) := by host_kept hostOps1
    _ = m ((c : Thread nD τ).loc main_arg21) := W1_main_arg21 m ρ c

theorem W5_main_arg22 (c : Dev nD) : W5 m ρ c (Proc.devRef .tc main_arg22) = m ((c : Thread nD τ).loc main_arg22) :=
  calc W5 m ρ c (Proc.devRef .tc main_arg22)
    _ = W4 m ρ c (Proc.devRef .tc main_arg22) := W5_of_ne m ρ c main_arg22 (by decide)
    _ = W3 m ρ c (Proc.devRef .tc main_arg22) := by host_kept hostOps2
    _ = W2 m ρ c (Proc.devRef .tc main_arg22) := W3_of_ne m ρ c main_arg22 (by decide)
    _ = W1 m ρ c (Proc.devRef .tc main_arg22) := by host_kept hostOps1
    _ = m ((c : Thread nD τ).loc main_arg22) := W1_main_arg22 m ρ c

/-! ## Boundary 6 (region 3's entry): the three weight arrays region 3 reads -/

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := by host_kept hostOps3
    _ = W4 m ρ c (Proc.devRef .tc main_arg10) := W5_of_ne m ρ c main_arg10 (by decide)
    _ = W3 m ρ c (Proc.devRef .tc main_arg10) := by host_kept hostOps2
    _ = W2 m ρ c (Proc.devRef .tc main_arg10) := W3_of_ne m ρ c main_arg10 (by decide)
    _ = W1 m ρ c (Proc.devRef .tc main_arg10) := by host_kept hostOps1
    _ = W0 m ρ c (Proc.devRef .tc main_arg10) := W1_of_ne m ρ c main_arg10 (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := by host_kept hostOps3
    _ = W4 m ρ c (Proc.devRef .tc main_arg11) := W5_of_ne m ρ c main_arg11 (by decide)
    _ = W3 m ρ c (Proc.devRef .tc main_arg11) := by host_kept hostOps2
    _ = W2 m ρ c (Proc.devRef .tc main_arg11) := W3_of_ne m ρ c main_arg11 (by decide)
    _ = W1 m ρ c (Proc.devRef .tc main_arg11) := by host_kept hostOps1
    _ = W0 m ρ c (Proc.devRef .tc main_arg11) := W1_of_ne m ρ c main_arg11 (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := by host_kept hostOps3
    _ = W4 m ρ c (Proc.devRef .tc main_arg12) := W5_of_ne m ρ c main_arg12 (by decide)
    _ = W3 m ρ c (Proc.devRef .tc main_arg12) := by host_kept hostOps2
    _ = W2 m ρ c (Proc.devRef .tc main_arg12) := W3_of_ne m ρ c main_arg12 (by decide)
    _ = W1 m ρ c (Proc.devRef .tc main_arg12) := by host_kept hostOps1
    _ = W0 m ρ c (Proc.devRef .tc main_arg12) := W1_of_ne m ρ c main_arg12 (by decide)
    _ = m ((c : Thread nD τ).loc main_arg12) := rfl

/-! ## Boundary 7 (after region 3) -/

theorem W7_main_arg19 (c : Dev nD) : W7 m ρ c (Proc.devRef .tc main_arg19) = m ((c : Thread nD τ).loc main_arg19) :=
  calc W7 m ρ c (Proc.devRef .tc main_arg19)
    _ = W6 m ρ c (Proc.devRef .tc main_arg19) := W7_of_ne m ρ c main_arg19 (by decide)
    _ = W5 m ρ c (Proc.devRef .tc main_arg19) := by host_kept hostOps3
    _ = W4 m ρ c (Proc.devRef .tc main_arg19) := W5_of_ne m ρ c main_arg19 (by decide)
    _ = W3 m ρ c (Proc.devRef .tc main_arg19) := by host_kept hostOps2
    _ = m ((c : Thread nD τ).loc main_arg19) := W3_main_arg19 m ρ c

theorem W7_main_arg20 (c : Dev nD) : W7 m ρ c (Proc.devRef .tc main_arg20) = m ((c : Thread nD τ).loc main_arg20) :=
  calc W7 m ρ c (Proc.devRef .tc main_arg20)
    _ = W6 m ρ c (Proc.devRef .tc main_arg20) := W7_of_ne m ρ c main_arg20 (by decide)
    _ = W5 m ρ c (Proc.devRef .tc main_arg20) := by host_kept hostOps3
    _ = W4 m ρ c (Proc.devRef .tc main_arg20) := W5_of_ne m ρ c main_arg20 (by decide)
    _ = W3 m ρ c (Proc.devRef .tc main_arg20) := by host_kept hostOps2
    _ = m ((c : Thread nD τ).loc main_arg20) := W3_main_arg20 m ρ c

/-! ## Boundary 8 (region 4's entry): the three weight arrays region 4 reads -/

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := by host_kept hostOps4
    _ = W6 m ρ c (Proc.devRef .tc main_arg13) := W7_of_ne m ρ c main_arg13 (by decide)
    _ = W5 m ρ c (Proc.devRef .tc main_arg13) := by host_kept hostOps3
    _ = W4 m ρ c (Proc.devRef .tc main_arg13) := W5_of_ne m ρ c main_arg13 (by decide)
    _ = W3 m ρ c (Proc.devRef .tc main_arg13) := by host_kept hostOps2
    _ = W2 m ρ c (Proc.devRef .tc main_arg13) := W3_of_ne m ρ c main_arg13 (by decide)
    _ = W1 m ρ c (Proc.devRef .tc main_arg13) := by host_kept hostOps1
    _ = W0 m ρ c (Proc.devRef .tc main_arg13) := W1_of_ne m ρ c main_arg13 (by decide)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := by host_kept hostOps4
    _ = W6 m ρ c (Proc.devRef .tc main_arg14) := W7_of_ne m ρ c main_arg14 (by decide)
    _ = W5 m ρ c (Proc.devRef .tc main_arg14) := by host_kept hostOps3
    _ = W4 m ρ c (Proc.devRef .tc main_arg14) := W5_of_ne m ρ c main_arg14 (by decide)
    _ = W3 m ρ c (Proc.devRef .tc main_arg14) := by host_kept hostOps2
    _ = W2 m ρ c (Proc.devRef .tc main_arg14) := W3_of_ne m ρ c main_arg14 (by decide)
    _ = W1 m ρ c (Proc.devRef .tc main_arg14) := by host_kept hostOps1
    _ = W0 m ρ c (Proc.devRef .tc main_arg14) := W1_of_ne m ρ c main_arg14 (by decide)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := by host_kept hostOps4
    _ = W6 m ρ c (Proc.devRef .tc main_arg15) := W7_of_ne m ρ c main_arg15 (by decide)
    _ = W5 m ρ c (Proc.devRef .tc main_arg15) := by host_kept hostOps3
    _ = W4 m ρ c (Proc.devRef .tc main_arg15) := W5_of_ne m ρ c main_arg15 (by decide)
    _ = W3 m ρ c (Proc.devRef .tc main_arg15) := by host_kept hostOps2
    _ = W2 m ρ c (Proc.devRef .tc main_arg15) := W3_of_ne m ρ c main_arg15 (by decide)
    _ = W1 m ρ c (Proc.devRef .tc main_arg15) := by host_kept hostOps1
    _ = W0 m ρ c (Proc.devRef .tc main_arg15) := W1_of_ne m ρ c main_arg15 (by decide)
    _ = m ((c : Thread nD τ).loc main_arg15) := rfl

/-! ## Boundary 9 (after region 4) -/

theorem W9_main_arg23 (c : Dev nD) : W9 m ρ c (Proc.devRef .tc main_arg23) = m ((c : Thread nD τ).loc main_arg23) :=
  calc W9 m ρ c (Proc.devRef .tc main_arg23)
    _ = W8 m ρ c (Proc.devRef .tc main_arg23) := W9_of_ne m ρ c main_arg23 (by decide)
    _ = W7 m ρ c (Proc.devRef .tc main_arg23) := by host_kept hostOps4
    _ = W6 m ρ c (Proc.devRef .tc main_arg23) := W7_of_ne m ρ c main_arg23 (by decide)
    _ = W5 m ρ c (Proc.devRef .tc main_arg23) := by host_kept hostOps3
    _ = W4 m ρ c (Proc.devRef .tc main_arg23) := W5_of_ne m ρ c main_arg23 (by decide)
    _ = W3 m ρ c (Proc.devRef .tc main_arg23) := by host_kept hostOps2
    _ = W2 m ρ c (Proc.devRef .tc main_arg23) := W3_of_ne m ρ c main_arg23 (by decide)
    _ = W1 m ρ c (Proc.devRef .tc main_arg23) := by host_kept hostOps1
    _ = W0 m ρ c (Proc.devRef .tc main_arg23) := W1_of_ne m ρ c main_arg23 (by decide)
    _ = m ((c : Thread nD τ).loc main_arg23) := rfl

theorem W9_main_arg24 (c : Dev nD) : W9 m ρ c (Proc.devRef .tc main_arg24) = m ((c : Thread nD τ).loc main_arg24) :=
  calc W9 m ρ c (Proc.devRef .tc main_arg24)
    _ = W8 m ρ c (Proc.devRef .tc main_arg24) := W9_of_ne m ρ c main_arg24 (by decide)
    _ = W7 m ρ c (Proc.devRef .tc main_arg24) := by host_kept hostOps4
    _ = W6 m ρ c (Proc.devRef .tc main_arg24) := W7_of_ne m ρ c main_arg24 (by decide)
    _ = W5 m ρ c (Proc.devRef .tc main_arg24) := by host_kept hostOps3
    _ = W4 m ρ c (Proc.devRef .tc main_arg24) := W5_of_ne m ρ c main_arg24 (by decide)
    _ = W3 m ρ c (Proc.devRef .tc main_arg24) := by host_kept hostOps2
    _ = W2 m ρ c (Proc.devRef .tc main_arg24) := W3_of_ne m ρ c main_arg24 (by decide)
    _ = W1 m ρ c (Proc.devRef .tc main_arg24) := by host_kept hostOps1
    _ = W0 m ρ c (Proc.devRef .tc main_arg24) := W1_of_ne m ρ c main_arg24 (by decide)
    _ = m ((c : Thread nD τ).loc main_arg24) := rfl

/-! ## Boundary 10 (region 5's entry): the two arrays region 5 reads -/

theorem W10_main_arg16 (c : Dev nD) : W10 m ρ c (Proc.devRef .tc main_arg16) = m ((c : Thread nD τ).loc main_arg16) :=
  calc W10 m ρ c (Proc.devRef .tc main_arg16)
    _ = W9 m ρ c (Proc.devRef .tc main_arg16) := by host_kept hostOps5
    _ = W8 m ρ c (Proc.devRef .tc main_arg16) := W9_of_ne m ρ c main_arg16 (by decide)
    _ = W7 m ρ c (Proc.devRef .tc main_arg16) := by host_kept hostOps4
    _ = W6 m ρ c (Proc.devRef .tc main_arg16) := W7_of_ne m ρ c main_arg16 (by decide)
    _ = W5 m ρ c (Proc.devRef .tc main_arg16) := by host_kept hostOps3
    _ = W4 m ρ c (Proc.devRef .tc main_arg16) := W5_of_ne m ρ c main_arg16 (by decide)
    _ = W3 m ρ c (Proc.devRef .tc main_arg16) := by host_kept hostOps2
    _ = W2 m ρ c (Proc.devRef .tc main_arg16) := W3_of_ne m ρ c main_arg16 (by decide)
    _ = W1 m ρ c (Proc.devRef .tc main_arg16) := by host_kept hostOps1
    _ = W0 m ρ c (Proc.devRef .tc main_arg16) := W1_of_ne m ρ c main_arg16 (by decide)
    _ = m ((c : Thread nD τ).loc main_arg16) := rfl

theorem W10_main_arg17 (c : Dev nD) : W10 m ρ c (Proc.devRef .tc main_arg17) = m ((c : Thread nD τ).loc main_arg17) :=
  calc W10 m ρ c (Proc.devRef .tc main_arg17)
    _ = W9 m ρ c (Proc.devRef .tc main_arg17) := by host_kept hostOps5
    _ = W8 m ρ c (Proc.devRef .tc main_arg17) := W9_of_ne m ρ c main_arg17 (by decide)
    _ = W7 m ρ c (Proc.devRef .tc main_arg17) := by host_kept hostOps4
    _ = W6 m ρ c (Proc.devRef .tc main_arg17) := W7_of_ne m ρ c main_arg17 (by decide)
    _ = W5 m ρ c (Proc.devRef .tc main_arg17) := by host_kept hostOps3
    _ = W4 m ρ c (Proc.devRef .tc main_arg17) := W5_of_ne m ρ c main_arg17 (by decide)
    _ = W3 m ρ c (Proc.devRef .tc main_arg17) := by host_kept hostOps2
    _ = W2 m ρ c (Proc.devRef .tc main_arg17) := W3_of_ne m ρ c main_arg17 (by decide)
    _ = W1 m ρ c (Proc.devRef .tc main_arg17) := by host_kept hostOps1
    _ = W0 m ρ c (Proc.devRef .tc main_arg17) := W1_of_ne m ρ c main_arg17 (by decide)
    _ = m ((c : Thread nD τ).loc main_arg17) := rfl

end Cert.KernelIdeal.ArgsKept

end
-- ==== Proof.Compose.lean ====
/-
  The whole two-layer network as ONE function of the argument arrays.

  Both programs compute: the user input rows (`Spec.embed`); layer 1, a user update from the sellers' neighbourhood
  mean and a seller update from the users' (`Spec.sage` twice); layer 2, the same two updates over layer 1's results;
  then, for each of 100000 sampled (user, seller) pairs, the two layer-2 rows side by side through the logistic unit
  (`Spec.final`), flattened to one axis.

  The neighbourhood means (a gather along edges, a scatter-add, a count, a division) and the sampling of the pairs are
  done by the same operations in both programs, outside every kernel. They enter here as PARAMETERS `meanA … meanD`,
  `pair` and `flat`: the two programs are compared with those functions closed, never opened.
-/
import proofs.«401422_j10771777979113_2_alg».proof.Proof.Spec

noncomputable section

namespace Cert.Compose

open Idealize.ShloMosaic Idealize.ShloMosaic.ValueIdx

/-- A float array of rank 2 and one of rank 1, and an `i32` array, at literal extents. -/
abbrev M (r c : ℕ) := (⟨2, ![r, c]⟩ : Shape).Idx → EReal
abbrev Vc (n : ℕ) := (⟨1, ![n]⟩ : Shape).Idx → EReal
abbrev Ix (n : ℕ) := (⟨1, ![n]⟩ : Shape).Idx → BitVec 32

/-- The result of the network: layer 2's user and seller rows of the sampled pairs through the logistic unit. -/
def result
    (meanA : M 50000 64 → Ix 1000000 → Ix 1000000 → M 200000 64)
    (meanB : M 200000 128 → Ix 1000000 → Ix 1000000 → M 50000 128)
    (meanC : M 50000 128 → Ix 1000000 → Ix 1000000 → M 200000 128)
    (meanD : M 200000 128 → Ix 1000000 → Ix 1000000 → M 50000 128)
    (pair : M 200000 128 → Ix 100000 → M 50000 128 → Ix 100000 → M 100000 256)
    (flat : M 100000 1 → Vc 100000)
    (a : Fin 200000 → Fin 9) (g : Fin 200000 → Fin 3)
    (userFeat : M 200000 64) (sellerFeat : M 50000 64) (age : M 9 32) (gen : M 3 32)
    (W1ul : M 64 128) (W1ur : M 128 128) (b1u : Vc 128) (W1sl : M 128 128) (W1sr : M 64 128) (b1s : Vc 128)
    (W2ul : M 128 128) (W2ur : M 128 128) (b2u : Vc 128) (W2sl : M 128 128) (W2sr : M 128 128) (b2s : Vc 128)
    (linW : M 256 1) (linB : Vc 1)
    (srcUser dstSeller srcSeller dstUser : Ix 1000000) (maskUser maskSeller : Ix 100000) : Vc 100000 :=
  let xu : M 200000 128 := Spec.embed a g age gen userFeat
  let u1 : M 200000 128 := Spec.sage (meanA sellerFeat srcSeller dstUser) xu W1ul W1ur b1u
  let s1 : M 50000 128 := Spec.sage (meanB xu srcUser dstSeller) sellerFeat W1sl W1sr b1s
  let u2 : M 200000 128 := Spec.sage (meanC s1 srcSeller dstUser) u1 W2ul W2ur b2u
  let s2 : M 50000 128 := Spec.sage (meanD u1 srcUser dstSeller) s1 W2sl W2sr b2s
  flat (Spec.final (pair u2 maskUser s2 maskSeller) linW linB)

end Cert.Compose

end
-- ==== Proof.Chains.lean ====
/-
  The operations both programs run OUTSIDE every kernel, as functions of the arrays that flow through them.

  A neighbourhood mean gathers the source rows along the edges, adds them up per destination (a scatter-add into zeros),
  counts each destination's edges the same way, and divides the sums by `max (count, 1)`. There are four of them, one
  per update. `pair` reads layer 2's rows at the sampled user and seller numbers and lays the two side by side; `flat`
  drops the result's unit column. The index arrays go through a fixed preparation (a negative index is moved up by the
  axis length, then broadcast to a column): those stages depend on the index array alone and are cited by the name the
  reference's stage-by-stage reading gives them.

  These functions are never opened in the comparison of the two programs: both apply the same ones.
-/
import proofs.«401422_j10771777979113_2_alg».proof.Proof.Gen.ReferenceIdeal.Read
import proofs.«401422_j10771777979113_2_alg».proof.Proof.Compose

noncomputable section

namespace Cert.ReferenceIdeal.Chains

open Cert.ReferenceIdeal Cert.ReferenceIdeal.Gen Cert.ReferenceIdeal.Read Idealize.ShloMosaic Cert.Compose

/-- Each user's mean over its incoming edges of the sellers' 64 features (layer 1). -/
def meanA (xs : M 50000 64) (src dst : Ix 1000000) : M 200000 64 :=
  val_main_v37 (F := Ideal) xs src dst

/-- Each seller's mean over its incoming edges of the users' 128 input columns (layer 1). -/
def meanB (xu : M 200000 128) (src dst : Ix 1000000) : M 50000 128 :=
  Host.divf (F := Ideal) (φ := .f32)
    (Host.scatterAdd (F := Ideal) (φ := .f32) scatter_S50000x128_S1000000x1_S1000000x128_1_0_0_1 (val_main_v51 (F := Ideal)) (val_main_v52 (F := Ideal) dst)
      (Host.gather gather_S200000x128_S1000000x1_S1000000x128_1_0_n_n_0_1_1128 xu (val_main_v49 (F := Ideal) src)))
    (val_main_v61 (F := Ideal) dst)

/-- Each user's mean over its incoming edges of the sellers' layer-1 rows (layer 2). -/
def meanC (s1 : M 50000 128) (src dst : Ix 1000000) : M 200000 128 :=
  Host.divf (F := Ideal) (φ := .f32)
    (Host.scatterAdd (F := Ideal) (φ := .f32) scatter_S200000x128_S1000000x1_S1000000x128_1_0_0_1 (val_main_v78 (F := Ideal)) (val_main_v79 (F := Ideal) dst)
      (Host.gather gather_S50000x128_S1000000x1_S1000000x128_1_0_n_n_0_1_1128 s1 (val_main_v76 (F := Ideal) src)))
    (val_main_v88 (F := Ideal) dst)

/-- Each seller's mean over its incoming edges of the users' layer-1 rows (layer 2). -/
def meanD (u1 : M 200000 128) (src dst : Ix 1000000) : M 50000 128 :=
  Host.divf (F := Ideal) (φ := .f32)
    (Host.scatterAdd (F := Ideal) (φ := .f32) scatter_S50000x128_S1000000x1_S1000000x128_1_0_0_1 (val_main_v103 (F := Ideal)) (val_main_v104 (F := Ideal) dst)
      (Host.gather gather_S200000x128_S1000000x1_S1000000x128_1_0_n_n_0_1_1128 u1 (val_main_v101 (F := Ideal) src)))
    (val_main_v113 (F := Ideal) dst)

/-- Layer 2's user row and seller row of each sampled pair, side by side (128 + 128 columns). -/
def pair (u2 : M 200000 128) (mu : Ix 100000) (s2 : M 50000 128) (ms : Ix 100000) : M 100000 256 :=
  concatenate S100000x256 1
    [⟨S100000x128, Host.gather gather_S200000x128_S100000x1_S100000x128_1_0_n_n_0_1_1128 u2 (val_main_v128 (F := Ideal) mu)⟩,
     ⟨S100000x128, Host.gather gather_S50000x128_S100000x1_S100000x128_1_0_n_n_0_1_1128 s2 (val_main_v135 (F := Ideal) ms)⟩]
    concatenates_S100000x128_S100000x128_S100000x256_d1

/-- The one-column result as a vector. -/
def flat (y : M 100000 1) : Vc 100000 :=
  shapeCast _ y shapeCasts_S100000x1_S100000

end Cert.ReferenceIdeal.Chains

end
-- ==== Proof.KHost.lean ====
/-
  What each stretch of host operations between the regions computes, from ANY contents `W` of the buffers.

  Stretches 1–4 are the four neighbourhood means (a gather along the edges, a scatter-add into zeros, a count, a
  division); stretch 5 reads layer 2's rows at the sampled pairs and joins them; stretch 6 drops the unit column. They
  are the same operations the reference runs, so each result is the shared function (`Chains`) of the buffers the
  stretch reads.

  Each proof has the same three steps. The stretch's list of operations is spelled out and its fold is read off at
  the result buffer: every operation's result at its own buffer is its function applied to the contents of the
  buffers it reads, and at any other buffer what was there before. What is left is the stretch's operations nested
  as one term over `W` at the buffers the stretch reads from outside. On the other side the shared function is
  opened stage by stage down to the same primitive operations (the gather, the scatter-add and the division
  themselves stay closed). The two terms then differ only in which program's copy of a shape, of a dimension record
  or of a side-condition witness they name: the copies have the same fields and the witnesses are proofs of
  propositions, so the two sides agree by definition.
-/
import proofs.«401422_j10771777979113_2_alg».proof.Proof.Gen.KernelIdeal.Frame
import proofs.«401422_j10771777979113_2_alg».proof.Proof.Chains
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem

variable (W : Valuation τ sig (Elt Ideal))

/-- Stretch 1: the users' mean of the sellers' features. -/
theorem host1_mean : StableHlo.after (hostOps1 (F := Ideal)) W (Proc.devRef .tc main_v19)
    = Cert.ReferenceIdeal.Chains.meanA (W (Proc.devRef .tc main_arg1)) (W (Proc.devRef .tc main_arg21)) (W (Proc.devRef .tc main_arg22)) := by
  dsimp only [hostOps1]
  after_results_simp
  -- the reference's stages: the division (37), the broadcast count (36 … 29), the scatter-add of the gathered
  -- rows (28 … 25), the source index's preparation (24 … 19), and the constants they start from
  unfold Cert.ReferenceIdeal.Chains.meanA
    Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32
    Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26
    Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20
    Cert.ReferenceIdeal.Read.val_main_v19 Cert.ReferenceIdeal.Read.val_main_c_3 Cert.ReferenceIdeal.Read.val_main_c_4 Cert.ReferenceIdeal.Read.val_main_cst Cert.ReferenceIdeal.Read.val_main_cst_5 Cert.ReferenceIdeal.Read.val_main_cst_6
    Cert.ReferenceIdeal.Read.val_main_cst_7
  rfl

/-- Stretch 2: the sellers' mean of the users' input rows. -/
theorem host2_mean : StableHlo.after (hostOps2 (F := Ideal)) W (Proc.devRef .tc main_v39)
    = Cert.ReferenceIdeal.Chains.meanB (W (Proc.devRef .tc main_v0)) (W (Proc.devRef .tc main_arg19)) (W (Proc.devRef .tc main_arg20)) := by
  dsimp only [hostOps2]
  after_results_simp
  -- the reference's stages: the zeros (51), the destination column (52), the source index's preparation (49 … 44),
  -- the broadcast count (61 … 54), and the constants they start from
  unfold Cert.ReferenceIdeal.Chains.meanB
    Cert.ReferenceIdeal.Read.val_main_v51 Cert.ReferenceIdeal.Read.val_main_v52 Cert.ReferenceIdeal.Read.val_main_v49 Cert.ReferenceIdeal.Read.val_main_v48 Cert.ReferenceIdeal.Read.val_main_v47 Cert.ReferenceIdeal.Read.val_main_v46
    Cert.ReferenceIdeal.Read.val_main_v45 Cert.ReferenceIdeal.Read.val_main_v44 Cert.ReferenceIdeal.Read.val_main_v61 Cert.ReferenceIdeal.Read.val_main_v60 Cert.ReferenceIdeal.Read.val_main_v59 Cert.ReferenceIdeal.Read.val_main_v58
    Cert.ReferenceIdeal.Read.val_main_v57 Cert.ReferenceIdeal.Read.val_main_v56 Cert.ReferenceIdeal.Read.val_main_v55 Cert.ReferenceIdeal.Read.val_main_v54 Cert.ReferenceIdeal.Read.val_main_c_8 Cert.ReferenceIdeal.Read.val_main_c_9
    Cert.ReferenceIdeal.Read.val_main_cst_10 Cert.ReferenceIdeal.Read.val_main_cst_11 Cert.ReferenceIdeal.Read.val_main_cst_12 Cert.ReferenceIdeal.Read.val_main_cst_13
  rfl

/-- Stretch 3: the users' mean of the sellers' layer-1 rows. -/
theorem host3_mean : StableHlo.after (hostOps3 (F := Ideal)) W (Proc.devRef .tc main_v59)
    = Cert.ReferenceIdeal.Chains.meanC (W (Proc.devRef .tc main_v40)) (W (Proc.devRef .tc main_arg21)) (W (Proc.devRef .tc main_arg22)) := by
  dsimp only [hostOps3]
  after_results_simp
  -- the reference's stages: the zeros (78), the destination column (79), the source index's preparation (76 … 71),
  -- the broadcast count (88 … 81), and the constants they start from
  unfold Cert.ReferenceIdeal.Chains.meanC
    Cert.ReferenceIdeal.Read.val_main_v78 Cert.ReferenceIdeal.Read.val_main_v79 Cert.ReferenceIdeal.Read.val_main_v76 Cert.ReferenceIdeal.Read.val_main_v75 Cert.ReferenceIdeal.Read.val_main_v74 Cert.ReferenceIdeal.Read.val_main_v73
    Cert.ReferenceIdeal.Read.val_main_v72 Cert.ReferenceIdeal.Read.val_main_v71 Cert.ReferenceIdeal.Read.val_main_v88 Cert.ReferenceIdeal.Read.val_main_v87 Cert.ReferenceIdeal.Read.val_main_v86 Cert.ReferenceIdeal.Read.val_main_v85
    Cert.ReferenceIdeal.Read.val_main_v84 Cert.ReferenceIdeal.Read.val_main_v83 Cert.ReferenceIdeal.Read.val_main_v82 Cert.ReferenceIdeal.Read.val_main_v81 Cert.ReferenceIdeal.Read.val_main_c_14 Cert.ReferenceIdeal.Read.val_main_c_15
    Cert.ReferenceIdeal.Read.val_main_cst_16 Cert.ReferenceIdeal.Read.val_main_cst_17 Cert.ReferenceIdeal.Read.val_main_cst_18 Cert.ReferenceIdeal.Read.val_main_cst_19
  rfl

/-- Stretch 4: the sellers' mean of the users' layer-1 rows. -/
theorem host4_mean : StableHlo.after (hostOps4 (F := Ideal)) W (Proc.devRef .tc main_v79)
    = Cert.ReferenceIdeal.Chains.meanD (W (Proc.devRef .tc main_v20)) (W (Proc.devRef .tc main_arg19)) (W (Proc.devRef .tc main_arg20)) := by
  dsimp only [hostOps4]
  after_results_simp
  -- the reference's stages: the zeros (103), the destination column (104), the source index's preparation
  -- (101 … 96), the broadcast count (113 … 106), and the constants they start from
  unfold Cert.ReferenceIdeal.Chains.meanD
    Cert.ReferenceIdeal.Read.val_main_v103 Cert.ReferenceIdeal.Read.val_main_v104 Cert.ReferenceIdeal.Read.val_main_v101 Cert.ReferenceIdeal.Read.val_main_v100 Cert.ReferenceIdeal.Read.val_main_v99 Cert.ReferenceIdeal.Read.val_main_v98
    Cert.ReferenceIdeal.Read.val_main_v97 Cert.ReferenceIdeal.Read.val_main_v96 Cert.ReferenceIdeal.Read.val_main_v113 Cert.ReferenceIdeal.Read.val_main_v112 Cert.ReferenceIdeal.Read.val_main_v111 Cert.ReferenceIdeal.Read.val_main_v110
    Cert.ReferenceIdeal.Read.val_main_v109 Cert.ReferenceIdeal.Read.val_main_v108 Cert.ReferenceIdeal.Read.val_main_v107 Cert.ReferenceIdeal.Read.val_main_v106 Cert.ReferenceIdeal.Read.val_main_c_20 Cert.ReferenceIdeal.Read.val_main_c_21
    Cert.ReferenceIdeal.Read.val_main_cst_22 Cert.ReferenceIdeal.Read.val_main_cst_23 Cert.ReferenceIdeal.Read.val_main_cst_24 Cert.ReferenceIdeal.Read.val_main_cst_25
  rfl

/-- Stretch 5: layer 2's rows of the sampled pairs, side by side. -/
theorem host5_pair : StableHlo.after (hostOps5 (F := Ideal)) W (Proc.devRef .tc main_v95)
    = Cert.ReferenceIdeal.Chains.pair (W (Proc.devRef .tc main_v60)) (W (Proc.devRef .tc main_arg23)) (W (Proc.devRef .tc main_v80)) (W (Proc.devRef .tc main_arg24)) := by
  dsimp only [hostOps5]
  after_results_simp
  -- the reference's stages: the user index's preparation (128 … 123) and the seller index's (135 … 130)
  unfold Cert.ReferenceIdeal.Chains.pair
    Cert.ReferenceIdeal.Read.val_main_v128 Cert.ReferenceIdeal.Read.val_main_v127 Cert.ReferenceIdeal.Read.val_main_v126 Cert.ReferenceIdeal.Read.val_main_v125 Cert.ReferenceIdeal.Read.val_main_v124 Cert.ReferenceIdeal.Read.val_main_v123
    Cert.ReferenceIdeal.Read.val_main_v135 Cert.ReferenceIdeal.Read.val_main_v134 Cert.ReferenceIdeal.Read.val_main_v133 Cert.ReferenceIdeal.Read.val_main_v132 Cert.ReferenceIdeal.Read.val_main_v131 Cert.ReferenceIdeal.Read.val_main_v130
    Cert.ReferenceIdeal.Read.val_main_c_26 Cert.ReferenceIdeal.Read.val_main_c_27 Cert.ReferenceIdeal.Read.val_main_c_28 Cert.ReferenceIdeal.Read.val_main_c_29
  rfl

/-- Stretch 6: the one-column result as a vector. -/
theorem host6_flat : StableHlo.after (hostOps6 (F := Ideal)) W (Proc.devRef .tc main_v97)
    = Cert.ReferenceIdeal.Chains.flat (W (Proc.devRef .tc main_v96)) := by
  dsimp only [hostOps6]
  after_results_simp
  unfold Cert.ReferenceIdeal.Chains.flat
  rfl

end Cert.KernelIdeal.HostReads

end
-- ==== Proof.KWalk.lean ====
/-
  The kernel program's result as one function of the argument arrays.

  @main is twelve segments: a region, a stretch of host operations, a region, … The buffer contents at the boundary
  after each segment are a fold from the launch memory. Walking that fold: region 0 leaves the user input rows
  (`Spec.embed`); stretch 1 the users' mean of the sellers' features and region 1 layer 1's user rows (`Spec.sage`);
  stretch 2 and region 2 layer 1's seller rows; stretches 3, 4 and regions 3, 4 layer 2's; stretch 5 joins the sampled
  pairs' rows, region 5 applies the logistic unit (`Spec.final`), stretch 6 flattens. Between the segment that writes
  an array and the segment that reads it nothing writes it: a stretch that does not name it keeps it, a region that
  does not have it among its windows keeps it, and a region that reads it through an input window leaves it as found.
  The argument arrays are the launch contents at every boundary where they are read. The result is `Compose.result`.
-/
import proofs.«401422_j10771777979113_2_alg».proof.Proof.Gen.KernelIdeal.Frame
import proofs.«401422_j10771777979113_2_alg».proof.Proof.Region0
import proofs.«401422_j10771777979113_2_alg».proof.Proof.Region1
import proofs.«401422_j10771777979113_2_alg».proof.Proof.Region2
import proofs.«401422_j10771777979113_2_alg».proof.Proof.Region3
import proofs.«401422_j10771777979113_2_alg».proof.Proof.Region4
import proofs.«401422_j10771777979113_2_alg».proof.Proof.Region5
import proofs.«401422_j10771777979113_2_alg».proof.Proof.KArgs
import proofs.«401422_j10771777979113_2_alg».proof.Proof.KHost
import proofs.«401422_j10771777979113_2_alg».proof.Proof.Chains
import proofs.«401422_j10771777979113_2_alg».proof.Proof.Compose

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Chains (meanA meanB meanC meanD pair flat)
open Cert.KernelIdeal.ArgsKept Cert.KernelIdeal.HostReads

/-- A buffer that no operation of a host stretch writes keeps its contents across the stretch. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)
variable (a : Fin 200000 → Fin 9) (g : Fin 200000 → Fin 3)

/-- The user input rows. -/
abbrev xu : Compose.M 200000 128 := Spec.embed a g (m ((c : Thread nD τ).loc main_arg2)) (m ((c : Thread nD τ).loc main_arg3)) (m ((c : Thread nD τ).loc main_arg0))
/-- Layer 1's user rows. -/
abbrev u1 : Compose.M 200000 128 :=
  Spec.sage (n := 200000) (k1 := 64) (k2 := 128) (h := 128) (meanA (m ((c : Thread nD τ).loc main_arg1)) (m ((c : Thread nD τ).loc main_arg21)) (m ((c : Thread nD τ).loc main_arg22))) (xu m c a g) (m ((c : Thread nD τ).loc main_arg4)) (m ((c : Thread nD τ).loc main_arg5)) (m ((c : Thread nD τ).loc main_arg6))
/-- Layer 1's seller rows. -/
abbrev s1 : Compose.M 50000 128 :=
  Spec.sage (n := 50000) (k1 := 128) (k2 := 64) (h := 128) (meanB (xu m c a g) (m ((c : Thread nD τ).loc main_arg19)) (m ((c : Thread nD τ).loc main_arg20))) (m ((c : Thread nD τ).loc main_arg1)) (m ((c : Thread nD τ).loc main_arg7)) (m ((c : Thread nD τ).loc main_arg8)) (m ((c : Thread nD τ).loc main_arg9))
/-- Layer 2's user rows. -/
abbrev u2 : Compose.M 200000 128 :=
  Spec.sage (n := 200000) (k1 := 128) (k2 := 128) (h := 128) (meanC (s1 m c a g) (m ((c : Thread nD τ).loc main_arg21)) (m ((c : Thread nD τ).loc main_arg22))) (u1 m c a g) (m ((c : Thread nD τ).loc main_arg10)) (m ((c : Thread nD τ).loc main_arg11)) (m ((c : Thread nD τ).loc main_arg12))
/-- Layer 2's seller rows. -/
abbrev s2 : Compose.M 50000 128 :=
  Spec.sage (n := 50000) (k1 := 128) (k2 := 128) (h := 128) (meanD (u1 m c a g) (m ((c : Thread nD τ).loc main_arg19)) (m ((c : Thread nD τ).loc main_arg20))) (s1 m c a g) (m ((c : Thread nD τ).loc main_arg13)) (m ((c : Thread nD τ).loc main_arg14)) (m ((c : Thread nD τ).loc main_arg15))

section
variable (ha : ∀ i : Fin 200000, (m ((c : Thread nD τ).loc main_arg18) : (⟨2, ![200000, 2]⟩ : Shape).Idx → BitVec 32) (ix2 i (0 : Fin 2)) = BitVec.ofNat 32 (a i).val)
variable (hg : ∀ i : Fin 200000, (m ((c : Thread nD τ).loc main_arg18) : (⟨2, ![200000, 2]⟩ : Shape).Idx → BitVec 32) (ix2 i (1 : Fin 2)) = BitVec.ofNat 32 (g i).val)
include ha hg

/-! ## Region 0 and stretch 1 -/

theorem W1_v0 : W1 m ρ c (Proc.devRef .tc main_v0) = xu m c a g :=
  (W1_arr m ρ c 4).trans (Region0.arr_eq (V0 m ρ) c a g ha hg)

theorem W2_v0 : W2 m ρ c (Proc.devRef .tc main_v0) = xu m c a g :=
  (show W2 m ρ c (Proc.devRef .tc main_v0) = W1 m ρ c (Proc.devRef .tc main_v0) by host_keeps hostOps1).trans (W1_v0 m ρ c a g ha hg)

omit ha hg in
theorem W2_v19 : W2 m ρ c (Proc.devRef .tc main_v19) = meanA (m ((c : Thread nD τ).loc main_arg1)) (m ((c : Thread nD τ).loc main_arg21)) (m ((c : Thread nD τ).loc main_arg22)) := by
  refine (host1_mean (W1 m ρ c)).trans ?_
  rw [W1_main_arg1 m ρ c, W1_main_arg21 m ρ c, W1_main_arg22 m ρ c]

/-! ## Region 1 and stretch 2 -/

theorem W3_v20 : W3 m ρ c (Proc.devRef .tc main_v20) = u1 m c a g := by
  have e0 : V2 m ρ c main_v19 = meanA (m ((c : Thread nD τ).loc main_arg1)) (m ((c : Thread nD τ).loc main_arg21)) (m ((c : Thread nD τ).loc main_arg22)) := W2_v19 m ρ c
  have e1 : V2 m ρ c main_v0 = xu m c a g := W2_v0 m ρ c a g ha hg
  have e2 : V2 m ρ c main_arg4 = (m ((c : Thread nD τ).loc main_arg4)) := W2_main_arg4 m ρ c
  have e3 : V2 m ρ c main_arg5 = (m ((c : Thread nD τ).loc main_arg5)) := W2_main_arg5 m ρ c
  have e4 : V2 m ρ c main_arg6 = (m ((c : Thread nD τ).loc main_arg6)) := W2_main_arg6 m ρ c
  refine (W3_arr m ρ c 5).trans ((Region1.arr_eq (V2 m ρ) c).trans ?_)
  rw [e0, e1, e2, e3, e4]

theorem W3_v0 : W3 m ρ c (Proc.devRef .tc main_v0) = xu m c a g :=
  (W3_arr m ρ c 1).trans (((dat1 (V2 m ρ) c).arrAt_in 1 rfl _).trans ((A_eq1 (V2 m ρ) c 1).trans (W2_v0 m ρ c a g ha hg)))

theorem W4_v39 : W4 m ρ c (Proc.devRef .tc main_v39) = meanB (xu m c a g) (m ((c : Thread nD τ).loc main_arg19)) (m ((c : Thread nD τ).loc main_arg20)) := by
  refine (host2_mean (W3 m ρ c)).trans ?_
  rw [W3_v0 m ρ c a g ha hg, W3_main_arg19 m ρ c, W3_main_arg20 m ρ c]

theorem W4_v20 : W4 m ρ c (Proc.devRef .tc main_v20) = u1 m c a g :=
  (show W4 m ρ c (Proc.devRef .tc main_v20) = W3 m ρ c (Proc.devRef .tc main_v20) by host_keeps hostOps2).trans (W3_v20 m ρ c a g ha hg)

/-! ## Region 2 and stretch 3 -/

theorem W5_v40 : W5 m ρ c (Proc.devRef .tc main_v40) = s1 m c a g := by
  have e0 : V4 m ρ c main_v39 = meanB (xu m c a g) (m ((c : Thread nD τ).loc main_arg19)) (m ((c : Thread nD τ).loc main_arg20)) := W4_v39 m ρ c a g ha hg
  have e1 : V4 m ρ c main_arg1 = (m ((c : Thread nD τ).loc main_arg1)) := W4_main_arg1 m ρ c
  have e2 : V4 m ρ c main_arg7 = (m ((c : Thread nD τ).loc main_arg7)) := W4_main_arg7 m ρ c
  have e3 : V4 m ρ c main_arg8 = (m ((c : Thread nD τ).loc main_arg8)) := W4_main_arg8 m ρ c
  have e4 : V4 m ρ c main_arg9 = (m ((c : Thread nD τ).loc main_arg9)) := W4_main_arg9 m ρ c
  refine (W5_arr m ρ c 5).trans ((Region2.arr_eq (V4 m ρ) c).trans ?_)
  rw [e0, e1, e2, e3, e4]

theorem W5_v20 : W5 m ρ c (Proc.devRef .tc main_v20) = u1 m c a g :=
  (W5_of_ne m ρ c main_v20 (by decide)).trans (W4_v20 m ρ c a g ha hg)

theorem W6_v59 : W6 m ρ c (Proc.devRef .tc main_v59) = meanC (s1 m c a g) (m ((c : Thread nD τ).loc main_arg21)) (m ((c : Thread nD τ).loc main_arg22)) := by
  refine (host3_mean (W5 m ρ c)).trans ?_
  rw [W5_v40 m ρ c a g ha hg, W5_main_arg21 m ρ c, W5_main_arg22 m ρ c]

theorem W6_v20 : W6 m ρ c (Proc.devRef .tc main_v20) = u1 m c a g :=
  (show W6 m ρ c (Proc.devRef .tc main_v20) = W5 m ρ c (Proc.devRef .tc main_v20) by host_keeps hostOps3).trans (W5_v20 m ρ c a g ha hg)

theorem W6_v40 : W6 m ρ c (Proc.devRef .tc main_v40) = s1 m c a g :=
  (show W6 m ρ c (Proc.devRef .tc main_v40) = W5 m ρ c (Proc.devRef .tc main_v40) by host_keeps hostOps3).trans (W5_v40 m ρ c a g ha hg)

/-! ## Region 3 and stretch 4 -/

theorem W7_v60 : W7 m ρ c (Proc.devRef .tc main_v60) = u2 m c a g := by
  have e0 : V6 m ρ c main_v59 = meanC (s1 m c a g) (m ((c : Thread nD τ).loc main_arg21)) (m ((c : Thread nD τ).loc main_arg22)) := W6_v59 m ρ c a g ha hg
  have e1 : V6 m ρ c main_v20 = u1 m c a g := W6_v20 m ρ c a g ha hg
  have e2 : V6 m ρ c main_arg10 = (m ((c : Thread nD τ).loc main_arg10)) := W6_main_arg10 m ρ c
  have e3 : V6 m ρ c main_arg11 = (m ((c : Thread nD τ).loc main_arg11)) := W6_main_arg11 m ρ c
  have e4 : V6 m ρ c main_arg12 = (m ((c : Thread nD τ).loc main_arg12)) := W6_main_arg12 m ρ c
  refine (W7_arr m ρ c 5).trans ((Region3.arr_eq (V6 m ρ) c).trans ?_)
  rw [e0, e1, e2, e3, e4]

theorem W7_v20 : W7 m ρ c (Proc.devRef .tc main_v20) = u1 m c a g :=
  (W7_arr m ρ c 1).trans (((dat3 (V6 m ρ) c).arrAt_in 1 rfl _).trans ((A_eq3 (V6 m ρ) c 1).trans (W6_v20 m ρ c a g ha hg)))

theorem W7_v40 : W7 m ρ c (Proc.devRef .tc main_v40) = s1 m c a g :=
  (W7_of_ne m ρ c main_v40 (by decide)).trans (W6_v40 m ρ c a g ha hg)

theorem W8_v79 : W8 m ρ c (Proc.devRef .tc main_v79) = meanD (u1 m c a g) (m ((c : Thread nD τ).loc main_arg19)) (m ((c : Thread nD τ).loc main_arg20)) := by
  refine (host4_mean (W7 m ρ c)).trans ?_
  rw [W7_v20 m ρ c a g ha hg, W7_main_arg19 m ρ c, W7_main_arg20 m ρ c]

theorem W8_v40 : W8 m ρ c (Proc.devRef .tc main_v40) = s1 m c a g :=
  (show W8 m ρ c (Proc.devRef .tc main_v40) = W7 m ρ c (Proc.devRef .tc main_v40) by host_keeps hostOps4).trans (W7_v40 m ρ c a g ha hg)

theorem W8_v60 : W8 m ρ c (Proc.devRef .tc main_v60) = u2 m c a g :=
  (show W8 m ρ c (Proc.devRef .tc main_v60) = W7 m ρ c (Proc.devRef .tc main_v60) by host_keeps hostOps4).trans (W7_v60 m ρ c a g ha hg)

/-! ## Region 4 and stretch 5 -/

theorem W9_v80 : W9 m ρ c (Proc.devRef .tc main_v80) = s2 m c a g := by
  have e0 : V8 m ρ c main_v79 = meanD (u1 m c a g) (m ((c : Thread nD τ).loc main_arg19)) (m ((c : Thread nD τ).loc main_arg20)) := W8_v79 m ρ c a g ha hg
  have e1 : V8 m ρ c main_v40 = s1 m c a g := W8_v40 m ρ c a g ha hg
  have e2 : V8 m ρ c main_arg13 = (m ((c : Thread nD τ).loc main_arg13)) := W8_main_arg13 m ρ c
  have e3 : V8 m ρ c main_arg14 = (m ((c : Thread nD τ).loc main_arg14)) := W8_main_arg14 m ρ c
  have e4 : V8 m ρ c main_arg15 = (m ((c : Thread nD τ).loc main_arg15)) := W8_main_arg15 m ρ c
  refine (W9_arr m ρ c 5).trans ((Region4.arr_eq (V8 m ρ) c).trans ?_)
  rw [e0, e1, e2, e3, e4]

theorem W9_v60 : W9 m ρ c (Proc.devRef .tc main_v60) = u2 m c a g :=
  (W9_of_ne m ρ c main_v60 (by decide)).trans (W8_v60 m ρ c a g ha hg)

theorem W10_v95 : W10 m ρ c (Proc.devRef .tc main_v95) = pair (u2 m c a g) (m ((c : Thread nD τ).loc main_arg23)) (s2 m c a g) (m ((c : Thread nD τ).loc main_arg24)) := by
  refine (host5_pair (W9 m ρ c)).trans ?_
  rw [W9_v60 m ρ c a g ha hg, W9_main_arg23 m ρ c, W9_v80 m ρ c a g ha hg, W9_main_arg24 m ρ c]

/-! ## Region 5 and stretch 6 -/

theorem W11_v96 : W11 m ρ c (Proc.devRef .tc main_v96)
    = Spec.final (pair (u2 m c a g) (m ((c : Thread nD τ).loc main_arg23)) (s2 m c a g) (m ((c : Thread nD τ).loc main_arg24))) (m ((c : Thread nD τ).loc main_arg16)) (m ((c : Thread nD τ).loc main_arg17)) := by
  have e0 : V10 m ρ c main_v95 = pair (u2 m c a g) (m ((c : Thread nD τ).loc main_arg23)) (s2 m c a g) (m ((c : Thread nD τ).loc main_arg24)) := W10_v95 m ρ c a g ha hg
  have e1 : V10 m ρ c main_arg16 = (m ((c : Thread nD τ).loc main_arg16)) := W10_main_arg16 m ρ c
  have e2 : V10 m ρ c main_arg17 = (m ((c : Thread nD τ).loc main_arg17)) := W10_main_arg17 m ρ c
  refine (W11_arr m ρ c 3).trans ((Region5.arr_eq (V10 m ρ) c).trans ?_)
  rw [e0, e1, e2]

/-- THE RESULT BUFFER at the last boundary is the network's result as one function of the argument arrays. -/
theorem result_eq : W12 m ρ c (Proc.devRef .tc main_v97)
    = Compose.result meanA meanB meanC meanD pair flat a g (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (host6_flat (W11 m ρ c)).trans ?_
  rw [W11_v96 m ρ c a g ha hg]
  rfl

end

end Cert.KernelIdeal.Walk

end
-- ==== Proof.RefStageU1.lean ====
/-
  The reference's layer-1 user update, entry by entry.

  The reference computes it as two matrix products on the host (the neighbourhood mean with the left weights, the
  nodes' own rows with the right weights), their sum, the bias broadcast along the rows added to it, and the maximum
  with zero. At entry `(i, q)` each product is a sum over its inner width, so the whole is `Spec.sage` of the mean, the
  own rows, the two weight matrices and the bias — with the two products added first and the bias after, as written.
-/
import proofs.«401422_j10771777979113_2_alg».proof.Proof.Gen.ReferenceIdeal.Read
import proofs.«401422_j10771777979113_2_alg».proof.Proof.Chains
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- Layer 1's user rows are `Spec.sage` of the sellers' mean, the user input rows, and the layer's user weights. -/
theorem stage_u1 (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x18 : (⟨S200000x2, .i32⟩ : BufTy).Contents (Elt Ideal)) (x21 : (⟨S1000000, .i32⟩ : BufTy).Contents (Elt Ideal)) (x22 : (⟨S1000000, .i32⟩ : BufTy).Contents (Elt Ideal)) :
    val_main_v69 (F := Ideal) x0 x1 x2 x3 x4 x5 x6 x18 x21 x22
      = Spec.sage (n := 200000) (k1 := 64) (k2 := 128) (h := 128) (Chains.meanA x1 x21 x22) (val_main_v18 (F := Ideal) x0 x2 x3 x18) x4 x5 x6 := by
  funext j
  obtain ⟨i, q, rfl⟩ : ∃ (i : Fin 200000) (q : Fin 128), j = ix2 i q := ⟨j 0, j 1, eq_ix2 j⟩
  rw [Spec.sage_apply]
  unfold Chains.meanA
  -- the stage at `(i, q)`, operation by operation: maximum, the two additions, the two broadcasts of the bias, the zero
  rw [val_main_v69_apply, val_main_v43_apply, val_main_v40_apply, val_main_v42_apply, val_main_v41_apply,
    val_main_call0_v0_apply, val_main_call0_cst_apply]
  -- each product at `(i, q)` is the sum over its inner width
  have p1 : val_main_v38 (F := Ideal) x1 x4 x21 x22 (ix2 i q)
      = ∑ k : Fin 64, val_main_v37 (F := Ideal) x1 x21 x22 (ix2 i k) * x4 (ix2 k q) := by
    unfold val_main_v38
    exact Cert.Lib.PlainMatmul.dotGeneral_apply dot_S200000x64_S64x128_S200000x128_1_0_0_1_n_n rfl rfl rfl rfl rfl rfl
      none _ (val_main_v37 (F := Ideal) x1 x21 x22) x4 i q
  have p2 : val_main_v39 (F := Ideal) x0 x2 x3 x5 x18 (ix2 i q)
      = ∑ k : Fin 128, val_main_v18 (F := Ideal) x0 x2 x3 x18 (ix2 i k) * x5 (ix2 k q) := by
    unfold val_main_v39
    exact Cert.Lib.PlainMatmul.dotGeneral_apply dot_S200000x128_S128x128_S200000x128_1_0_0_1_n_n rfl rfl rfl rfl rfl rfl
      none _ (val_main_v18 (F := Ideal) x0 x2 x3 x18) x5 i q
  -- the bias, broadcast to one row and then along the rows, is read at its column
  have hb : x6 (idx_main_v41 (idx_main_v42 (ix2 i q))) = x6 (ix1 q) :=
    congrArg x6 (funext fun a => by match a with | ⟨0, _⟩ => rfl)
  show max ((_ + _) + _) (Ideal.ofBits .f32 0x00000000#32) = _
  rw [p1, p2, hb, Ideal.ofBits_zero_f32]

end Cert.ReferenceIdeal.RefValue

end
-- ==== Proof.RefStageS1.lean ====
/-
  The reference's layer-1 seller update, entry by entry.

  The reference computes it as two matrix products on the host (the neighbourhood mean with the left weights, the
  nodes' own rows with the right weights), their sum, the bias broadcast along the rows added to it, and the maximum
  with zero. At entry `(i, q)` each product is a sum over its inner width, so the whole is `Spec.sage` of the mean, the
  own rows, the two weight matrices and the bias — with the two products added first and the bias after, as written.
-/
import proofs.«401422_j10771777979113_2_alg».proof.Proof.Gen.ReferenceIdeal.Read
import proofs.«401422_j10771777979113_2_alg».proof.Proof.Chains
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The mean the reference's seller update multiplies by the left weights is the neighbourhood mean of the users' input
    rows: the same gather along the edges, the same sum per destination, the same division by the clamped count. -/
theorem mean_eq_s1 (x0 : (⟨S200000x64, .f32⟩ : BufTy).Contents (Elt Ideal)) (x2 : (⟨S9x32, .f32⟩ : BufTy).Contents (Elt Ideal)) (x3 : (⟨S3x32, .f32⟩ : BufTy).Contents (Elt Ideal)) (x18 : (⟨S200000x2, .i32⟩ : BufTy).Contents (Elt Ideal)) (x19 x20 : (⟨S1000000, .i32⟩ : BufTy).Contents (Elt Ideal)) :
    val_main_v62 (F := Ideal) x0 x2 x3 x18 x19 x20 = Chains.meanB (val_main_v18 (F := Ideal) x0 x2 x3 x18) x19 x20 := by
  unfold val_main_v62 val_main_v53 val_main_v50 Chains.meanB
  rfl

/-- The bias, made a row and repeated along the rows, reads at `(i, q)` its entry `q`. -/
theorem bias_rows_apply_s1 (x9 : (⟨S128, .f32⟩ : BufTy).Contents (Elt Ideal)) (i : Fin 50000) (q : Fin 128) :
    val_main_v67 (F := Ideal) x9 (ix2 i q) = x9 (ix1 q) := by
  rw [val_main_v67_apply, val_main_v66_apply]
  refine congrArg x9 (funext fun a => ?_)
  match a with
  | ⟨0, _⟩ => rfl

/-- The zero the maximum is taken against reads `0` everywhere. -/
theorem zero_apply_s1 (j : S50000x128.Idx) : val_main_call1_v0 (F := Ideal) j = (0 : EReal) := by
  rw [val_main_call1_v0_apply]
  exact Ideal.ofBits_zero_f32

/-- Layer 1's seller rows are `Spec.sage` of the users' mean, the sellers' features, and the layer's seller weights. -/
theorem stage_s1 (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x18 : (⟨S200000x2, .i32⟩ : BufTy).Contents (Elt Ideal)) (x19 : (⟨S1000000, .i32⟩ : BufTy).Contents (Elt Ideal)) (x20 : (⟨S1000000, .i32⟩ : BufTy).Contents (Elt Ideal)) :
    val_main_v70 (F := Ideal) x0 x1 x2 x3 x7 x8 x9 x18 x19 x20
      = Spec.sage (n := 50000) (k1 := 128) (k2 := 64) (h := 128) (Chains.meanB (val_main_v18 (F := Ideal) x0 x2 x3 x18) x19 x20) x1 x7 x8 x9 := by
  rw [← mean_eq_s1 x0 x2 x3 x18 x19 x20]
  funext j
  obtain ⟨i, q, rfl⟩ : ∃ (i : Fin 50000) (q : Fin 128), j = ix2 i q := ⟨j 0, j 1, eq_ix2 j⟩
  rw [Spec.sage_apply]
  unfold val_main_v70 val_main_v68 val_main_v65 val_main_v63 val_main_v64
  generalize val_main_v62 (F := Ideal) x0 x2 x3 x18 x19 x20 = mean
  refine (maximumf_apply _ _ _).trans ?_
  refine congrArg₂ max ?_ (zero_apply_s1 (ix2 i q))
  refine (addf_apply _ _ _).trans ?_
  refine congrArg₂ (· + ·) ?_ (bias_rows_apply_s1 x9 i q)
  refine (addf_apply _ _ _).trans ?_
  refine congrArg₂ (· + ·) ?_ ?_
  · exact Cert.Lib.PlainMatmul.dotGeneral_apply dot_S50000x128_S128x128_S50000x128_1_0_0_1_n_n rfl rfl rfl rfl rfl rfl none .single
      mean x7 i q
  · exact Cert.Lib.PlainMatmul.dotGeneral_apply dot_S50000x64_S64x128_S50000x128_1_0_0_1_n_n rfl rfl rfl rfl rfl rfl none .single
      x1 x8 i q

end Cert.ReferenceIdeal.RefValue

end
-- ==== Proof.RefStageU2.lean ====
/-
  The reference's layer-2 user update, entry by entry.

  The reference computes it as two matrix products on the host (the neighbourhood mean with the left weights, the
  nodes' own rows with the right weights), their sum, the bias broadcast along the rows added to it, and the maximum
  with zero. At entry `(i, q)` each product is a sum over its inner width, so the whole is `Spec.sage` of the mean, the
  own rows, the two weight matrices and the bias — with the two products added first and the bias after, as written.
-/
import proofs.«401422_j10771777979113_2_alg».proof.Proof.Gen.ReferenceIdeal.Read
import proofs.«401422_j10771777979113_2_alg».proof.Proof.Chains
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The reference's layer-2 neighbourhood mean of the sellers' layer-1 rows is the mean function applied to them: the
    gather along the edges, the sum per destination, and the division by the destinations' edge counts. -/
theorem mean_eq_u2 (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x18 : (⟨S200000x2, .i32⟩ : BufTy).Contents (Elt Ideal)) (x19 x20 x21 x22 : (⟨S1000000, .i32⟩ : BufTy).Contents (Elt Ideal)) :
    val_main_v89 (F := Ideal) x0 x1 x2 x3 x7 x8 x9 x18 x19 x20 x21 x22
      = Chains.meanC (val_main_v70 (F := Ideal) x0 x1 x2 x3 x7 x8 x9 x18 x19 x20) x21 x22 := by
  unfold val_main_v89 val_main_v80 val_main_v77 Chains.meanC
  rfl

/-- Layer 2's user rows are `Spec.sage` of the mean of layer 1's seller rows, layer 1's user rows, and the layer's user weights. -/
theorem stage_u2 (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x18 : (⟨S200000x2, .i32⟩ : BufTy).Contents (Elt Ideal)) (x19 : (⟨S1000000, .i32⟩ : BufTy).Contents (Elt Ideal)) (x20 : (⟨S1000000, .i32⟩ : BufTy).Contents (Elt Ideal)) (x21 : (⟨S1000000, .i32⟩ : BufTy).Contents (Elt Ideal)) (x22 : (⟨S1000000, .i32⟩ : BufTy).Contents (Elt Ideal)) :
    val_main_v121 (F := Ideal) x0 x1 x2 x3 x4 x5 x6 x7 x8 x9 x10 x11 x12 x18 x19 x20 x21 x22
      = Spec.sage (n := 200000) (k1 := 128) (k2 := 128) (h := 128) (Chains.meanC (val_main_v70 (F := Ideal) x0 x1 x2 x3 x7 x8 x9 x18 x19 x20) x21 x22) (val_main_v69 (F := Ideal) x0 x1 x2 x3 x4 x5 x6 x18 x21 x22) x10 x11 x12 := by
  funext j
  obtain ⟨i, q, rfl⟩ : ∃ (i : Fin 200000) (q : Fin 128), j = ix2 i q := ⟨j 0, j 1, eq_ix2 j⟩
  rw [Spec.sage_apply, ← mean_eq_u2]
  rw [val_main_v121_apply, val_main_v95_apply, val_main_v92_apply, Ideal.maximumf_def, Ideal.addf_def, Ideal.addf_def]
  refine congrArg₂ max (congrArg₂ (· + ·) (congrArg₂ (· + ·) ?_ ?_) ?_) ?_
  · -- the mean's rows against the left weights
    unfold val_main_v90
    simp only [Host.dotGeneral]
    exact Cert.Lib.PlainMatmul.dotGeneral_apply dot_S200000x128_S128x128_S200000x128_1_0_0_1_n_n rfl rfl rfl rfl rfl rfl
      none _ _ _ i q
  · -- the nodes' own rows against the right weights
    unfold val_main_v91
    simp only [Host.dotGeneral]
    exact Cert.Lib.PlainMatmul.dotGeneral_apply dot_S200000x128_S128x128_S200000x128_1_0_0_1_n_n rfl rfl rfl rfl rfl rfl
      none _ _ _ i q
  · -- the bias, first made a one-row matrix and then repeated along the rows, read at column `q`
    refine (val_main_v94_apply x12 _).trans ((val_main_v93_apply x12 _).trans (congrArg x12 (funext fun a => ?_)))
    match a with
    | ⟨0, _⟩ => rfl
  · -- the zero the maximum is taken against
    exact (val_main_call2_v0_apply _).trans ((val_main_call2_cst_apply _).trans Ideal.ofBits_zero_f32)

end Cert.ReferenceIdeal.RefValue

end
-- ==== Proof.RefStageS2.lean ====
/-
  The reference's layer-2 seller update, entry by entry.

  The reference computes it as two matrix products on the host (the neighbourhood mean with the left weights, the
  nodes' own rows with the right weights), their sum, the bias broadcast along the rows added to it, and the maximum
  with zero. At entry `(i, q)` each product is a sum over its inner width, so the whole is `Spec.sage` of the mean, the
  own rows, the two weight matrices and the bias — with the two products added first and the bias after, as written.
-/
import proofs.«401422_j10771777979113_2_alg».proof.Proof.Gen.ReferenceIdeal.Read
import proofs.«401422_j10771777979113_2_alg».proof.Proof.Chains
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- THE MEAN, as the reference computes it — the users' layer-1 rows gathered along the edges, added up per seller into
    zeros, divided by the edge counts — is the neighbourhood mean `Chains.meanD` of those rows. -/
theorem mean_eq_s2 (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x18 : (⟨S200000x2, .i32⟩ : BufTy).Contents (Elt Ideal)) (x19 x20 x21 x22 : (⟨S1000000, .i32⟩ : BufTy).Contents (Elt Ideal)) :
    val_main_v114 (F := Ideal) x0 x1 x2 x3 x4 x5 x6 x18 x19 x20 x21 x22
      = Chains.meanD (val_main_v69 (F := Ideal) x0 x1 x2 x3 x4 x5 x6 x18 x21 x22) x19 x20 := by
  unfold val_main_v114 val_main_v105 val_main_v102 Chains.meanD
  rfl

/-- A product of a 50000×128 array with a 128×128 matrix on the host reads, at `(i, q)`, the sum over the inner width of
    row `i` against column `q`. -/
theorem product_apply_s2 (a : (⟨S50000x128, .f32⟩ : BufTy).Contents (Elt Ideal)) (w : (⟨S128x128, .f32⟩ : BufTy).Contents (Elt Ideal))
    (i : Fin 50000) (q : Fin 128) :
    Host.dotGeneral (F := Ideal) (φ₁ := .f32) (φ₂ := .f32) dot_S50000x128_S128x128_S50000x128_1_0_0_1_n_n none a w (ix2 i q)
      = ∑ k : Fin 128, a (ix2 i k) * w (ix2 k q) :=
  Cert.Lib.PlainMatmul.dotGeneral_apply dot_S50000x128_S128x128_S50000x128_1_0_0_1_n_n rfl rfl rfl rfl rfl rfl none .single a w i q

/-- The bias, given a leading unit axis and then repeated along the rows, reads at `(i, q)` its entry `q`. -/
theorem bias_rows_apply_s2 (b : (⟨S128, .f32⟩ : BufTy).Contents (Elt Ideal)) (i : Fin 50000) (q : Fin 128) :
    val_main_v119 (F := Ideal) b (ix2 i q) = b (ix1 q) := by
  rw [val_main_v119_apply, val_main_v118_apply]
  refine congrArg b (funext fun a => ?_)
  match a with
  | ⟨0, _⟩ => rfl

/-- The zero the maximum is taken against, at any entry. -/
theorem zero_apply_s2 (j : S50000x128.Idx) : val_main_call3_v0 (F := Ideal) j = 0 := by
  rw [val_main_call3_v0_apply, val_main_call3_cst_apply]
  exact Ideal.ofBits_zero_f32

/-- Layer 2's seller rows are `Spec.sage` of the mean of layer 1's user rows, layer 1's seller rows, and the layer's seller weights. -/
theorem stage_s2 (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128x128, .f32⟩ : BufTy).Contents (Elt Ideal)) (x15 : (⟨S128, .f32⟩ : BufTy).Contents (Elt Ideal)) (x18 : (⟨S200000x2, .i32⟩ : BufTy).Contents (Elt Ideal)) (x19 : (⟨S1000000, .i32⟩ : BufTy).Contents (Elt Ideal)) (x20 : (⟨S1000000, .i32⟩ : BufTy).Contents (Elt Ideal)) (x21 : (⟨S1000000, .i32⟩ : BufTy).Contents (Elt Ideal)) (x22 : (⟨S1000000, .i32⟩ : BufTy).Contents (Elt Ideal)) :
    val_main_v122 (F := Ideal) x0 x1 x2 x3 x4 x5 x6 x7 x8 x9 x13 x14 x15 x18 x19 x20 x21 x22
      = Spec.sage (n := 50000) (k1 := 128) (k2 := 128) (h := 128) (Chains.meanD (val_main_v69 (F := Ideal) x0 x1 x2 x3 x4 x5 x6 x18 x21 x22) x19 x20) (val_main_v70 (F := Ideal) x0 x1 x2 x3 x7 x8 x9 x18 x19 x20) x13 x14 x15 := by
  funext j
  obtain ⟨i, q, rfl⟩ : ∃ (i : Fin 50000) (q : Fin 128), j = ix2 i q := ⟨j 0, j 1, eq_ix2 j⟩
  rw [Spec.sage_apply, ← mean_eq_s2 x0 x1 x2 x3 x4 x5 x6 x18 x19 x20 x21 x22]
  unfold val_main_v122 val_main_v120 val_main_v117 val_main_v115 val_main_v116
  generalize val_main_v114 (F := Ideal) x0 x1 x2 x3 x4 x5 x6 x18 x19 x20 x21 x22 = mean
  generalize val_main_v70 (F := Ideal) x0 x1 x2 x3 x7 x8 x9 x18 x19 x20 = own
  rw [maximumf_apply, addf_apply, addf_apply, product_apply_s2, product_apply_s2, bias_rows_apply_s2, zero_apply_s2]

end Cert.ReferenceIdeal.RefValue

end
-- ==== Proof.RefStageOut.lean ====
/-
  The reference's result, entry by entry.

  The reference joins layer 2's user and seller rows of the sampled pairs, multiplies the joined rows with the weight
  column on the host, adds the bias, and computes `1 / (1 + exp (-x))` with a negation, an exponential, an addition
  and a division; then it drops the unit column. `1 / (1 + exp (-x))` IS the logistic function of the extended reals
  (its definition), the literal `1.0` denoting the real 1, so the one-column array is `Spec.final`.
-/
import proofs.«401422_j10771777979113_2_alg».proof.Proof.Gen.ReferenceIdeal.Read
import proofs.«401422_j10771777979113_2_alg».proof.Proof.Chains
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The literal `1.0` denotes the real 1. -/
theorem one_literal : Ideal.ofBits .f32 0x3F800000#32 = 1 := by
  simp [Ideal.ofBits, Ideal.ieee, -EReal.coe_mul]; norm_num

/-- The joined rows are `Chains.pair` of layer 2's user and seller rows at the sampled pairs. -/
theorem joined_rows (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128x128, .f32⟩ : BufTy).Contents (Elt Ideal)) (x15 : (⟨S128, .f32⟩ : BufTy).Contents (Elt Ideal)) (x18 : (⟨S200000x2, .i32⟩ : BufTy).Contents (Elt Ideal)) (x19 : (⟨S1000000, .i32⟩ : BufTy).Contents (Elt Ideal)) (x20 : (⟨S1000000, .i32⟩ : BufTy).Contents (Elt Ideal)) (x21 : (⟨S1000000, .i32⟩ : BufTy).Contents (Elt Ideal)) (x22 : (⟨S1000000, .i32⟩ : BufTy).Contents (Elt Ideal)) (x23 : (⟨S100000, .i32⟩ : BufTy).Contents (Elt Ideal)) (x24 : (⟨S100000, .i32⟩ : BufTy).Contents (Elt Ideal)) :
    val_main_v137 (F := Ideal) x0 x1 x2 x3 x4 x5 x6 x7 x8 x9 x10 x11 x12 x13 x14 x15 x18 x19 x20 x21 x22 x23 x24 = Chains.pair (val_main_v121 (F := Ideal) x0 x1 x2 x3 x4 x5 x6 x7 x8 x9 x10 x11 x12 x18 x19 x20 x21 x22) x23 (val_main_v122 (F := Ideal) x0 x1 x2 x3 x4 x5 x6 x7 x8 x9 x13 x14 x15 x18 x19 x20 x21 x22) x24 := by
  unfold val_main_v137 val_main_v129 val_main_v136 Chains.pair
  rfl

/-- The one-column array before its unit column is dropped: `1 / (1 + exp (-(row · w + b)))`, which is the logistic
    function of `row · w + b`. -/
theorem column_eq (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128x128, .f32⟩ : BufTy).Contents (Elt Ideal)) (x15 : (⟨S128, .f32⟩ : BufTy).Contents (Elt Ideal)) (x16 : (⟨S256x1, .f32⟩ : BufTy).Contents (Elt Ideal)) (x17 : (⟨S1, .f32⟩ : BufTy).Contents (Elt Ideal)) (x18 : (⟨S200000x2, .i32⟩ : BufTy).Contents (Elt Ideal)) (x19 : (⟨S1000000, .i32⟩ : BufTy).Contents (Elt Ideal)) (x20 : (⟨S1000000, .i32⟩ : BufTy).Contents (Elt Ideal)) (x21 : (⟨S1000000, .i32⟩ : BufTy).Contents (Elt Ideal)) (x22 : (⟨S1000000, .i32⟩ : BufTy).Contents (Elt Ideal)) (x23 : (⟨S100000, .i32⟩ : BufTy).Contents (Elt Ideal)) (x24 : (⟨S100000, .i32⟩ : BufTy).Contents (Elt Ideal)) :
    val_main_v147 (F := Ideal) x0 x1 x2 x3 x4 x5 x6 x7 x8 x9 x10 x11 x12 x13 x14 x15 x16 x17 x18 x19 x20 x21 x22 x23 x24 = Spec.final (Chains.pair (val_main_v121 (F := Ideal) x0 x1 x2 x3 x4 x5 x6 x7 x8 x9 x10 x11 x12 x18 x19 x20 x21 x22) x23 (val_main_v122 (F := Ideal) x0 x1 x2 x3 x4 x5 x6 x7 x8 x9 x13 x14 x15 x18 x19 x20 x21 x22) x24) x16 x17 := by
  funext j
  obtain ⟨i, q, rfl⟩ : ∃ (i : Fin 100000) (q : Fin 1), j = ix2 i q := ⟨j 0, j 1, eq_ix2 j⟩
  rw [Spec.final_apply, val_main_v147_apply, val_main_v146_apply, val_main_cst_31_apply, val_main_v145_apply,
    val_main_v144_apply, val_main_cst_30_apply, val_main_v143_apply, val_main_v142_apply, val_main_v141_apply,
    val_main_v140_apply, val_main_v139_apply, val_main_v138_apply, joined_rows]
  have hb : idx_main_v139 (idx_main_v140 (ix2 i q)) = ix1 q := by
    funext a; apply Fin.ext
    match a with
    | ⟨0, _⟩ => show (0 : ℕ) = q.val; have hq : q.val < 1 := q.isLt; omega
  have hs : (∑ k : Fin 256, (Chains.pair (val_main_v121 (F := Ideal) x0 x1 x2 x3 x4 x5 x6 x7 x8 x9 x10 x11 x12 x18 x19 x20 x21 x22) x23 (val_main_v122 (F := Ideal) x0 x1 x2 x3 x4 x5 x6 x7 x8 x9 x13 x14 x15 x18 x19 x20 x21 x22) x24) (lidx_main_v138 (ix2 i q) k) * x16 (ridx_main_v138 (ix2 i q) k))
      = ∑ k : Fin 256, (Chains.pair (val_main_v121 (F := Ideal) x0 x1 x2 x3 x4 x5 x6 x7 x8 x9 x10 x11 x12 x18 x19 x20 x21 x22) x23 (val_main_v122 (F := Ideal) x0 x1 x2 x3 x4 x5 x6 x7 x8 x9 x13 x14 x15 x18 x19 x20 x21 x22) x24) (ix2 i k) * x16 (ix2 k q) := by
    refine Finset.sum_congr rfl fun k _ => ?_
    have hl : lidx_main_v138 (ix2 i q) k = ix2 i k := by
      funext a; match a with | ⟨0, _⟩ => rfl | ⟨1, _⟩ => rfl
    have hr : ridx_main_v138 (ix2 i q) k = ix2 k q := by
      funext a; match a with | ⟨0, _⟩ => rfl | ⟨1, _⟩ => rfl
    rw [hl, hr]
  rw [hb, hs]
  simp only [Ideal.hostDivf_def, Ideal.addf_def, Ideal.hostUnary_exp_def, Ideal.hostNegf_def, Ideal.negf_def,
    Ideal.ofBits_def, one_literal]
  rfl

/-- The result is the flattened `Spec.final` of the sampled pairs' joined rows, the weight column and the bias. -/
theorem stage_out (x0 : (⟨S200000x64, .f32⟩ : BufTy).Contents (Elt Ideal)) (x1 : (⟨S50000x64, .f32⟩ : BufTy).Contents (Elt Ideal)) (x2 : (⟨S9x32, .f32⟩ : BufTy).Contents (Elt Ideal)) (x3 : (⟨S3x32, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128x128, .f32⟩ : BufTy).Contents (Elt Ideal)) (x15 : (⟨S128, .f32⟩ : BufTy).Contents (Elt Ideal)) (x16 : (⟨S256x1, .f32⟩ : BufTy).Contents (Elt Ideal)) (x17 : (⟨S1, .f32⟩ : BufTy).Contents (Elt Ideal)) (x18 : (⟨S200000x2, .i32⟩ : BufTy).Contents (Elt Ideal)) (x19 : (⟨S1000000, .i32⟩ : BufTy).Contents (Elt Ideal)) (x20 : (⟨S1000000, .i32⟩ : BufTy).Contents (Elt Ideal)) (x21 : (⟨S1000000, .i32⟩ : BufTy).Contents (Elt Ideal)) (x22 : (⟨S1000000, .i32⟩ : BufTy).Contents (Elt Ideal)) (x23 : (⟨S100000, .i32⟩ : BufTy).Contents (Elt Ideal)) (x24 : (⟨S100000, .i32⟩ : BufTy).Contents (Elt Ideal)) :
    val_main_v148 (F := Ideal) x0 x1 x2 x3 x4 x5 x6 x7 x8 x9 x10 x11 x12 x13 x14 x15 x16 x17 x18 x19 x20 x21 x22 x23 x24
      = Chains.flat (Spec.final (Chains.pair (val_main_v121 (F := Ideal) x0 x1 x2 x3 x4 x5 x6 x7 x8 x9 x10 x11 x12 x18 x19 x20 x21 x22) x23 (val_main_v122 (F := Ideal) x0 x1 x2 x3 x4 x5 x6 x7 x8 x9 x13 x14 x15 x18 x19 x20 x21 x22) x24) x16 x17) := by
  unfold val_main_v148 Chains.flat
  rw [column_eq]

end Cert.ReferenceIdeal.RefValue

end
-- ==== Proof.RefEmbed.lean ====
/-
  The reference's user input rows, entry by entry.

  The reference reads the age table at column 0 of the index pairs and the gender table at column 1 — a gather whose
  start index is first moved up by the table's length when negative and is clamped into the table by the gather itself
  — and joins the two 32-column results with the users' 64 features. When the two columns hold row numbers `a i < 9`
  and `g i < 3`, nothing is moved and nothing is clamped: row `i` is the age table's row `a i`, the gender table's row
  `g i`, and the user's own features: `Spec.embed`.
-/
import proofs.«401422_j10771777979113_2_alg».proof.Proof.Gen.ReferenceIdeal.Read
import proofs.«401422_j10771777979113_2_alg».proof.Proof.Chains
import proofs.«401422_j10771777979113_2_alg».proof.Proof.Spec
import proofs.«401422_j10771777979113_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx
open scoped BigOperators

/-- A gather of whole rows of a table: the start indices are an [n × 1] column of row numbers, the table's row axis is
    collapsed and start-indexed, its column axis is the result's one offset axis. Result entry `(p, q)` is the table at
    column `q` of the row that start index `p` names, read signed and clamped into the table. -/
theorem gather_rows {α : Type} {N n m w : Nat} (d : GatherDims ⟨2, ![N, m]⟩ ⟨2, ![n, 1]⟩ ⟨2, ![n, m]⟩)
    (hoff : d.offsetDims = [1]) (hcoll : d.collapsedSliceDims = [0]) (hob : d.operandBatchingDims = [])
    (hsim : d.startIndexMap = [0]) (hivd : d.indexVectorDim = 1)
    (x : (⟨2, ![N, m]⟩ : Shape).Idx → α) (idx : IVec ⟨2, ![n, 1]⟩ w) (p : Fin n) (q : Fin m) (hN : 0 < N) :
    Host.gather d x idx (ix2 p q) = x (ix2 ⟨min (idx (ix2 p (0 : Fin 1))).toInt.toNat (N - 1), by omega⟩ q) := by
  have hsl : d.sliceSizes 0 = 1 := d.slice_collapsed 0 (by rw [hcoll]; exact List.mem_singleton.mpr rfl)
  unfold Host.gather
  refine congrArg x (funext fun a => Fin.ext ?_)
  match a with
  | ⟨0, _⟩ =>
    -- the row: the clamped start index; no batching and no offset on the collapsed axis
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ix2 p (0 : Fin 1))).toInt.toNat (N - 1)
    rw [GatherDims.batchCoord_eq_zero _ _ _ hb, GatherDims.offCoord_eq_zero _ _ _ hk]
    simp only [Nat.add_zero, GatherDims.start, dif_pos hm]
    show min (idx (d.siIdx (ix2 p q) _)).toInt.toNat (N - d.sliceSizes 0) = _
    rw [hsl]
    refine congrArg (fun z => min (idx z).toInt.toNat (N - 1)) (funext fun b => ?_)
    match b with
    | ⟨0, _⟩ =>
      -- the result's one batch axis is axis 0: it reads the start indices' row
      have key : ∀ X : Fin 2, X ∈ d.batchDims → ((ix2 p q : (⟨2, ![n, m]⟩ : Shape).Idx) X).val = p.val := by
        intro X hX
        have h0 : X = 0 := by
          simp only [GatherDims.batchDims, Shape.kept, hoff, List.mem_filter, List.mem_finRange] at hX
          fin_cases X <;> simp_all
        subst h0; rfl
      unfold GatherDims.siIdx
      rw [dif_neg (by rw [hivd]; simp)]
      unfold GatherDims.siCoord
      apply Fin.ext
      simp only [Fin.val_cast]
      exact key _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column: the result's offset coordinate; no start index and no batching on this axis
    have hb : (1 : Fin 2) ∉ d.operandBatchingDims := by rw [hob]; exact List.not_mem_nil
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ hb]
    simp only [Nat.add_zero, GatherDims.start, dif_neg hm, Nat.zero_add, GatherDims.offCoord, dif_pos hk]
    have key : ∀ X : Fin 2, X ∈ d.offsetDims → ((ix2 p q : (⟨2, ![n, m]⟩ : Shape).Idx) X).val = q.val := by
      intro X hX
      rw [hoff, List.mem_singleton] at hX
      subst hX; rfl
    exact key _ (List.getElem_mem _)

/-- A small non-negative index word is not moved by "add the table's length when negative". -/
theorem wrap_small (k : ℕ) (hk : k < 2 ^ 31) (X : BitVec 32) :
    Scalar.select (IntOp.cmpi .slt (BitVec.ofNat 32 k) 0#32) X (BitVec.ofNat 32 k) = BitVec.ofNat 32 k := by
  have h : IntOp.cmpi .slt (BitVec.ofNat 32 k) 0#32 = 0#1 := by
    apply eq_zero_of_ne_one
    intro h1
    have h2 : k < 0 := (StableHlo.Predicate.slt_ofNat_iff k 0 hk (by norm_num)).mp h1
    omega
  rw [h, select_zero]

/-- A small word read signed, then clamped into a table that has that row, is the row number. -/
theorem clamp_small (k n : ℕ) (hk : k ≤ n) (hn : n < 2 ^ 31) : min (BitVec.ofNat 32 k).toInt.toNat n = k := by
  rw [StableHlo.Predicate.toInt_ofNat_small k (by omega), Int.toNat_natCast]
  omega

/-- The age gather's start index at row `i`: the age index itself. -/
theorem start_age (x18 : (⟨S200000x2, .i32⟩ : BufTy).Contents (Elt Ideal)) (a : Fin 200000 → Fin 9)
    (ha : ∀ i : Fin 200000, x18 (ix2 i (0 : Fin 2)) = BitVec.ofNat 32 (a i).val) (i : Fin 200000) :
    val_main_v7 (F := Ideal) x18 (ix2 i (0 : Fin 1)) = BitVec.ofNat 32 (a i).val := by
  have hx : val_main_v1 (F := Ideal) x18 (idx_main_v7 (ix2 i (0 : Fin 1))) = BitVec.ofNat 32 (a i).val := by
    rw [val_main_v1_apply, val_main_v0_apply]
    refine Eq.trans (congrArg x18 ?_) (ha i)
    funext b; apply Fin.ext
    match b with
    | ⟨0, _⟩ => show i.val / 1 = i.val; exact Nat.div_one _
    | ⟨1, _⟩ => rfl
  rw [val_main_v7_apply, val_main_v6_apply, val_main_v3_apply, hx, val_main_v2_apply, val_main_c_apply]
  exact wrap_small _ (by have := (a i).isLt; omega) _

/-- The gender gather's start index at row `i`: the gender index itself. -/
theorem start_gen (x18 : (⟨S200000x2, .i32⟩ : BufTy).Contents (Elt Ideal)) (g : Fin 200000 → Fin 3)
    (hg : ∀ i : Fin 200000, x18 (ix2 i (1 : Fin 2)) = BitVec.ofNat 32 (g i).val) (i : Fin 200000) :
    val_main_v16 (F := Ideal) x18 (ix2 i (0 : Fin 1)) = BitVec.ofNat 32 (g i).val := by
  have hx : val_main_v10 (F := Ideal) x18 (idx_main_v16 (ix2 i (0 : Fin 1))) = BitVec.ofNat 32 (g i).val := by
    rw [val_main_v10_apply, val_main_v9_apply]
    refine Eq.trans (congrArg x18 ?_) (hg i)
    funext b; apply Fin.ext
    match b with
    | ⟨0, _⟩ => show i.val / 1 = i.val; exact Nat.div_one _
    | ⟨1, _⟩ => rfl
  rw [val_main_v16_apply, val_main_v15_apply, val_main_v12_apply, hx, val_main_v11_apply, val_main_c_1_apply]
  exact wrap_small _ (by have := (g i).isLt; omega) _

/-- The age gather at `(i, q)`: the age table's row `a i`. -/
theorem age_apply (x2 : (⟨S9x32, .f32⟩ : BufTy).Contents (Elt Ideal)) (x18 : (⟨S200000x2, .i32⟩ : BufTy).Contents (Elt Ideal))
    (a : Fin 200000 → Fin 9) (ha : ∀ i : Fin 200000, x18 (ix2 i (0 : Fin 2)) = BitVec.ofNat 32 (a i).val)
    (i : Fin 200000) (q : Fin 32) :
    val_main_v8 (F := Ideal) x2 x18 (ix2 i q) = x2 (ix2 (a i) q) := by
  unfold val_main_v8
  rw [gather_rows gather_S9x32_S200000x1_S200000x32_1_0_n_n_0_1_132 rfl rfl rfl rfl rfl x2 (val_main_v7 (F := Ideal) x18) i q (by norm_num)]
  refine congrArg (fun z => x2 (ix2 z q)) (Fin.ext ?_)
  show min (val_main_v7 (F := Ideal) x18 (ix2 i (0 : Fin 1))).toInt.toNat (9 - 1) = (a i).val
  rw [start_age x18 a ha i]
  exact clamp_small _ _ (by have := (a i).isLt; omega) (by norm_num)

/-- The gender gather at `(i, q)`: the gender table's row `g i`. -/
theorem gen_apply (x3 : (⟨S3x32, .f32⟩ : BufTy).Contents (Elt Ideal)) (x18 : (⟨S200000x2, .i32⟩ : BufTy).Contents (Elt Ideal))
    (g : Fin 200000 → Fin 3) (hg : ∀ i : Fin 200000, x18 (ix2 i (1 : Fin 2)) = BitVec.ofNat 32 (g i).val)
    (i : Fin 200000) (q : Fin 32) :
    val_main_v17 (F := Ideal) x3 x18 (ix2 i q) = x3 (ix2 (g i) q) := by
  unfold val_main_v17
  rw [gather_rows gather_S3x32_S200000x1_S200000x32_1_0_n_n_0_1_132 rfl rfl rfl rfl rfl x3 (val_main_v16 (F := Ideal) x18) i q (by norm_num)]
  refine congrArg (fun z => x3 (ix2 z q)) (Fin.ext ?_)
  show min (val_main_v16 (F := Ideal) x18 (ix2 i (0 : Fin 1))).toInt.toNat (3 - 1) = (g i).val
  rw [start_gen x18 g hg i]
  exact clamp_small _ _ (by have := (g i).isLt; omega) (by norm_num)

/-- The user input rows are `Spec.embed` when the two index columns hold the row numbers `a` and `g`. -/
theorem stage_xu (x0 : (⟨S200000x64, .f32⟩ : BufTy).Contents (Elt Ideal)) (x2 : (⟨S9x32, .f32⟩ : BufTy).Contents (Elt Ideal)) (x3 : (⟨S3x32, .f32⟩ : BufTy).Contents (Elt Ideal)) (x18 : (⟨S200000x2, .i32⟩ : BufTy).Contents (Elt Ideal)) (a : Fin 200000 → Fin 9) (g : Fin 200000 → Fin 3)
    (ha : ∀ i : Fin 200000, x18 (ix2 i (0 : Fin 2)) = BitVec.ofNat 32 (a i).val)
    (hg : ∀ i : Fin 200000, x18 (ix2 i (1 : Fin 2)) = BitVec.ofNat 32 (g i).val) :
    val_main_v18 (F := Ideal) x0 x2 x3 x18 = Spec.embed a g x2 x3 x0 := by
  funext j
  obtain ⟨i, q, rfl⟩ : ∃ (i : Fin 200000) (q : Fin 128), j = ix2 i q := ⟨j 0, j 1, eq_ix2 j⟩
  rw [Spec.embed_apply]
  unfold val_main_v18
  have hq : q.val < 128 := q.isLt
  by_cases h1 : q.val < 32
  · -- columns 0–31: the first joined piece, the age gather
    rw [dif_pos h1]
    refine (concatenate_apply_piece (α := Elt Ideal .f32) (t := S200000x128) 1 [⟨S200000x32, val_main_v8 (F := Ideal) x2 x18⟩, ⟨S200000x32, val_main_v17 (F := Ideal) x3 x18⟩, ⟨S200000x64, x0⟩] concatenates_S200000x32_S200000x32_S200000x64_S200000x128_d1 (ix2 i q)
      0 (by simp) S200000x32 (val_main_v8 (F := Ideal) x2 x18) rfl rfl 0 rfl (ix2 i (⟨q.val, h1⟩ : Fin 32)) ?_ ?_).trans
      (age_apply x2 x18 a ha i ⟨q.val, h1⟩)
    · intro b hb
      match b with
      | ⟨0, _⟩ => rfl
      | ⟨1, _⟩ => exact absurd rfl hb
    · show 0 + q.val = q.val; omega
  · rw [dif_neg h1]
    by_cases h2 : q.val < 64
    · -- columns 32–63: the second piece, the gender gather, 32 columns in
      rw [dif_pos h2]
      refine (concatenate_apply_piece (α := Elt Ideal .f32) (t := S200000x128) 1 [⟨S200000x32, val_main_v8 (F := Ideal) x2 x18⟩, ⟨S200000x32, val_main_v17 (F := Ideal) x3 x18⟩, ⟨S200000x64, x0⟩] concatenates_S200000x32_S200000x32_S200000x64_S200000x128_d1 (ix2 i q)
        1 (by simp) S200000x32 (val_main_v17 (F := Ideal) x3 x18) rfl rfl 32 rfl (ix2 i (⟨q.val - 32, by omega⟩ : Fin 32)) ?_ ?_).trans
        (gen_apply x3 x18 g hg i ⟨q.val - 32, by omega⟩)
      · intro b hb
        match b with
        | ⟨0, _⟩ => rfl
        | ⟨1, _⟩ => exact absurd rfl hb
      · show 32 + (q.val - 32) = q.val; omega
    · -- columns 64–127: the third piece, the users' own features, 64 columns in
      rw [dif_neg h2]
      refine concatenate_apply_piece (α := Elt Ideal .f32) (t := S200000x128) 1 [⟨S200000x32, val_main_v8 (F := Ideal) x2 x18⟩, ⟨S200000x32, val_main_v17 (F := Ideal) x3 x18⟩, ⟨S200000x64, x0⟩] concatenates_S200000x32_S200000x32_S200000x64_S200000x128_d1 (ix2 i q)
        2 (by simp) S200000x64 x0 rfl rfl 64 rfl (ix2 i (⟨q.val - 64, by omega⟩ : Fin 64)) ?_ ?_
      · intro b hb
        match b with
        | ⟨0, _⟩ => rfl
        | ⟨1, _⟩ => exact absurd rfl hb
      · show 64 + (q.val - 64) = q.val; omega

end Cert.ReferenceIdeal.RefValue

end
-- ==== Proof.RefSide.lean ====
/-
  The reference program's result as one function of the argument arrays.

  The reference is a straight line of host operations. Its result, stage by stage: the flattened logistic unit over
  the sampled pairs' joined rows; those rows are layer 2's user and seller rows; each layer-2 update is `Spec.sage` of a
  neighbourhood mean of layer 1's rows and of layer 1's own rows; each layer-1 update is `Spec.sage` of a mean of the
  input rows; and the user input rows are `Spec.embed` once the two index columns hold row numbers. Substituting from
  the result down gives `Compose.result` with the neighbourhood means and the sampling as the shared functions.
-/
import proofs.«401422_j10771777979113_2_alg».proof.Proof.RefStageU1
import proofs.«401422_j10771777979113_2_alg».proof.Proof.RefStageS1
import proofs.«401422_j10771777979113_2_alg».proof.Proof.RefStageU2
import proofs.«401422_j10771777979113_2_alg».proof.Proof.RefStageS2
import proofs.«401422_j10771777979113_2_alg».proof.Proof.RefStageOut
import proofs.«401422_j10771777979113_2_alg».proof.Proof.RefEmbed

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- THE REFERENCE'S RESULT is the network's result as one function of the argument arrays, when the two index columns
    hold the row numbers `a` and `g`. -/
theorem res_eq (m : (ℓ : Loc nD τ sig) → Buf (Elt Ideal) ℓ) (c : Dev nD) (a : Fin 200000 → Fin 9) (g : Fin 200000 → Fin 3)
    (ha : ∀ i : Fin 200000, (m ((c.tc : Thread nD τ).loc main_arg18) : (⟨2, ![200000, 2]⟩ : Shape).Idx → BitVec 32) (ix2 i (0 : Fin 2)) = BitVec.ofNat 32 (a i).val)
    (hg : ∀ i : Fin 200000, (m ((c.tc : Thread nD τ).loc main_arg18) : (⟨2, ![200000, 2]⟩ : Shape).Idx → BitVec 32) (ix2 i (1 : Fin 2)) = BitVec.ofNat 32 (g i).val) :
    Cert.ReferenceIdeal.Value.res_main_v148 (F := Ideal) m c
      = Compose.result Chains.meanA Chains.meanB Chains.meanC Chains.meanD Chains.pair Chains.flat a g (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [val_main_v148_eq, stage_out, stage_u2, stage_s2, stage_u1, stage_s1,
    stage_xu (m ((c.tc : Thread nD τ).loc main_arg0)) (m ((c.tc : Thread nD τ).loc main_arg2)) (m ((c.tc : Thread nD τ).loc main_arg3)) (m ((c.tc : Thread nD τ).loc main_arg18)) a g ha hg]
  rfl

end Cert.ReferenceIdeal.RefValue

end
-- ==== Proof.PreDecode.lean ====
/-
  What the precondition says about the users' two index columns.

  The precondition is a conjunction whose last two conjuncts say: every entry of column 0 of the index pairs is at
  least 0 and less than 9 (as signed 32-bit integers), and every entry of column 1 is at least 0 and less than 3. A
  signed word in [0, n) with n small IS the word of a natural number below n, so each column is a function into the
  corresponding table's row range. The eighteen finiteness conjuncts in front are not opened.
-/
import proofs.«401422_j10771777979113_2_alg».proof.Pre_finite_inputs
import proofs.«401422_j10771777979113_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.Proof.PreDecode

open Cert.Pre_finite_inputs Idealize.ShloMosaic Idealize.ShloMosaic.ValueIdx

/-- The scalar shape has one index. -/
instance : Subsingleton S_.Idx := ⟨fun a b => funext fun d => d.elim0⟩

/-- A word is the word of its own value. -/
theorem eq_ofNat_toNat (w : BitVec 32) : w = BitVec.ofNat 32 w.toNat := by
  apply BitVec.eq_of_toNat_eq
  rw [BitVec.toNat_ofNat]
  exact (Nat.mod_eq_of_lt w.isLt).symm

/-- A word that is at least 0 and less than a small n, both read signed, has a value below n: being nonnegative its
    top bit is clear, so its signed and unsigned readings agree. -/
theorem toNat_lt_of_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  have hw : 2 * w.toNat < 2 ^ 32 := BitVec.toInt_pos_iff.1 h0
  rw [IntOp.cmpi_slt, BitVec.toInt_eq_toNat_of_lt hw, StableHlo.Predicate.toInt_ofNat_small n hn] at h1
  omega

/-- Column c of the pairs, cut out as a [200000 × 1] slice at offset (0, c) and flattened to a vector, reads at row i
    the pair array at (i, c): the flattening keeps the row-major position i·1 + 0 = i, the slice shifts the column by c. -/
theorem col_read (x : IVec S200000x2 32) (off : Fin 2 → Nat) (c : Fin 2) (ho0 : off 0 = 0) (ho1 : off 1 = c.val)
    (hs : S200000x2.Slices off S200000x1) (hc : S200000x1.ShapeCasts S200000) (i : Fin 200000) :
    shapeCast S200000 (extractStridedSlice S200000x1 off x hs) hc (ix1 i) = x (ix2 i c) := by
  refine (shapeCast_apply _ hc (ix1 i) (ix2 i (0 : Fin 1)) ?_).trans ?_
  · rw [Shape.rowMajor_val_two, Shape.rowMajor_val_one]
    show i.val * 1 + 0 = i.val
    omega
  · refine extractStridedSlice_apply off x hs _ (ix2 i c) ?_
    intro a
    match a with
    | ⟨0, _⟩ => show i.val = off 0 + i.val; omega
    | ⟨1, _⟩ => show c.val = off 1 + 0; omega

/-- ONE COLUMN'S CONJUNCT READ AT A ROW. The conjunct is the and-reduction, over all rows, of "column c is at least 0"
    and "column c is less than n" (each a signed comparison of the flattened column with a broadcast constant). If it
    is 1 then every row's entry has a value below n. -/
theorem col_range (x : IVec S200000x2 32) (off : Fin 2 → Nat) (c : Fin 2) (ho0 : off 0 = 0) (ho1 : off 1 = c.val)
    (hs : S200000x2.Slices off S200000x1) (hc : S200000x1.ShapeCasts S200000)
    (hb : S_.BroadcastsInDim S200000 (![] : Fin 0 → Fin S200000.rank)) (hr : S200000.ReducesTo [0] S_) (hu : 0 < S_.numel)
    (n : Nat) (hn : n < 2 ^ 31)
    (e : Host.reduce IntOp.andi
          (andi
            (cmpi .sge (shapeCast S200000 (extractStridedSlice S200000x1 off x hs) hc)
              (broadcastInDim S200000 ![] hb (constantI S_ 32 0#32)))
            (cmpi .slt (shapeCast S200000 (extractStridedSlice S200000x1 off x hs) hc)
              (broadcastInDim S200000 ![] hb (constantI S_ 32 (BitVec.ofNat 32 n)))))
          (constantI S_ 1 1#1) hr hu ix0 = 1#1)
    (i : Fin 200000) : (x (ix2 i c)).toNat < n := by
  have hall := Host.reduce_andi_all _ _ hr hu ix0 e (ix1 i)
  obtain ⟨h0, h1⟩ := IntOp.andi_eq_one.1 hall
  have h0' : IntOp.cmpi .sge (shapeCast S200000 (extractStridedSlice S200000x1 off x hs) hc (ix1 i)) 0#32 = 1#1 := h0
  have h1' : IntOp.cmpi .slt (shapeCast S200000 (extractStridedSlice S200000x1 off x hs) hc (ix1 i)) (BitVec.ofNat 32 n) = 1#1 := h1
  rw [col_read x off c ho0 ho1 hs hc i] at h0' h1'
  exact toNat_lt_of_range _ n hn h0' h1'

/-- THE LAST TWO CONJUNCTS. The fifth and sixth parts of the printed precondition take the running conjunction of the
    finiteness conjuncts (here any bit v83, and the two float operands the fifth part still consumes) and and it with
    column 0's conjunct and then column 1's. If the whole is 1, both column conjuncts are 1, and each read at a row
    bounds that row's entry. -/
theorem last_two [Facts] (x18 : IVec S200000x2 32) (v83 : IVec S_ 1) (v84 : FVec Ideal S1 .f32) (cst : FVec Ideal S_ .f32)
    (e : fn_part5 (F := Ideal) x18 v83 v84 cst ix0 = 1#1) :
    (∀ i : Fin 200000, (x18 (ix2 i (0 : Fin 2))).toNat < 9) ∧ (∀ i : Fin 200000, (x18 (ix2 i (1 : Fin 2))).toNat < 3) := by
  dsimp only [fn_part5, fn_part6] at e
  -- the value is (finiteness ∧ column 0's conjunct) ∧ column 1's conjunct
  obtain ⟨e99, e109⟩ := IntOp.andi_eq_one.1 e
  obtain ⟨-, e98⟩ := IntOp.andi_eq_one.1 e99
  exact ⟨col_range x18 ![0, 0] 0 rfl rfl _ _ _ _ _ 9 (by norm_num) e98, col_range x18 ![0, 1] 1 rfl rfl _ _ _ _ _ 3 (by norm_num) e109⟩

/-- Under the precondition, column 0 of the index pairs holds row numbers of the 9-row table and column 1 row numbers
    of the 3-row table. -/
theorem rows [Cert.Pre_finite_inputs.Facts]
    (x0 : FVec Ideal S200000x64 .f32) (x1 : FVec Ideal S50000x64 .f32) (x2 : FVec Ideal S9x32 .f32) (x3 : FVec Ideal S3x32 .f32)
    (x4 : FVec Ideal S64x128 .f32) (x5 : FVec Ideal S128x128 .f32) (x6 : FVec Ideal S128 .f32)
    (x7 : FVec Ideal S128x128 .f32) (x8 : FVec Ideal S64x128 .f32) (x9 : FVec Ideal S128 .f32)
    (x10 : FVec Ideal S128x128 .f32) (x11 : FVec Ideal S128x128 .f32) (x12 : FVec Ideal S128 .f32)
    (x13 : FVec Ideal S128x128 .f32) (x14 : FVec Ideal S128x128 .f32) (x15 : FVec Ideal S128 .f32)
    (x16 : FVec Ideal S256x1 .f32) (x17 : FVec Ideal S1 .f32) (x18 : IVec S200000x2 32)
    (x19 x20 x21 x22 : IVec S1000000 32) (x23 x24 : IVec S100000 32)
    (h : fn (F := Ideal) x0 x1 x2 x3 x4 x5 x6 x7 x8 x9 x10 x11 x12 x13 x14 x15 x16 x17 x18 x19 x20 x21 x22 x23 x24 = fun _ => 1#1) :
    ∃ (a : Fin 200000 → Fin 9) (g : Fin 200000 → Fin 3),
      (∀ i : Fin 200000, x18 (ix2 i (0 : Fin 2)) = BitVec.ofNat 32 (a i).val)
      ∧ (∀ i : Fin 200000, x18 (ix2 i (1 : Fin 2)) = BitVec.ofNat 32 (g i).val) := by
  -- the precondition at its one index; the first four parts only hand their running conjunction on to the fifth
  obtain ⟨h0, h1⟩ := last_two x18 _ _ _ (congrFun h ix0)
  exact ⟨fun i => ⟨_, h0 i⟩, fun i => ⟨_, h1 i⟩, fun i => eq_ofNat_toNat _, fun i => eq_ofNat_toNat _⟩

end Cert.Proof.PreDecode

end
-- ==== Proof.lean ====
/-
  Kernel and reference compute the same two-layer graph network.

  The network: user input rows (an age-table row, a gender-table row and the user's own features, side by side); two
  rounds in which each node type's rows become `max (mean · Wl + own · Wr + b, 0)`, the mean taken over the node's
  incoming edges of the other type's rows; and a logistic unit over the joined layer-2 rows of 100000 sampled
  (user, seller) pairs. The kernel program runs the dense stages — the input rows, the four updates, the logistic unit —
  as six blocked kernels and the neighbourhood means and the sampling as host operations between them; the reference
  runs everything as host operations.

  Where they could differ is the input rows: the kernel picks a table row by comparing the index with every row number
  and multiplying the resulting 0/1 matrix with the table, so an index outside the table picks up nothing; the reference
  gathers, which moves a negative index up and clamps. The precondition says the two index columns are inside their
  tables (9 and 3 rows), and there the two agree. Everything else is the same arithmetic in the same order — a blocked
  product summed over its inner width is the whole product's entry, a change of float format is the identity on the
  extended reals, and `1 / (1 + exp (-x))` is the logistic function — so no law that needs finite values is used.

  The pieces: each kernel's result array as one entry-by-entry function of the arrays it read (`Region0` … `Region5`);
  the kernel program's result as the composition of those with the shared host functions (`Walk.result_eq`); the
  reference's result as the same composition (`RefValue.res_eq`); the row numbers from the precondition
  (`PreDecode.rows`). The three frames are the generated ones; nothing was idealized by rewriting, so the kernel's
  idealization claim has no conjunct.
-/
import proofs.«401422_j10771777979113_2_alg».proof.Defs
import proofs.«401422_j10771777979113_2_alg».proof.Proof.Gen.Kernel
import proofs.«401422_j10771777979113_2_alg».proof.Proof.Gen.Kernel.Skeleton
import proofs.«401422_j10771777979113_2_alg».proof.Proof.Gen.Kernel.Launch
import proofs.«401422_j10771777979113_2_alg».proof.Proof.Gen.Kernel.Points
import proofs.«401422_j10771777979113_2_alg».proof.Proof.Gen.Kernel.Frame
import proofs.«401422_j10771777979113_2_alg».proof.Proof.Gen.KernelIdeal
import proofs.«401422_j10771777979113_2_alg».proof.Proof.Gen.KernelIdeal.Skeleton
import proofs.«401422_j10771777979113_2_alg».proof.Proof.Gen.KernelIdeal.Launch
import proofs.«401422_j10771777979113_2_alg».proof.Proof.Gen.KernelIdeal.Points
import proofs.«401422_j10771777979113_2_alg».proof.Proof.Gen.KernelIdeal.Frame
import proofs.«401422_j10771777979113_2_alg».proof.Proof.Gen.ReferenceIdeal
import proofs.«401422_j10771777979113_2_alg».proof.Proof.Gen.ReferenceIdeal.Run
import proofs.«401422_j10771777979113_2_alg».proof.Proof.Gen.ReferenceIdeal.Read
import proofs.«401422_j10771777979113_2_alg».proof.Proof.Gen.Pre_finite_inputs
import proofs.«401422_j10771777979113_2_alg».proof.Proof.KRun
import proofs.«401422_j10771777979113_2_alg».proof.Proof.KWalk
import proofs.«401422_j10771777979113_2_alg».proof.Proof.RefSide
import proofs.«401422_j10771777979113_2_alg».proof.Proof.PreDecode
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, the two programs end with the same result:
    both end at `Compose.result` of the arguments, with the row numbers the precondition gives. -/
theorem algebraic : Cert.algebraic_KernelIdeal_ReferenceIdeal := by
  intro m ρ m' ρ' hpre hagree
  have hrows : ∀ c : Dev Cert.KernelIdeal.nD, ∃ (a : Fin 200000 → Fin 9) (g : Fin 200000 → Fin 3),
      (∀ i : Fin 200000, (m ((c.tc : Thread Cert.KernelIdeal.nD Cert.KernelIdeal.τ).loc Cert.KernelIdeal.main_arg18)
          : (⟨2, ![200000, 2]⟩ : Shape).Idx → BitVec 32) (ix2 i (0 : Fin 2)) = BitVec.ofNat 32 (a i).val)
      ∧ (∀ i : Fin 200000, (m ((c.tc : Thread Cert.KernelIdeal.nD Cert.KernelIdeal.τ).loc Cert.KernelIdeal.main_arg18)
          : (⟨2, ![200000, 2]⟩ : Shape).Idx → BitVec 32) (ix2 i (1 : Fin 2)) = BitVec.ofNat 32 (g i).val) :=
    fun c => Cert.Proof.PreDecode.rows _ _ _ _ _ _ _ _ _ _ _ _ _ _ _ _ _ _ _ _ _ _ _ _ _ (hpre c)
  choose a g hag using hrows
  refine ⟨fun c => Cert.Compose.result Cert.ReferenceIdeal.Chains.meanA Cert.ReferenceIdeal.Chains.meanB
        Cert.ReferenceIdeal.Chains.meanC Cert.ReferenceIdeal.Chains.meanD Cert.ReferenceIdeal.Chains.pair
        Cert.ReferenceIdeal.Chains.flat (a c) (g c)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg22))
        (m ((c.tc : Thread Cert.KernelIdeal.nD Cert.KernelIdeal.τ).loc Cert.KernelIdeal.main_arg23))
        (m ((c.tc : Thread Cert.KernelIdeal.nD Cert.KernelIdeal.τ).loc Cert.KernelIdeal.main_arg24)), ?_, ?_⟩
  · exact (θ_run Cert.KernelIdeal.defs _ _).mono
      (fun r h c => ⟨((h c).1).trans (Cert.KernelIdeal.Walk.result_eq m ρ c (a c) (g c) (hag c).1 (hag c).2), (h c).2⟩)
      (Cert.KernelIdeal.ValueRun.run_val (F := Ideal) m ρ)
  · refine (θ_run Cert.ReferenceIdeal.defs _ _).mono (fun r h c => ⟨((h c).1).trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24⟩ := hagree c
    rw [Cert.ReferenceIdeal.RefValue.res_eq m' c (a c) (g c) (by rw [h18]; exact (hag c).1) (by rw [h18]; exact (hag c).2)]
    rw [h0, h1, h2, h3, h4, h5, h6, h7, h8, h9, h10, h11, h12, h13, h14, h15, h16, h17, h19, h20, h21, h22, h23, h24]

/-- The certificate: the three frames, the (empty) idealization claim, and the equality of results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
